-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "c_2_7" .f32 0x3E924925#32 ((2 / 7 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S6291456 : Shape := ⟨1, ![6291456]⟩
abbrev S524288 : Shape := ⟨1, ![524288]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S524288 : S_.BroadcastsInDim S524288 (![] : Fin 0 → Fin S524288.rank)
  reducesTo_S524288_S_d0 : S524288.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : IVec S6291456 32) (main_arg2 : FVec F S524288 .f32) (main_arg3 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S524288 .f32 := Host.absf main_arg2
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x2048x4096 : Shape := ⟨3, ![2, 2048, 4096]⟩
abbrev S6291456 : Shape := ⟨1, ![6291456]⟩
abbrev S524288 : Shape := ⟨1, ![524288]⟩
abbrev S4096 : Shape := ⟨1, ![4096]⟩
abbrev S524288x12 : Shape := ⟨2, ![524288, 12]⟩
abbrev S524288x1 : Shape := ⟨2, ![524288, 1]⟩
abbrev S524288x32 : Shape := ⟨2, ![524288, 32]⟩
abbrev S8192x12 : Shape := ⟨2, ![8192, 12]⟩
abbrev S8192x1 : Shape := ⟨2, ![8192, 1]⟩
abbrev S8192x32 : Shape := ⟨2, ![8192, 32]⟩
abbrev S512x12 : Shape := ⟨2, ![512, 12]⟩
abbrev S512x4x3 : Shape := ⟨3, ![512, 4, 3]⟩
abbrev S512x4x1 : Shape := ⟨3, ![512, 4, 1]⟩
abbrev S512x4 : Shape := ⟨2, ![512, 4]⟩
abbrev S512x4x8 : Shape := ⟨3, ![512, 4, 8]⟩
abbrev S512x1 : Shape := ⟨2, ![512, 1]⟩
abbrev S512x1x1 : Shape := ⟨3, ![512, 1, 1]⟩
abbrev S512x32 : Shape := ⟨2, ![512, 32]⟩
abbrev S16777216 : Shape := ⟨1, ![16777216]⟩
abbrev S4096x4096 : Shape := ⟨2, ![4096, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 14
  | .vmem => 15
  | .smem => 0
  | _ => 0

abbrev bufTy : (tb : Table) → Fin (tcTables nBuf tb) → BufTy
  | .hbm, ⟨0, _⟩ => ⟨S2x2048x4096, .f32⟩
  | .hbm, ⟨1, _⟩ => ⟨S6291456, .i32⟩
  | .hbm, ⟨2, _⟩ => ⟨S524288, .f32⟩
  | .hbm, ⟨3, _⟩ => ⟨S4096, .f32⟩
  | .hbm, ⟨4, _⟩ => ⟨S524288x12, .i32⟩
  | .hbm, ⟨5, _⟩ => ⟨S524288x1, .f32⟩
  | .hbm, ⟨6, _⟩ => ⟨S524288x32, .bf16⟩
  | .hbm, ⟨7, _⟩ => ⟨S16777216, .bf16⟩
  | .hbm, ⟨8, _⟩ => ⟨S4096x4096, .bf16⟩
  | .hbm, ⟨9, _⟩ => ⟨S4096x4096, .f32⟩
  | .hbm, ⟨10, _⟩ => ⟨S4096x4096, .bf16⟩
  | .hbm, ⟨11, _⟩ => ⟨S1x4096, .f32⟩
  | .hbm, ⟨12, _⟩ => ⟨S4096x4096, .f32⟩
  | .hbm, ⟨13, _⟩ => ⟨S2x2048x4096, .f32⟩
  | .local _ .vmem, ⟨0, _⟩ => ⟨S8192x12, .i32⟩
  | .local _ .vmem, ⟨1, _⟩ => ⟨S8192x12, .i32⟩
  | .local _ .vmem, ⟨2, _⟩ => ⟨S8192x1, .f32⟩
  | .local _ .vmem, ⟨3, _⟩ => ⟨S8192x1, .f32⟩
  | .local _ .vmem, ⟨4, _⟩ => ⟨S8192x32, .bf16⟩
  | .local _ .vmem, ⟨5, _⟩ => ⟨S8192x32, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  v1
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v63 : Index := Scalar.indexCast v2
  let c0_14 : Index := 0#32
  ![v63.toNat, 0]
def k0_off3 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v1 : BitVec 32 := Scalar.muli arg4 c512_i32
  let v2 : BitVec 32 := v1
  let v75 : Index := Scalar.indexCast v2
  let c0_16 : Index := 0#32
  ![v75.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x12 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S6291456_S524288x12 : S6291456.ShapeCasts S524288x12
  shapeCasts_S524288_S524288x1 : S524288.ShapeCasts S524288x1
  h_S512x12 : 0 < S512x12.numel
  shapeCasts_S512x12_S512x12 : S512x12.ShapeCasts S512x12
  shapeCasts_S512x12_S512x4x3 : S512x12.ShapeCasts S512x4x3
  slices_S512x4x3_o0_0_0_S512x4x1 : S512x4x3.Slices ![0, 0, 0] S512x4x1
  shapeCasts_S512x4x1_S512x4 : S512x4x1.ShapeCasts S512x4
  slices_S512x4x3_o0_0_1_S512x4x1 : S512x4x3.Slices ![0, 0, 1] S512x4x1
  slices_S512x4x3_o0_0_2_S512x4x1 : S512x4x3.Slices ![0, 0, 2] S512x4x1
  shapeCasts_S512x4_S512x4x1 : S512x4.ShapeCasts S512x4x1
  concatenates_S512x4x1_S512x4x1_S512x4x1_S512x4x1_S512x4x1_S512x4x1_S512x4x1_S512x4x1_S512x4x8_d2 : Shape.Concatenates [S512x4x1, S512x4x1, S512x4x1, S512x4x1, S512x4x1, S512x4x1, S512x4x1, S512x4x1] S512x4x8 2
  h_S512x1 : 0 < S512x1.numel
  shapeCasts_S512x1_S512x1 : S512x1.ShapeCasts S512x1
  shapeCasts_S512x1_S512x1x1 : S512x1.ShapeCasts S512x1x1
  broadcasts_S512x1x1_S512x4x8 : S512x1x1.Broadcasts S512x4x8
  shapeCasts_S512x4x8_S512x32 : S512x4x8.ShapeCasts S512x32
  bitsLt_bf16_f32 : FTy.bits .bf16 < FTy.bits .f32
  h_S512x32 : 0 < S512x32.numel
  shapeCasts_S524288x32_S16777216 : S524288x32.ShapeCasts S16777216
  shapeCasts_S16777216_S4096x4096 : S16777216.ShapeCasts S4096x4096
  shapeCasts_S2x2048x4096_S4096x4096 : S2x2048x4096.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x4096_S2x2048x4096 : S4096x4096.ShapeCasts S2x2048x4096
  dot_S1024x1024_S1024x1024_S1024x1024_1_1_0_0_n_n_wf : DotDims.WF S1024x1024 S1024x1024 S1024x1024 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x12.size a ≤ S8192x12.size a
  k0_off2_inb : ∀ k0_t1 : Fin k0_t1_loop.trips, ∀ a, (k0_off2 k0_t1) a + S512x1.size a ≤ S8192x1.size a
  k0_off3_inb : ∀ k0_t1 : Fin k0_t1_loop.trips, ∀ a, (k0_off3 k0_t1) a + S512x32.size a ≤ S8192x32.size a
  k0_off3_packedbf16 : ∀ k0_t1 : Fin k0_t1_loop.trips, (Rect.unit (s := S8192x32) (k0_off3 k0_t1) S512x32.size (k0_off3_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x12.size a ≤ S524288x12.size a
  hwx0_0 : ∀ i : grid0.Coords, EltTy.bits .i32 = 32 ∨ (Rect.block (s := S524288x12) S8192x12.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S524288x1.size a
  hwx0_1 : ∀ i : grid0.Coords, EltTy.bits .f32 = 32 ∨ (Rect.block (s := S524288x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S524288x32.size a
  hwx0_2 : ∀ i : grid0.Coords, EltTy.bits .bf16 = 32 ∨ (Rect.block (s := S524288x32) S8192x32.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S8192x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S6291456 : Shape := ⟨1, ![6291456]⟩
abbrev S524288 : Shape := ⟨1, ![524288]⟩
abbrev S4096 : Shape := ⟨1, ![4096]⟩
abbrev S524288x4x3 : Shape := ⟨3, ![524288, 4, 3]⟩
abbrev S524288x4x1 : Shape := ⟨3, ![524288, 4, 1]⟩
abbrev S524288x4 : Shape := ⟨2, ![524288, 4]⟩
abbrev S_ : Shape := ⟨0, ![]⟩
abbrev S524288x4x8 : Shape := ⟨3, ![524288, 4, 8]⟩
abbrev S524288x32 : Shape := ⟨2, ![524288, 32]⟩
abbrev S524288x1 : Shape := ⟨2, ![524288, 1]⟩
abbrev S16777216 : Shape := ⟨1, ![16777216]⟩
abbrev S4096x4096 : Shape := ⟨2, ![4096, 4096]⟩
abbrev S1x1x4096 : Shape := ⟨3, ![1, 1, 4096]⟩

abbrev nBuf : Space → Nat
  | .hbm => 99
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S6291456, .i32⟩
  | .hbm, ⟨2, _⟩ => ⟨S524288, .f32⟩
  | .hbm, ⟨3, _⟩ => ⟨S4096, .f32⟩
  | .hbm, ⟨4, _⟩ => ⟨S524288x4x3, .i32⟩
  | .hbm, ⟨5, _⟩ => ⟨S524288x4x1, .i32⟩
  | .hbm, ⟨6, _⟩ => ⟨S524288x4, .i32⟩
  | .hbm, ⟨7, _⟩ => ⟨S524288x4x1, .i32⟩
  | .hbm, ⟨8, _⟩ => ⟨S524288x4, .i32⟩
  | .hbm, ⟨9, _⟩ => ⟨S524288x4x1, .i32⟩
  | .hbm, ⟨10, _⟩ => ⟨S524288x4, .i32⟩
  | .hbm, ⟨11, _⟩ => ⟨S_, .i32⟩
  | .hbm, ⟨12, _⟩ => ⟨S524288x4, .i32⟩
  | .hbm, ⟨13, _⟩ => ⟨S524288x4, .i32⟩
  | .hbm, ⟨14, _⟩ => ⟨S_, .i32⟩
  | .hbm, ⟨15, _⟩ => ⟨S524288x4, .i32⟩
  | .hbm, ⟨16, _⟩ => ⟨S524288x4, .i32⟩
  | .hbm, ⟨17, _⟩ => ⟨S_, .i32⟩
  | .hbm, ⟨18, _⟩ => ⟨S524288x4, .i32⟩
  | .hbm, ⟨19, _⟩ => ⟨S524288x4, .i32⟩
  | .hbm, ⟨20, _⟩ => ⟨S_, .i32⟩
  | .hbm, ⟨21, _⟩ => ⟨S524288x4, .i32⟩
  | .hbm, ⟨22, _⟩ => ⟨S524288x4, .i32⟩
  | .hbm, ⟨23, _⟩ => ⟨S_, .i32⟩
  | .hbm, ⟨24, _⟩ => ⟨S524288x4, .i32⟩
  | .hbm, ⟨25, _⟩ => ⟨S524288x4, .i32⟩
  | .hbm, ⟨26, _⟩ => ⟨S_, .i32⟩
  | .hbm, ⟨27, _⟩ => ⟨S524288x4, .i32⟩
  | .hbm, ⟨28, _⟩ => ⟨S524288x4, .i32⟩
  | .hbm, ⟨29, _⟩ => ⟨S_, .i32⟩
  | .hbm, ⟨30, _⟩ => ⟨S524288x4, .i32⟩
  | .hbm, ⟨31, _⟩ => ⟨S524288x4, .i32⟩
  | .hbm, ⟨32, _⟩ => ⟨S524288x4, .i32⟩
  | .hbm, ⟨33, _⟩ => ⟨S_, .i32⟩
  | .hbm, ⟨34, _⟩ => ⟨S524288x4, .i32⟩
  | .hbm, ⟨35, _⟩ => ⟨S524288x4, .i32⟩
  | .hbm, ⟨36, _⟩ => ⟨S_, .i32⟩
  | .hbm, ⟨37, _⟩ => ⟨S524288x4, .i32⟩
  | .hbm, ⟨38, _⟩ => ⟨S524288x4, .i32⟩
  | .hbm, ⟨39, _⟩ => ⟨S_, .i32⟩
  | .hbm, ⟨40, _⟩ => ⟨S524288x4, .i32⟩
  | .hbm, ⟨41, _⟩ => ⟨S524288x4, .i32⟩
  | .hbm, ⟨42, _⟩ => ⟨S_, .i32⟩
  | .hbm, ⟨43, _⟩ => ⟨S524288x4, .i32⟩
  | .hbm, ⟨44, _⟩ => ⟨S524288x4, .i32⟩
  | .hbm, ⟨45, _⟩ => ⟨S_, .i32⟩
  | .hbm, ⟨46, _⟩ => ⟨S524288x4, .i32⟩
  | .hbm, ⟨47, _⟩ => ⟨S524288x4, .i32⟩
  | .hbm, ⟨48, _⟩ => ⟨S_, .i32⟩
  | .hbm, ⟨49, _⟩ => ⟨S524288x4, .i32⟩
  | .hbm, ⟨50, _⟩ => ⟨S524288x4, .i32⟩
  | .hbm, ⟨51, _⟩ => ⟨S_, .i32⟩
  | .hbm, ⟨52, _⟩ => ⟨S524288x4, .i32⟩
  | .hbm, ⟨53, _⟩ => ⟨S524288x4, .i32⟩
  | .hbm, ⟨54, _⟩ => ⟨S_, .i32⟩
  | .hbm, ⟨55, _⟩ => ⟨S524288x4, .i32⟩
  | .hbm, ⟨56, _⟩ => ⟨S524288x4, .i32⟩
  | .hbm, ⟨57, _⟩ => ⟨S524288x4, .i32⟩
  | .hbm, ⟨58, _⟩ => ⟨S_, .i32⟩
  | .hbm, ⟨59, _⟩ => ⟨S524288x4, .i32⟩
  | .hbm, ⟨60, _⟩ => ⟨S524288x4, .i32⟩
  | .hbm, ⟨61, _⟩ => ⟨S_, .i32⟩
  | .hbm, ⟨62, _⟩ => ⟨S524288x4, .i32⟩
  | .hbm, ⟨63, _⟩ => ⟨S524288x4, .i32⟩
  | .hbm, ⟨64, _⟩ => ⟨S_, .i32⟩
  | .hbm, ⟨65, _⟩ => ⟨S524288x4, .i32⟩
  | .hbm, ⟨66, _⟩ => ⟨S524288x4, .i32⟩
  | .hbm, ⟨67, _⟩ => ⟨S_, .i32⟩
  | .hbm, ⟨68, _⟩ => ⟨S524288x4, .i32⟩
  | .hbm, ⟨69, _⟩ => ⟨S524288x4, .i32⟩
  | .hbm, ⟨70, _⟩ => ⟨S524288x4x1, .i32⟩
  | .hbm, ⟨71, _⟩ => ⟨S524288x4x1, .i32⟩
  | .hbm, ⟨72, _⟩ => ⟨S524288x4x1, .i32⟩
  | .hbm, ⟨73, _⟩ => ⟨S524288x4x1, .i32⟩
  | .hbm, ⟨74, _⟩ => ⟨S524288x4x1, .i32⟩
  | .hbm, ⟨75, _⟩ => ⟨S524288x4x1, .i32⟩
  | .hbm, ⟨76, _⟩ => ⟨S524288x4x1, .i32⟩
  | .hbm, ⟨77, _⟩ => ⟨S524288x4x1, .i32⟩
  | .hbm, ⟨78, _⟩ => ⟨S524288x4x8, .i32⟩
  | .hbm, ⟨79, _⟩ => ⟨S524288x32, .i32⟩
  | .hbm, ⟨80, _⟩ => ⟨S524288x32, .f32⟩
  | .hbm, ⟨81, _⟩ => ⟨S_, .f32⟩
  | .hbm, ⟨82, _⟩ => ⟨S524288x32, .f32⟩
  | .hbm, ⟨83, _⟩ => ⟨S524288x32, .f32⟩
  | .hbm, ⟨84, _⟩ => ⟨S_, .f32⟩
  | .hbm, ⟨85, _⟩ => ⟨S524288x32, .f32⟩
  | .hbm, ⟨86, _⟩ => ⟨S524288x32, .f32⟩
  | .hbm, ⟨87, _⟩ => ⟨S_, .f32⟩
  | .hbm, ⟨88, _⟩ => ⟨S524288x32, .f32⟩
  | .hbm, ⟨89, _⟩ => ⟨S524288x32, .f32⟩
  | .hbm, ⟨90, _⟩ => ⟨S524288x1, .f32⟩
  | .hbm, ⟨91, _⟩ => ⟨S524288x32, .f32⟩
  | .hbm, ⟨92, _⟩ => ⟨S524288x32, .f32⟩
  | .hbm, ⟨93, _⟩ => ⟨S16777216, .f32⟩
  | .hbm, ⟨94, _⟩ => ⟨S4096x4096, .f32⟩
  | .hbm, ⟨95, _⟩ => ⟨S2x2048x4096, .f32⟩
  | .hbm, ⟨96, _⟩ => ⟨S1x1x4096, .f32⟩
  | .hbm, ⟨97, _⟩ => ⟨S2x2048x4096, .f32⟩
  | .hbm, ⟨98, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_c_7 : Ref sig .tc := ⟨.hbm, 36, rfl⟩
abbrev main_v24 : Ref sig .tc := ⟨.hbm, 37, rfl⟩
abbrev main_v25 : Ref sig .tc := ⟨.hbm, 38, rfl⟩
abbrev main_c_8 : Ref sig .tc := ⟨.hbm, 39, rfl⟩
abbrev main_v26 : Ref sig .tc := ⟨.hbm, 40, rfl⟩
abbrev main_v27 : Ref sig .tc := ⟨.hbm, 41, rfl⟩
abbrev main_c_9 : Ref sig .tc := ⟨.hbm, 42, rfl⟩
abbrev main_v28 : Ref sig .tc := ⟨.hbm, 43, rfl⟩
abbrev main_v29 : Ref sig .tc := ⟨.hbm, 44, rfl⟩
abbrev main_c_10 : Ref sig .tc := ⟨.hbm, 45, rfl⟩
abbrev main_v30 : Ref sig .tc := ⟨.hbm, 46, rfl⟩
abbrev main_v31 : Ref sig .tc := ⟨.hbm, 47, rfl⟩
abbrev main_c_11 : Ref sig .tc := ⟨.hbm, 48, rfl⟩
abbrev main_v32 : Ref sig .tc := ⟨.hbm, 49, rfl⟩
abbrev main_v33 : Ref sig .tc := ⟨.hbm, 50, rfl⟩
abbrev main_c_12 : Ref sig .tc := ⟨.hbm, 51, rfl⟩
abbrev main_v34 : Ref sig .tc := ⟨.hbm, 52, rfl⟩
abbrev main_v35 : Ref sig .tc := ⟨.hbm, 53, rfl⟩
abbrev main_c_13 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_14 : Ref sig .tc := ⟨.hbm, 58, rfl⟩
abbrev main_v39 : Ref sig .tc := ⟨.hbm, 59, rfl⟩
abbrev main_v40 : Ref sig .tc := ⟨.hbm, 60, rfl⟩
abbrev main_c_15 : Ref sig .tc := ⟨.hbm, 61, rfl⟩
abbrev main_v41 : Ref sig .tc := ⟨.hbm, 62, rfl⟩
abbrev main_v42 : Ref sig .tc := ⟨.hbm, 63, rfl⟩
abbrev main_c_16 : Ref sig .tc := ⟨.hbm, 64, rfl⟩
abbrev main_v43 : Ref sig .tc := ⟨.hbm, 65, rfl⟩
abbrev main_v44 : Ref sig .tc := ⟨.hbm, 66, rfl⟩
abbrev main_c_17 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst : Ref sig .tc := ⟨.hbm, 81, rfl⟩
abbrev main_v58 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_cst_19 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  shapeCasts_S6291456_S524288x4x3 : S6291456.ShapeCasts S524288x4x3
  slices_S524288x4x3_S524288x4x1_0_0_0 : S524288x4x3.Slices ![0, 0, 0] S524288x4x1
  shapeCasts_S524288x4x1_S524288x4 : S524288x4x1.ShapeCasts S524288x4
  slices_S524288x4x3_S524288x4x1_0_0_1 : S524288x4x3.Slices ![0, 0, 1] S524288x4x1
  slices_S524288x4x3_S524288x4x1_0_0_2 : S524288x4x3.Slices ![0, 0, 2] S524288x4x1
  bcast_S_S524288x4 : S_.BroadcastsInDim S524288x4 (![] : Fin 0 → Fin S524288x4.rank)
  bcast_S524288x4_S524288x4x1_0_1 : S524288x4.BroadcastsInDim S524288x4x1 (![0, 1] : Fin 2 → Fin S524288x4x1.rank)
  concatenates_S524288x4x1_S524288x4x1_S524288x4x1_S524288x4x1_S524288x4x1_S524288x4x1_S524288x4x1_S524288x4x1_S524288x4x8_d2 : Shape.Concatenates [S524288x4x1, S524288x4x1, S524288x4x1, S524288x4x1, S524288x4x1, S524288x4x1, S524288x4x1, S524288x4x1] S524288x4x8 2
  shapeCasts_S524288x4x8_S524288x32 : S524288x4x8.ShapeCasts S524288x32
  bcast_S_S524288x32 : S_.BroadcastsInDim S524288x32 (![] : Fin 0 → Fin S524288x32.rank)
  bcast_S524288_S524288x1_0 : S524288.BroadcastsInDim S524288x1 (![0] : Fin 1 → Fin S524288x1.rank)
  bcast_S524288x1_S524288x32_0_1 : S524288x1.BroadcastsInDim S524288x32 (![0, 1] : Fin 2 → Fin S524288x32.rank)
  shapeCasts_S524288x32_S16777216 : S524288x32.ShapeCasts S16777216
  shapeCasts_S16777216_S4096x4096 : S16777216.ShapeCasts S4096x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Word.Dequant.lean ====
/-
  The first kernel call (dequantization) of the program as printed, as the pipeline sees it: 64 grid points,
  each staging a block of 8192 rows of twelve words and 8192 norms and leaving a block of 8192 rows of 32 levels,
  written 512 rows at a time by a counted loop of 16 trips.
  `block p n` is the output block as one function of the two input blocks; `dat` the pipeline's proof data at
  the contents `V` the call is entered from; `body_obligation` that the kernel body meets it at every point.
-/
import proofs.«410427_j8254927143226_3_alg».proof.Proof.Gen.Kernel.Launch
import proofs.«410427_j8254927143226_3_alg».proof.Proof.Gen.Kernel.Skeleton
import proofs.«410427_j8254927143226_3_alg».proof.Proof.Gen.Kernel.Points
import proofs.«410427_j8254927143226_3_alg».proof.Proof.Gen.Kernel.Loops
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Dequant

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 512 rows trip `k` stores: the body's arithmetic on rows 512·k … 512·k + 511 of the two input blocks. -/
def tripRows (p : Vec F S8192x12 .i32) (n : Vec F S8192x1 .f32) (k : Fin k0_t1_loop.trips) : FVec F S512x32 .bf16 :=
  k0_pay1 (k0_pay5 (View.ld p (Rect.unit (s := S8192x12) (k0_off1 k) S512x12.size (k0_off1_inb k))))
    (k0_pay6 (View.ld p (Rect.unit (s := S8192x12) (k0_off1 k) S512x12.size (k0_off1_inb k))))
    (k0_pay7 (View.ld p (Rect.unit (s := S8192x12) (k0_off1 k) S512x12.size (k0_off1_inb k))))
    (k0_pay8 (View.ld p (Rect.unit (s := S8192x12) (k0_off1 k) S512x12.size (k0_off1_inb k))))
    (k0_pay9 (View.ld p (Rect.unit (s := S8192x12) (k0_off1 k) S512x12.size (k0_off1_inb k))))
    (k0_pay10 (View.ld p (Rect.unit (s := S8192x12) (k0_off1 k) S512x12.size (k0_off1_inb k))))
    (k0_pay11 (View.ld p (Rect.unit (s := S8192x12) (k0_off1 k) S512x12.size (k0_off1_inb k))))
    (k0_pay12 (View.ld p (Rect.unit (s := S8192x12) (k0_off1 k) S512x12.size (k0_off1_inb k))))
    k0_pay13
    (View.ld n (Rect.unit (s := S8192x1) (k0_off2 k) S512x1.size (k0_off2_inb k)))

/-- The output block: row r is row r % 512 of what trip r / 512 stores. -/
def block (p : Vec F S8192x12 .i32) (n : Vec F S8192x1 .f32) : Vec F S8192x32 .bf16 :=
  fun y => tripRows p n ⟨(y 0).val / 512, by
      have h := (y 0).isLt
      have ht : k0_t1_loop.trips = 16 := by decide
      rw [ht]; simp only [Matrix.cons_val_zero] at h; omega⟩
    (Idealize.ShloMosaic.ValueIdx.ix2 ⟨(y 0).val % 512, Nat.mod_lt _ (by norm_num)⟩ (y 1))

variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pipeline's proof data: arrays as found; after the body each input's buffer at its block and the output's at
    `block` of the two; the invariant the scoped rest and the generator register, untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => block (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = block (iblk V c 0 t) (iblk V c 1 t) := by dsimp only [dat]

/-! ## One trip's store -/

/-- Trip `k` stores ONE piece: rows 512·k … 512·k + 511 of the output buffer, at the body's arithmetic on the same rows
    of the two inputs as they read. -/
theorem tripL_eq (𝒱 : Variants) (c : Dev nD) (bd : Option 𝒱.V) (i : grid0.Coords) (arg1 : Memref sig .tc .vmem S8192x12 .i32) (harg1 : arg1.IsWhole) (arg2 : Memref sig .tc .vmem S8192x1 .f32) (harg2 : arg2.IsWhole) (arg3 : Memref sig .tc .vmem S8192x32 .bf16) (harg3 : arg3.IsWhole) (X1 : BufTy.Contents (Elt F) arg1.view.ty) (X2 : BufTy.Contents (Elt F) arg2.view.ty) (k : Fin k0_t1_loop.trips) :
    tripL_k0_t1 (F := F) 𝒱 c bd i arg1 harg1 arg2 harg2 arg3 harg3 X1 X2 k
      = [⟨Rect.unit (s := S8192x32) (k0_off3 k) S512x32.size (k0_off3_inb k),
          tripRows (arg1.view.read (Elt F) X1) (arg2.view.read (Elt F) X2) k⟩] := by
  unfold tripL_k0_t1 trip_k0_t1
  dsimp only
  sl_unfold_run_names
  rfl

/-! ## The output block, from the trips' pieces -/

theorem tripRows_congr (p : Vec F S8192x12 .i32) (n : Vec F S8192x1 .f32) {k k' : Fin k0_t1_loop.trips} (hk : k = k')
    {x x' : S512x32.Idx} (hx : x = x') : tripRows p n k x = tripRows p n k' x' := by
  subst hk; subst hx; rfl

/-- At an index of trip `k`'s rectangle — row 512·k + r, lane l — the block is what the trip stores at (r, l). -/
theorem block_emb (p : Vec F S8192x12 .i32) (n : Vec F S8192x1 .f32) (k : Fin k0_t1_loop.trips)
    (x : (Rect.unit (s := S8192x32) (k0_off3 k) S512x32.size (k0_off3_inb k)).shape.Idx) :
    tripRows p n k x = block p n ((Rect.unit (s := S8192x32) (k0_off3 k) S512x32.size (k0_off3_inb k)).emb x) := by
  have hk : k.val < 16 := Nat.lt_of_lt_of_le k.isLt k0_t1_abs.2.1
  have hx0 : (x 0).val < 512 := (x 0).isLt
  have h0 : (((Rect.unit (s := S8192x32) (k0_off3 k) S512x32.size (k0_off3_inb k)).emb x) 0).val = 512 * k.val + (x 0).val := by
    have e0 : k0_off3 k 0 = 512 * k.val := congrFun (k0_off3_eq k) 0
    rw [Rect.emb_apply, Rect.off_unit, Rect.stride_unit, Nat.one_mul, e0]
  have h1 : (((Rect.unit (s := S8192x32) (k0_off3 k) S512x32.size (k0_off3_inb k)).emb x) 1).val = (x 1).val := by
    have e1 : k0_off3 k 1 = 0 := congrFun (k0_off3_eq k) 1
    rw [Rect.emb_apply, Rect.off_unit, Rect.stride_unit, Nat.one_mul, e1, Nat.zero_add]
  unfold block
  refine tripRows_congr p n (Fin.ext ?_) (funext fun a => ?_)
  · show k.val = (((Rect.unit (s := S8192x32) (k0_off3 k) S512x32.size (k0_off3_inb k)).emb x) 0).val / 512
    rw [h0]; omega
  · match a with
    | ⟨0, _⟩ =>
      refine Fin.ext ?_
      show (x 0).val = (((Rect.unit (s := S8192x32) (k0_off3 k) S512x32.size (k0_off3_inb k)).emb x) 0).val % 512
      rw [h0]; omega
    | ⟨1, _⟩ =>
      refine Fin.ext ?_
      show (x 1).val = (((Rect.unit (s := S8192x32) (k0_off3 k) S512x32.size (k0_off3_inb k)).emb x) 1).val
      rw [h1]

/-- The pieces of the trips before `m` are the trips' single pieces. -/
theorem mem_pb (𝒱 : Variants) (c : Dev nD) (bd : Option 𝒱.V) (i : grid0.Coords) (arg1 : Memref sig .tc .vmem S8192x12 .i32) (harg1 : arg1.IsWhole) (arg2 : Memref sig .tc .vmem S8192x1 .f32) (harg2 : arg2.IsWhole) (arg3 : Memref sig .tc .vmem S8192x32 .bf16) (harg3 : arg3.IsWhole) (X1 : BufTy.Contents (Elt F) arg1.view.ty) (X2 : BufTy.Contents (Elt F) arg2.view.ty) :
    ∀ (m : ℕ), m ≤ k0_t1_loop.trips → ∀ pc : View.Piece (Elt F) S8192x32 .bf16,
      pc ∈ pb_k0_t1 (F := F) 𝒱 c bd i arg1 harg1 arg2 harg2 arg3 harg3 X1 X2 m ↔
        ∃ k : Fin k0_t1_loop.trips, k.val < m ∧
          pc = ⟨Rect.unit (s := S8192x32) (k0_off3 k) S512x32.size (k0_off3_inb k),
                tripRows (arg1.view.read (Elt F) X1) (arg2.view.read (Elt F) X2) k⟩
  | 0, _, pc => by
    rw [pb_k0_t1.eq_1]
    exact ⟨fun h => absurd h List.not_mem_nil, fun ⟨k, hk, _⟩ => absurd hk (Nat.not_lt_zero _)⟩
  | m + 1, hm, pc => by
    have hs : pb_k0_t1 (F := F) 𝒱 c bd i arg1 harg1 arg2 harg2 arg3 harg3 X1 X2 (m + 1)
        = tripL_k0_t1 (F := F) 𝒱 c bd i arg1 harg1 arg2 harg2 arg3 harg3 X1 X2 ⟨m, hm⟩
          ++ pb_k0_t1 (F := F) 𝒱 c bd i arg1 harg1 arg2 harg2 arg3 harg3 X1 X2 m :=
      pb_k0_t1_succ 𝒱 c bd i arg1 harg1 arg2 harg2 arg3 harg3 X1 X2 ⟨m, hm⟩
    rw [hs, tripL_eq, List.singleton_append, List.mem_cons,
      mem_pb 𝒱 c bd i arg1 harg1 arg2 harg2 arg3 harg3 X1 X2 m (Nat.le_of_lt hm) pc]
    constructor
    · rintro (rfl | ⟨k, hk, rfl⟩)
      · exact ⟨⟨m, hm⟩, Nat.lt_succ_self _, rfl⟩
      · exact ⟨k, Nat.lt_succ_of_lt hk, rfl⟩
    · rintro ⟨k, hk, rfl⟩
      rcases Nat.lt_succ_iff_lt_or_eq.mp hk with h | h
      · exact Or.inr ⟨k, h, rfl⟩
      · have hkm : k = ⟨m, hm⟩ := Fin.ext h
        subst hkm
        exact Or.inl rfl

/-- After the sixteen trips the output buffer reads `block` of what the two inputs read, whatever it held before:
    every piece is a block of that one function, and row r lies in trip r / 512's piece. -/
theorem read_pb (𝒱 : Variants) (c : Dev nD) (bd : Option 𝒱.V) (i : grid0.Coords) (arg1 : Memref sig .tc .vmem S8192x12 .i32) (harg1 : arg1.IsWhole) (arg2 : Memref sig .tc .vmem S8192x1 .f32) (harg2 : arg2.IsWhole) (arg3 : Memref sig .tc .vmem S8192x32 .bf16) (harg3 : arg3.IsWhole) (X1 : BufTy.Contents (Elt F) arg1.view.ty) (X2 : BufTy.Contents (Elt F) arg2.view.ty)
    (f : BufTy.Contents (Elt F) arg3.view.ty) :
    arg3.view.read (Elt F) (arg3.view.writes (Elt F) f
        (pb_k0_t1 (F := F) 𝒱 c bd i arg1 harg1 arg2 harg2 arg3 harg3 X1 X2 k0_t1_loop.trips))
      = block (arg1.view.read (Elt F) X1) (arg2.view.read (Elt F) X2) := by
  funext y
  refine View.read_writes_apply_of_pieces arg3.view f (block (arg1.view.read (Elt F) X1) (arg2.view.read (Elt F) X2)) _ ?_ y ?_
  · intro pc hpc x
    obtain ⟨k, -, rfl⟩ := (mem_pb 𝒱 c bd i arg1 harg1 arg2 harg2 arg3 harg3 X1 X2 _ (Nat.le_refl _) pc).mp hpc
    exact block_emb _ _ k x
  · have ht : k0_t1_loop.trips = 16 := by decide
    have hy0 : (y 0).val < 8192 := (y 0).isLt
    have hy1 : (y 1).val < 32 := (y 1).isLt
    have hk : (y 0).val / 512 < k0_t1_loop.trips := by rw [ht]; omega
    refine ⟨_, (mem_pb 𝒱 c bd i arg1 harg1 arg2 harg2 arg3 harg3 X1 X2 _ (Nat.le_refl _) _).mpr ⟨⟨(y 0).val / 512, hk⟩, hk, rfl⟩, ?_⟩
    rw [Rect.mem_set_unit, k0_off3_eq]
    intro a
    match a with
    | ⟨0, _⟩ =>
      show 512 * ((y 0).val / 512) ≤ (y 0).val ∧ (y 0).val < 512 * ((y 0).val / 512) + 512
      omega
    | ⟨1, _⟩ =>
      show 0 ≤ (y 1).val ∧ (y 1).val < 0 + 32
      omega

/-! ## The inputs' staging buffers hold their blocks -/

/-- The words' current staging buffer holds the point's block of words, fetched there or not. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The norms' current staging buffer holds the point's block of norms, fetched there or not. -/
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body's triple -/

set_option maxHeartbeats 1000000 in
/-- The kernel body on whole staging memrefs, the two inputs' reading `x0` and `x1` and the output's at anything, runs to
    the continuation holding the inputs' as they were and the output's at `block x0 x1`: sixteen trips, each storing its
    512 rows. -/
theorem sound_kernel (c : Dev nD) (E : Set ℕ) (i : grid0.Coords) (arg1 : Memref sig .tc .vmem S8192x12 .i32) (harg1 : arg1.IsWhole) (arg2 : Memref sig .tc .vmem S8192x1 .f32) (harg2 : arg2.IsWhole) (arg3 : Memref sig .tc .vmem S8192x32 .bf16) (harg3 : arg3.IsWhole)
    (x0 : Vec F S8192x12 .i32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (block x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact read_pb Variants.none c none i arg1 harg1 arg2 harg2 arg3 harg3 f0 f1 f2

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the two inputs' staging buffers hold their blocks, so the body's triple applies; the invariant
    and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The kernel body meets the pipeline's obligation at every point. -/
theorem body_obligation (c : Dev nD) : BodyObligation (dat (F := F) V c) (defs₀ (F := F)) Variants.none () Set.univ := fun t => by
  rw [bigSep_W0, bigSep_W0]
  exact sound_body V c t

end Cert.Kernel.Dequant

end
-- ==== Proof.Word.Matmul.lean ====
/-
  The second kernel call (the tiled matrix product) of the program as printed, as the pipeline sees it: a 4 × 4 × 4 grid
  (row tile, column tile, contraction tile; the contraction axis fastest), each point staging a 1024 × 1024 block of X, one
  of W and a 1 × 1024 piece of the bias row. A 1024 × 1024 scratch carries the running sum across the four contraction
  steps of an output tile: reset to zero at step 0, increased by X_blk · W_blkᵀ at every step, and at step 3 stored,
  with the bias row added, into the output block, which is idle (untouched, not written back) at the other steps.
  `accAt` is the scratch after each point, `outAt` the output block at a step-3 point, `dat` the pipeline's proof
  data at the contents `V` the call is entered from, whose invariant carries the scratch at `accAt`.
-/
import proofs.«410427_j8254927143226_3_alg».proof.Proof.Gen.Kernel.Launch
import proofs.«410427_j8254927143226_3_alg».proof.Proof.Gen.Kernel.Skeleton
import proofs.«410427_j8254927143226_3_alg».proof.Proof.Gen.Kernel.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after the body at the point of flat position `n`: the step's product added to zero at a contraction
    step 0 (`n % 4 = 0`), to what the point before left otherwise. -/
def accAt (c : Dev nD) : (n : ℕ) → n < cfg1.N → Vec F S1024x1024 .f32
  | 0, hn => k1_pay2 (k1_pay1 (F := F)) (iblk V c 0 ⟨0, hn⟩) (iblk V c 1 ⟨0, hn⟩)
  | n + 1, hn =>
    if (n + 1) % 4 = 0 then k1_pay2 (k1_pay1 (F := F)) (iblk V c 0 ⟨n + 1, hn⟩) (iblk V c 1 ⟨n + 1, hn⟩)
    else k1_pay2 (accAt c n (Nat.lt_of_succ_lt hn)) (iblk V c 0 ⟨n + 1, hn⟩) (iblk V c 1 ⟨n + 1, hn⟩)

/-- What a contraction step 3 stores into the output block: the finished sum plus the bias row. -/
def outAt (c : Dev nD) (t : Fin cfg1.N) : Vec F S1024x1024 .f32 :=
  k1_pay3 (accAt V c t.val t.isLt) (iblk V c 2 t)

/-- The scratch, a whole scoped buffer of the kernel's own. -/
abbrev scM : Memref sig .tc .vmem S1024x1024 .f32 := Memref.whole cc1_scratch0

/-- The core's scoped buffers that are neither a staging buffer of this call nor the scratch (the first call's six
    staging buffers), each at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The invariant before position `n`: before the first point the scoped rest with the scratch at anything; afterwards
    the scratch at what the point before left, the other scoped buffers at anything, the generator register at some state. -/
def Phi (c : Dev nD) : (n : ℕ) → n ≤ cfg1.N → sProp 𝕄
  | 0, _ => Pipeline.ΦA spec1 c
  | n + 1, hn => iprop(otherScoped (F := F) c ∗ owns (c : Thread nD τ) scM fullShare (accAt V c n hn) ∗ (∃ r, prngReg c r))

/-- The pipeline's proof data: arrays as found; after the body each input's buffer at its block, the output's at
    `outAt`; the invariant `Phi`; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_3 (c : Dev nD) (t : Fin cfg1.N) : (dat V c).after 3 t = outAt V c t := by dsimp only [dat]

/-- `accAt` at a contraction step 0: the product onto zero. -/
theorem accAt_first (c : Dev nD) (t : Fin cfg1.N) (h : t.val % 4 = 0) :
    accAt V c t.val t.isLt = k1_pay2 (k1_pay1 (F := F)) (iblk V c 0 t) (iblk V c 1 t) := by
  obtain ⟨n, hn⟩ := t
  cases n with
  | zero => rfl
  | succ n => exact (if_pos h).trans rfl

/-- `accAt` at a later contraction step: the product onto what the point before left. -/
theorem accAt_next (c : Dev nD) (t : Fin cfg1.N) (h : t.val % 4 ≠ 0) :
    accAt V c t.val t.isLt
      = k1_pay2 (accAt V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact (if_neg h).trans rfl

/-! ## The body's two conditions, in closed form over the grid -/

/-- The first conditional's test (the contraction coordinate is 0), as the body computes it from the coordinates. -/
abbrev condReset (i : grid1.Coords) : Prop :=
  (Scalar.cmpi .ne (Scalar.extui (Scalar.cmpi .eq (BitVec.ofNat 32 (i 2).val) 0#32)) 0#32) = 1#1
/-- It holds exactly at the points whose contraction step is 0. -/
theorem hcondReset : ∀ t : Fin cfg1.N, condReset (grid1.coords t) ↔ t.val % 4 = 0 :=
  (by decide +kernel : ∀ t : Fin grid1.N, condReset (grid1.coords t) ↔ t.val % 4 = 0)
/-- The second conditional's test (the contraction coordinate is 3). -/
abbrev condEmit (i : grid1.Coords) : Prop := k1_cond2 i = 1#1
/-- It holds exactly at the points whose contraction step is 3. -/
theorem hcondEmit : ∀ t : Fin cfg1.N, condEmit (grid1.coords t) ↔ t.val % 4 = 3 :=
  (by decide +kernel : ∀ t : Fin grid1.N, condEmit (grid1.coords t) ↔ t.val % 4 = 3)

/-- Where the second test fails the output window is idle and is not written back; where it holds the window is live. -/
theorem idle3_of : ∀ t : Fin cfg1.N, ¬condEmit (grid1.coords t) → cfg1.idle 3 (grid1.coords t) = true := by decide +kernel
theorem noFlush3_of : ∀ t : Fin cfg1.N, ¬condEmit (grid1.coords t) → (cfg1.win 3).flush t = false := by decide +kernel
theorem live3_of : ∀ t : Fin cfg1.N, condEmit (grid1.coords t) → cfg1.idle 3 (grid1.coords t) = false := by decide +kernel

/-! ## The body's run, case by case

Every load and store of the body goes through the whole-buffer rectangle at offsets zero, so what a case leaves in a
buffer it stores into is its last store's payload, and a load after a store in the same run reads that payload. -/

/-- What a list of writes whose LAST one stores the whole buffer (the rectangle at offsets zero of the buffer's own sizes)
    reads back as: that write's payload, whatever came before it. -/
theorem read_writes_cons_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- The offsets of every load and store of the body, however spelt, are zero. -/
theorem hz : (![0, 0] : Fin 2 → Nat) = fun _ => 0 := funext fun a => by fin_cases a <;> rfl

set_option maxHeartbeats 1000000 in
/-- A contraction step 0 that is not a step 3: the scratch, whatever it held, ends at the product onto zero; every
    window's buffer is handed back as it was. -/
theorem run_reset (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : condReset i) (hc1 : ¬condEmit i)
    (x0 x1 : Vec F S1024x1024 .bf16) (x2 : Vec F S1x1024 .f32) (xi3 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 (k1_pay1 (F := F)) x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS0
  ipureintro
  rw [read_writes_cons_whole _ _ hz]
  sl_unfold_words
  simp only [View.readCov_unit_zero (S := S1024x1024) _ hz, View.readAt_eq_ld, harg3.read_unread, harg4.read_unread,
    View.ld_unit_zero (S := S1024x1024) hz]

set_option maxHeartbeats 1000000 in
/-- A contraction step 1 or 2: the scratch goes from what it held to the product added onto that; every window's
    buffer is handed back as it was. -/
theorem run_add (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬condReset i) (hc1 : ¬condEmit i)
    (x0 x1 : Vec F S1024x1024 .bf16) (x2 : Vec F S1x1024 .f32) (xi3 xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3
  obtain rfl := harg7.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS0
  ipureintro
  rw [read_writes_cons_whole _ _ hz]
  simp only [View.readAt_eq_ld, harg3.read_unread, harg4.read_unread, harg7.read_unread, View.ld_unit_zero (S := S1024x1024) hz]

set_option maxHeartbeats 1000000 in
/-- A contraction step 3: the scratch goes from what it held to the product added onto that, and the output's buffer,
    whatever it held, ends at that sum plus the bias row. -/
theorem run_emit (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬condReset i) (hc1 : condEmit i)
    (x0 x1 : Vec F S1024x1024 .bf16) (x2 : Vec F S1x1024 .f32) (xi3 xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 xs x0 x1) x2) ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3
  obtain rfl := harg7.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_writes_cons_whole _ _ hz]
    sl_unfold_words
    simp only [View.readCov_unit_zero (S := S1024x1024) _ hz, View.readAt_eq_ld, harg3.read_unread, harg4.read_unread,
      harg5.read_unread, harg7.read_unread, View.ld_unit_zero (S := S1024x1024) hz, View.ld_unit_zero (S := S1x1024) hz]
  iexists _; isplitr
  swap; · iexact HS0
  ipureintro
  sl_unfold_words
  rw [read_writes_cons_whole _ _ hz]
  simp only [View.readAt_eq_ld, harg3.read_unread, harg4.read_unread, harg7.read_unread, View.ld_unit_zero (S := S1024x1024) hz]

/-! ## The staging memrefs at a point, and what the inputs hold -/

/-- Each window's current staging memref at point t, as the pipeline passes it to the body, and its wholeness. -/
abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .f32 := win1_3.stage (cfg1.slots t 3)
abbrev hs3 (t : Fin cfg1.N) : (ms3 t).IsWhole := hstage1_3 ((cfg1.slots t 3).cast nbuf1_3)

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]

/-- An input's current staging buffer holds its block at every point, fetched there or not: the body leaves the block
    in place, and where the pipeline does not fetch (the bias piece, away from a contraction step 0) the block index
    has not moved. -/
theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-- The inputs are never idle: after the body each one's buffer is at its block. -/
theorem leaves_0 (c : Dev nD) (t : Fin cfg1.N) :
    (dat V c).leavesExact 0 t = owns (c : Thread nD τ) (ms0 t) fullShare (iblk V c 0 t) := by
  rw [show (dat V c).leavesExact 0 t = owns (c : Thread nD τ) (ms0 t) fullShare ((dat V c).after 0 t) from rfl, after_0]
theorem leaves_1 (c : Dev nD) (t : Fin cfg1.N) :
    (dat V c).leavesExact 1 t = owns (c : Thread nD τ) (ms1 t) fullShare (iblk V c 1 t) := by
  rw [show (dat V c).leavesExact 1 t = owns (c : Thread nD τ) (ms1 t) fullShare ((dat V c).after 1 t) from rfl, after_1]
theorem leaves_2 (c : Dev nD) (t : Fin cfg1.N) :
    (dat V c).leavesExact 2 t = owns (c : Thread nD τ) (ms2 t) fullShare (iblk V c 2 t) := by
  rw [show (dat V c).leavesExact 2 t = owns (c : Thread nD τ) (ms2 t) fullShare ((dat V c).after 2 t) from rfl, after_2]
/-- At a contraction step 3 the output is live: after the body its buffer is at the finished sum plus the bias row. -/
theorem leaves_3_live (c : Dev nD) (t : Fin cfg1.N) (h : condEmit (grid1.coords t)) :
    (dat V c).leavesExact 3 t = owns (c : Thread nD τ) (ms3 t) fullShare (outAt V c t) := by
  rw [show (dat V c).leavesExact 3 t = owns (c : Thread nD τ) (ms3 t) fullShare ((dat V c).after 3 t) from by
    unfold Dat.leavesExact; rw [live3_of t h], after_3]

/-! ## The invariant, unfolded -/

/-- The class invariant with the scratch named: the other scoped buffers, the scratch at some contents, the register. -/
theorem PhiA_split (c : Dev nD) :
    (Pipeline.ΦA spec1 c : sProp 𝕄) ⊢ iprop(otherScoped (F := F) c ∗ (∃ d, owns (c : Thread nD τ) scM fullShare d) ∗ (∃ r, prngReg c r)) := by
  unfold Pipeline.ΦA otherScoped; rw [scopedRest1_eq]; simp only [scM, owns_whole]
  iintro ⟨⟨H1, H2, H3, H4, H5, H6, HS⟩, Hg⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HS]; · iexact HS
  iexact Hg

theorem PhiA_join (c : Dev nD) :
    iprop(otherScoped (F := F) c ∗ (∃ d, owns (c : Thread nD τ) scM fullShare d) ∗ (∃ r, prngReg c r)) ⊢ (Pipeline.ΦA spec1 c : sProp 𝕄) := by
  unfold Pipeline.ΦA otherScoped; rw [scopedRest1_eq]; simp only [scM, owns_whole]
  iintro ⟨⟨H1, H2, H3, H4, H5, H6⟩, HS, Hg⟩
  isplitl [H1 H2 H3 H4 H5 H6 HS]
  · isplitl [H1]; · iexact H1
    isplitl [H2]; · iexact H2
    isplitl [H3]; · iexact H3
    isplitl [H4]; · iexact H4
    isplitl [H5]; · iexact H5
    isplitl [H6]; · iexact H6
    iexact HS
  iexact Hg

theorem Phi_succ (c : Dev nD) (n : ℕ) (hn : n < cfg1.N) :
    Phi V c (n + 1) hn = iprop(otherScoped (F := F) c ∗ owns (c : Thread nD τ) scM fullShare (accAt V c n hn) ∗ (∃ r, prngReg c r)) := rfl

/-- Before a point that is not the first: the scratch at what the point before left. -/
theorem Phi_pos (c : Dev nD) (n : ℕ) (h : n ≤ cfg1.N) (hz : n ≠ 0) :
    Phi V c n h = iprop(otherScoped (F := F) c ∗ owns (c : Thread nD τ) scM fullShare (accAt V c (n - 1) (by omega)) ∗ (∃ r, prngReg c r)) := by
  cases n with
  | zero => exact absurd rfl hz
  | succ n => rfl

/-- Before any point the scratch is held at SOME contents (what a contraction step 0, which resets it, needs; and what
    the class invariant says). -/
theorem Phi_any (c : Dev nD) (n : ℕ) (h : n ≤ cfg1.N) :
    Phi V c n h ⊢ iprop(otherScoped (F := F) c ∗ (∃ d, owns (c : Thread nD τ) scM fullShare d) ∗ (∃ r, prngReg c r)) := by
  cases n with
  | zero => exact PhiA_split c
  | succ n =>
    rw [Phi_succ]
    iintro ⟨Hoth, HS, Hg⟩
    isplitl [Hoth]; · iexact Hoth
    isplitl [HS]; · iexists _; iexact HS
    iexact Hg

/-- The invariant at a point's start, restated at the point's position. -/
theorem Phi_castSucc (c : Dev nD) (t : Fin cfg1.N) :
    (dat V c).Φ t.castSucc = Phi V c t.val (Nat.le_of_lt t.isLt) := by
  dsimp only [dat]; simp only [Fin.coe_castSucc]

/-! ## The body obligation, at a generic point -/

/-- What the body is called with at point t (the obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- The body at any point, by the contraction step: at a step 0 the scratch (at anything) is reset and ends at the
    product onto zero; at a step 1 or 2 it goes from what the point before left to the product added onto that; in both
    the output's buffer is idle and handed back as found; at a step 3 the scratch is updated likewise and the output's
    buffer ends at the sum plus the bias row. The other scoped buffers, the register and what the core owes pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2, Phi_castSucc]
  by_cases h0 : t.val % 4 = 0
  · have hR : condReset (grid1.coords t) := (hcondReset t).mpr h0
    have hE : ¬condEmit (grid1.coords t) := fun h => by have := (hcondEmit t).mp h; omega
    rw [Dat.leavesExact_idle (dat V c) 3 t (idle3_of t hE) (noFlush3_of t hE), accAt_first V c t h0]
    iintro ⟨HΦ, Ho, ⟨%d0, H0⟩, ⟨%d1, H1⟩, ⟨%d2, H2⟩, ⟨%d3, H3⟩⟩
    ihave HΦ' := (Phi_any V c t.val (Nat.le_of_lt t.isLt)) $$ HΦ
    icases HΦ' with ⟨Hoth, HS, Hg⟩
    iapply (run_reset c (grid1.coords t) _ _ _ _ _ _ _ _ _ _ hR hE (iblk V c 0 t) (iblk V c 1 t) (iblk V c 2 t) ((dat V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    iexists d3; iexact H3
  · have hR : ¬condReset (grid1.coords t) := fun h => h0 ((hcondReset t).mp h)
    have hz : t.val ≠ 0 := fun h => h0 (by rw [h])
    rw [Phi_pos V c _ _ hz, accAt_next V c t h0]
    by_cases h3 : t.val % 4 = 3
    · have hE : condEmit (grid1.coords t) := (hcondEmit t).mpr h3
      rw [leaves_3_live V c t hE]
      unfold outAt
      rw [accAt_next V c t h0]
      iintro ⟨⟨Hoth, HS, Hg⟩, Ho, ⟨%d0, H0⟩, ⟨%d1, H1⟩, ⟨%d2, H2⟩, ⟨%d3, H3⟩⟩
      iapply (run_emit c (grid1.coords t) _ _ _ _ _ _ _ _ _ _ hR hE (iblk V c 0 t) (iblk V c 1 t) (iblk V c 2 t) ((dat V c).before 3 t d3)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexact H3
    · have hE : ¬condEmit (grid1.coords t) := fun h => h3 ((hcondEmit t).mp h)
      rw [Dat.leavesExact_idle (dat V c) 3 t (idle3_of t hE) (noFlush3_of t hE)]
      iintro ⟨⟨Hoth, HS, Hg⟩, Ho, ⟨%d0, H0⟩, ⟨%d1, H1⟩, ⟨%d2, H2⟩, ⟨%d3, H3⟩⟩
      iapply (run_add c (grid1.coords t) _ _ _ _ _ _ _ _ _ _ hR hE (iblk V c 0 t) (iblk V c 1 t) (iblk V c 2 t) ((dat V c).before 3 t d3)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists d3; iexact H3

/-- The kernel body meets the pipeline's obligation at every point. -/
theorem body_obligation (c : Dev nD) : BodyObligation (dat (F := F) V c) (defs₀ (F := F)) Variants.none () Set.univ := fun t => by
  rw [bigSep_W1, bigSep_W1]
  exact sound_body V c t

/-- What the entry hands the call (the class invariant) is the invariant before the first point. -/
theorem hin (c : Dev nD) : Pipeline.ΦA spec1 c ⊢ (dat V c).Φ 0 := by
  rw [show (dat V c).Φ 0 = Phi V c 0 (Nat.zero_le _) from rfl]
  exact Idealize.SL.BI.Entails.refl _

/-- After the last point the invariant gives the class invariant back: the scratch's contents are forgotten. -/
theorem hout (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl]
  exact (Phi_any V c _ _).trans (PhiA_join c)

end Cert.Kernel.Matmul

end
-- ==== Proof.Word.Run.lean ====
/-
  The whole run of the program as printed: @main is a stretch of host reshapes, the dequantization call, a stretch of host
  reshapes and a format change, the matrix-product call, and a last reshape. The contents of every unscoped buffer
  at each boundary are a fold from the launch memory (`W1` … `W5`): a host stretch applies its operations, a kernel call
  replaces its windows' arrays by what its write-backs leave and keeps every other buffer. `run_main` says every weakly
  fair execution ends with every unscoped buffer at `W5`; `frame` reads the four arguments off it.
-/
import proofs.«410427_j8254927143226_3_alg».proof.Proof.Word.Dequant
import proofs.«410427_j8254927143226_3_alg».proof.Proof.Word.Matmul
import proofs.«410427_j8254927143226_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s unscoped buffers at launch. -/
abbrev W0 (c : Dev nD) : Valuation τ sig (Elt F) := fun b => m (c, b)
/-- After the first host stretch (the dequantization call's entry). -/
abbrev W1 (c : Dev nD) : Valuation τ sig (Elt F) := StableHlo.after hostOps0 (W0 m c)
/-- The same read at the TensorCore's references. -/
abbrev VA (c : Dev nD) (b : Ref sig .tc) : Buf (Elt F) ((c : Thread nD τ).loc b) := W1 m c b
/-- After the dequantization call: its arrays at what the pipeline leaves, every other buffer as entered. -/
def W2 (c : Dev nD) : Valuation τ sig (Elt F) :=
  Pipeline.withArrays spec0 c (W1 m c) fun w => (Dequant.dat (VA m) c).arrAt w cfg0.N
/-- After the second host stretch (the matrix-product call's entry). -/
abbrev W3 (c : Dev nD) : Valuation τ sig (Elt F) := StableHlo.after hostOps1 (W2 m c)
abbrev VB (c : Dev nD) (b : Ref sig .tc) : Buf (Elt F) ((c : Thread nD τ).loc b) := W3 m c b
/-- After the matrix-product call. -/
def W4 (c : Dev nD) : Valuation τ sig (Elt F) :=
  Pipeline.withArrays spec1 c (W3 m c) fun w => (Matmul.dat (VB m) c).arrAt w cfg1.N
/-- After the last host stretch: the end of @main. -/
abbrev W5 (c : Dev nD) : Valuation τ sig (Elt F) := StableHlo.after hostOps2 (W4 m c)

/-! ## The fold at a call's arrays and off them -/

theorem W2_arr (c : Dev nD) (w : Fin cfg0.W) :
    W2 m c (Proc.devRef .tc (Pipeline.arrRef spec0 w)) = (Dequant.dat (VA m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The contents the dequantization call is left at, read at the TensorCore's references. -/
abbrev VA' (c : Dev nD) (b : Ref sig .tc) : Buf (Elt F) ((c : Thread nD τ).loc b) := W2 m c b
theorem hF0 (c : Dev nD) (w : Fin cfg0.W) : (Dequant.dat (VA m) c).arrAt w cfg0.N = VA' m c (Pipeline.arrRef spec0 w) :=
  (W2_arr m c w).symm
theorem hrest0 (c : Dev nD) : ∀ b, b ∉ Finset.univ.image (Pipeline.arrRef spec0) → VA' m c b = VA m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (Matmul.dat (VB m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The contents the matrix-product call is left at, read at the TensorCore's references. -/
abbrev VB' (c : Dev nD) (b : Ref sig .tc) : Buf (Elt F) ((c : Thread nD τ).loc b) := W4 m c b
theorem hF1 (c : Dev nD) (w : Fin cfg1.W) : (Matmul.dat (VB m) c).arrAt w cfg1.N = VB' m c (Pipeline.arrRef spec1 w) :=
  (W4_arr m c w).symm
theorem hrest1 (c : Dev nD) : ∀ b, b ∉ Finset.univ.image (Pipeline.arrRef spec1) → VB' m c b = VB m c b :=
  fun b hb => W4_of_ne m c b fun w e => hb (Finset.mem_image.mpr ⟨w, Finset.mem_univ _, e⟩)

/-! ## The proof data of both calls and the thread state -/

/-- Both calls' proof data, each at the contents its call is entered from. -/
def pdats : (p : Fin 2) → (c : Dev nD) → Dat τ (Elt F) Unit ℕ (UR sig nD τ) ℕ (Pipeline.pin (pcfgs (F := F)) adm p) c
  | ⟨0, _⟩ => fun c => Dequant.dat (VA m) c
  | ⟨1, _⟩ => fun c => Matmul.dat (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
/-- A host stretch over every unscoped buffer from given contents, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the end of the fold, the generator register at some state. -/
abbrev Tend (c : Dev nD) : sProp 𝕄 := iprop(StableHlo.held (c : Thread nD τ) (Pipeline.ucRefs τ sig) (W5 m c) ∗ ∃ r, prngReg c r)

/-! ## The two calls as segments -/

set_option backward.isDefEq.respectTransparency.types false in
/-- The dequantization call over the thread state: entered with every unscoped buffer at W1, left with them at W2.
    Its arrays are split out of the unscoped buffers and put back at what the pipeline leaves; the generator register
    goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dequant.body_obligation (VA m) c).loose
  hwaits := Pipeline.hwaits_of_owed_zero _ _ _ _ L lv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VA' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product call over the thread state: entered with every unscoped buffer at W3, left with them at W4.
    Its invariant is the class invariant only at the two ends: before the first point the class invariant yields it,
    after the last point it yields the class invariant back (the scratch's contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Matmul.body_obligation (VB m) c).loose
  hwaits := Pipeline.hwaits_of_owed_zero _ _ _ _ L lv 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := Matmul.hin (VB m) c
    unfold Pipeline.ΦA at h
    iintro ⟨Hp, -, Hr⟩
    iapply h
    isplitl [Hr]; · iexact Hr
    iexact Hp
  hout c := by
    rw [Pipeline.ownSems0_none]
    have h : (pdats m 1 c).Φ (Fin.last _) ⊢ Pipeline.ΦA spec1 c := Matmul.hout (VB m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VB' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per kernel call. -/
abbrev runSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments: the chain of its items, then the segments' run against that chain by
    definitional unfolding. -/
theorem main_run (c : Dev nD) : main (F := F) c = Pipeline.Seg.run (runSegs m) := (main_chain c).trans (by chain_rfl)

/-- The last host stretch leaves the last thread state beside the core owing nothing. -/
theorem hend (c : Dev nD) :
    iprop(StableHlo.held (c : Thread nD τ) (Pipeline.ucRefs τ sig) (W5 m c) ∗ Rst (F := F) c)
      ⊢ iprop(Tend m c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- Every weakly fair execution of @main from memory m with zero counters terminates, nothing faulting, with
    every unscoped buffer of every core at the last valuation of the fold. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl, fun c => hend m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The arguments end as launched -/

/-- An unscoped buffer that no host stretch writes and that is no array of a window of either call holds at the end
    of the fold what it held at launch. -/
theorem W5_of (c : Dev nD) (r : Ref sig .tc) (h0 : r ∉ hostOps0_W) (h1 : r ∉ hostOps1_W) (h2 : r ∉ hostOps2_W)
    (ha : ∀ w, Pipeline.arrRef spec0 w ≠ r) (hb : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hb
    _ = W2 m c (Proc.devRef .tc r) := StableHlo.after_of_writes_sub hostOps1 _ hostOps1_writes h1
    _ = W1 m c (Proc.devRef .tc r) := W2_of_ne m c r ha
    _ = W0 m c (Proc.devRef .tc r) := StableHlo.after_of_writes_sub hostOps0 _ hostOps0_writes h0
    _ = m ((c : Thread nD τ).loc r) := rfl

theorem W5_main_arg0 (c : Dev nD) : W5 m c (Proc.devRef .tc main_arg0) = m ((c : Thread nD τ).loc main_arg0) :=
  W5_of m c main_arg0 (by decide) (by decide) (by decide) (by decide) (by decide)
theorem W5_main_arg1 (c : Dev nD) : W5 m c (Proc.devRef .tc main_arg1) = m ((c : Thread nD τ).loc main_arg1) :=
  W5_of m c main_arg1 (by decide) (by decide) (by decide) (by decide) (by decide)
theorem W5_main_arg2 (c : Dev nD) : W5 m c (Proc.devRef .tc main_arg2) = m ((c : Thread nD τ).loc main_arg2) :=
  W5_of m c main_arg2 (by decide) (by decide) (by decide) (by decide) (by decide)
theorem W5_main_arg3 (c : Dev nD) : W5 m c (Proc.devRef .tc main_arg3) = m ((c : Thread nD τ).loc main_arg3) :=
  W5_of m c main_arg3 (by decide) (by decide) (by decide) (by decide) (by decide)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩)
    (run_main m ρ)

end Cert.Kernel.Run

end
-- ==== Proof.Dequant.lean ====
/-
  The first kernel call (dequantization) of the idealized program, as the pipeline sees it: 64 grid points,
  each staging a block of 8192 rows of twelve words and 8192 norms and leaving a block of 8192 rows of 32 levels,
  written 512 rows at a time by a counted loop of 16 trips.
  `block p n` is the output block as one function of the two input blocks; `dat` the pipeline's proof data at
  the contents `V` the call is entered from; `body_obligation` that the kernel body meets it at every point.
-/
import proofs.«410427_j8254927143226_3_alg».proof.Proof.Gen.KernelIdeal.Launch
import proofs.«410427_j8254927143226_3_alg».proof.Proof.Gen.KernelIdeal.Skeleton
import proofs.«410427_j8254927143226_3_alg».proof.Proof.Gen.KernelIdeal.Points
import proofs.«410427_j8254927143226_3_alg».proof.Proof.Gen.KernelIdeal.Loops
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Dequant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The 512 rows trip `k` stores: the body's arithmetic on rows 512·k … 512·k + 511 of the two input blocks. -/
def tripRows (p : Vec F S8192x12 .i32) (n : Vec F S8192x1 .f32) (k : Fin k0_t1_loop.trips) : FVec F S512x32 .bf16 :=
  k0_pay1 (k0_pay5 (View.ld p (Rect.unit (s := S8192x12) (k0_off1 k) S512x12.size (k0_off1_inb k))))
    (k0_pay6 (View.ld p (Rect.unit (s := S8192x12) (k0_off1 k) S512x12.size (k0_off1_inb k))))
    (k0_pay7 (View.ld p (Rect.unit (s := S8192x12) (k0_off1 k) S512x12.size (k0_off1_inb k))))
    (k0_pay8 (View.ld p (Rect.unit (s := S8192x12) (k0_off1 k) S512x12.size (k0_off1_inb k))))
    (k0_pay9 (View.ld p (Rect.unit (s := S8192x12) (k0_off1 k) S512x12.size (k0_off1_inb k))))
    (k0_pay10 (View.ld p (Rect.unit (s := S8192x12) (k0_off1 k) S512x12.size (k0_off1_inb k))))
    (k0_pay11 (View.ld p (Rect.unit (s := S8192x12) (k0_off1 k) S512x12.size (k0_off1_inb k))))
    (k0_pay12 (View.ld p (Rect.unit (s := S8192x12) (k0_off1 k) S512x12.size (k0_off1_inb k))))
    k0_pay13
    (View.ld n (Rect.unit (s := S8192x1) (k0_off2 k) S512x1.size (k0_off2_inb k)))

/-- The output block: row r is row r % 512 of what trip r / 512 stores. -/
def block (p : Vec F S8192x12 .i32) (n : Vec F S8192x1 .f32) : Vec F S8192x32 .bf16 :=
  fun y => tripRows p n ⟨(y 0).val / 512, by
      have h := (y 0).isLt
      have ht : k0_t1_loop.trips = 16 := by decide
      rw [ht]; simp only [Matrix.cons_val_zero] at h; omega⟩
    (Idealize.ShloMosaic.ValueIdx.ix2 ⟨(y 0).val % 512, Nat.mod_lt _ (by norm_num)⟩ (y 1))

variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pipeline's proof data: arrays as found; after the body each input's buffer at its block and the output's at
    `block` of the two; the invariant the scoped rest and the generator register, untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => block (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = block (iblk V c 0 t) (iblk V c 1 t) := by dsimp only [dat]

/-! ## One trip's store -/

/-- Trip `k` stores ONE piece: rows 512·k … 512·k + 511 of the output buffer, at the body's arithmetic on the same rows
    of the two inputs as they read. -/
theorem tripL_eq (𝒱 : Variants) (c : Dev nD) (bd : Option 𝒱.V) (i : grid0.Coords) (arg1 : Memref sig .tc .vmem S8192x12 .i32) (harg1 : arg1.IsWhole) (arg2 : Memref sig .tc .vmem S8192x1 .f32) (harg2 : arg2.IsWhole) (arg3 : Memref sig .tc .vmem S8192x32 .bf16) (harg3 : arg3.IsWhole) (X1 : BufTy.Contents (Elt F) arg1.view.ty) (X2 : BufTy.Contents (Elt F) arg2.view.ty) (k : Fin k0_t1_loop.trips) :
    tripL_k0_t1 (F := F) 𝒱 c bd i arg1 harg1 arg2 harg2 arg3 harg3 X1 X2 k
      = [⟨Rect.unit (s := S8192x32) (k0_off3 k) S512x32.size (k0_off3_inb k),
          tripRows (arg1.view.read (Elt F) X1) (arg2.view.read (Elt F) X2) k⟩] := by
  unfold tripL_k0_t1 trip_k0_t1
  dsimp only
  sl_unfold_run_names
  rfl

/-! ## The output block, from the trips' pieces -/

theorem tripRows_congr (p : Vec F S8192x12 .i32) (n : Vec F S8192x1 .f32) {k k' : Fin k0_t1_loop.trips} (hk : k = k')
    {x x' : S512x32.Idx} (hx : x = x') : tripRows p n k x = tripRows p n k' x' := by
  subst hk; subst hx; rfl

/-- At an index of trip `k`'s rectangle — row 512·k + r, lane l — the block is what the trip stores at (r, l). -/
theorem block_emb (p : Vec F S8192x12 .i32) (n : Vec F S8192x1 .f32) (k : Fin k0_t1_loop.trips)
    (x : (Rect.unit (s := S8192x32) (k0_off3 k) S512x32.size (k0_off3_inb k)).shape.Idx) :
    tripRows p n k x = block p n ((Rect.unit (s := S8192x32) (k0_off3 k) S512x32.size (k0_off3_inb k)).emb x) := by
  have hk : k.val < 16 := Nat.lt_of_lt_of_le k.isLt k0_t1_abs.2.1
  have hx0 : (x 0).val < 512 := (x 0).isLt
  have h0 : (((Rect.unit (s := S8192x32) (k0_off3 k) S512x32.size (k0_off3_inb k)).emb x) 0).val = 512 * k.val + (x 0).val := by
    have e0 : k0_off3 k 0 = 512 * k.val := congrFun (k0_off3_eq k) 0
    rw [Rect.emb_apply, Rect.off_unit, Rect.stride_unit, Nat.one_mul, e0]
  have h1 : (((Rect.unit (s := S8192x32) (k0_off3 k) S512x32.size (k0_off3_inb k)).emb x) 1).val = (x 1).val := by
    have e1 : k0_off3 k 1 = 0 := congrFun (k0_off3_eq k) 1
    rw [Rect.emb_apply, Rect.off_unit, Rect.stride_unit, Nat.one_mul, e1, Nat.zero_add]
  unfold block
  refine tripRows_congr p n (Fin.ext ?_) (funext fun a => ?_)
  · show k.val = (((Rect.unit (s := S8192x32) (k0_off3 k) S512x32.size (k0_off3_inb k)).emb x) 0).val / 512
    rw [h0]; omega
  · match a with
    | ⟨0, _⟩ =>
      refine Fin.ext ?_
      show (x 0).val = (((Rect.unit (s := S8192x32) (k0_off3 k) S512x32.size (k0_off3_inb k)).emb x) 0).val % 512
      rw [h0]; omega
    | ⟨1, _⟩ =>
      refine Fin.ext ?_
      show (x 1).val = (((Rect.unit (s := S8192x32) (k0_off3 k) S512x32.size (k0_off3_inb k)).emb x) 1).val
      rw [h1]

/-- The pieces of the trips before `m` are the trips' single pieces. -/
theorem mem_pb (𝒱 : Variants) (c : Dev nD) (bd : Option 𝒱.V) (i : grid0.Coords) (arg1 : Memref sig .tc .vmem S8192x12 .i32) (harg1 : arg1.IsWhole) (arg2 : Memref sig .tc .vmem S8192x1 .f32) (harg2 : arg2.IsWhole) (arg3 : Memref sig .tc .vmem S8192x32 .bf16) (harg3 : arg3.IsWhole) (X1 : BufTy.Contents (Elt F) arg1.view.ty) (X2 : BufTy.Contents (Elt F) arg2.view.ty) :
    ∀ (m : ℕ), m ≤ k0_t1_loop.trips → ∀ pc : View.Piece (Elt F) S8192x32 .bf16,
      pc ∈ pb_k0_t1 (F := F) 𝒱 c bd i arg1 harg1 arg2 harg2 arg3 harg3 X1 X2 m ↔
        ∃ k : Fin k0_t1_loop.trips, k.val < m ∧
          pc = ⟨Rect.unit (s := S8192x32) (k0_off3 k) S512x32.size (k0_off3_inb k),
                tripRows (arg1.view.read (Elt F) X1) (arg2.view.read (Elt F) X2) k⟩
  | 0, _, pc => by
    rw [pb_k0_t1.eq_1]
    exact ⟨fun h => absurd h List.not_mem_nil, fun ⟨k, hk, _⟩ => absurd hk (Nat.not_lt_zero _)⟩
  | m + 1, hm, pc => by
    have hs : pb_k0_t1 (F := F) 𝒱 c bd i arg1 harg1 arg2 harg2 arg3 harg3 X1 X2 (m + 1)
        = tripL_k0_t1 (F := F) 𝒱 c bd i arg1 harg1 arg2 harg2 arg3 harg3 X1 X2 ⟨m, hm⟩
          ++ pb_k0_t1 (F := F) 𝒱 c bd i arg1 harg1 arg2 harg2 arg3 harg3 X1 X2 m :=
      pb_k0_t1_succ 𝒱 c bd i arg1 harg1 arg2 harg2 arg3 harg3 X1 X2 ⟨m, hm⟩
    rw [hs, tripL_eq, List.singleton_append, List.mem_cons,
      mem_pb 𝒱 c bd i arg1 harg1 arg2 harg2 arg3 harg3 X1 X2 m (Nat.le_of_lt hm) pc]
    constructor
    · rintro (rfl | ⟨k, hk, rfl⟩)
      · exact ⟨⟨m, hm⟩, Nat.lt_succ_self _, rfl⟩
      · exact ⟨k, Nat.lt_succ_of_lt hk, rfl⟩
    · rintro ⟨k, hk, rfl⟩
      rcases Nat.lt_succ_iff_lt_or_eq.mp hk with h | h
      · exact Or.inr ⟨k, h, rfl⟩
      · have hkm : k = ⟨m, hm⟩ := Fin.ext h
        subst hkm
        exact Or.inl rfl

/-- After the sixteen trips the output buffer reads `block` of what the two inputs read, whatever it held before:
    every piece is a block of that one function, and row r lies in trip r / 512's piece. -/
theorem read_pb (𝒱 : Variants) (c : Dev nD) (bd : Option 𝒱.V) (i : grid0.Coords) (arg1 : Memref sig .tc .vmem S8192x12 .i32) (harg1 : arg1.IsWhole) (arg2 : Memref sig .tc .vmem S8192x1 .f32) (harg2 : arg2.IsWhole) (arg3 : Memref sig .tc .vmem S8192x32 .bf16) (harg3 : arg3.IsWhole) (X1 : BufTy.Contents (Elt F) arg1.view.ty) (X2 : BufTy.Contents (Elt F) arg2.view.ty)
    (f : BufTy.Contents (Elt F) arg3.view.ty) :
    arg3.view.read (Elt F) (arg3.view.writes (Elt F) f
        (pb_k0_t1 (F := F) 𝒱 c bd i arg1 harg1 arg2 harg2 arg3 harg3 X1 X2 k0_t1_loop.trips))
      = block (arg1.view.read (Elt F) X1) (arg2.view.read (Elt F) X2) := by
  funext y
  refine View.read_writes_apply_of_pieces arg3.view f (block (arg1.view.read (Elt F) X1) (arg2.view.read (Elt F) X2)) _ ?_ y ?_
  · intro pc hpc x
    obtain ⟨k, -, rfl⟩ := (mem_pb 𝒱 c bd i arg1 harg1 arg2 harg2 arg3 harg3 X1 X2 _ (Nat.le_refl _) pc).mp hpc
    exact block_emb _ _ k x
  · have ht : k0_t1_loop.trips = 16 := by decide
    have hy0 : (y 0).val < 8192 := (y 0).isLt
    have hy1 : (y 1).val < 32 := (y 1).isLt
    have hk : (y 0).val / 512 < k0_t1_loop.trips := by rw [ht]; omega
    refine ⟨_, (mem_pb 𝒱 c bd i arg1 harg1 arg2 harg2 arg3 harg3 X1 X2 _ (Nat.le_refl _) _).mpr ⟨⟨(y 0).val / 512, hk⟩, hk, rfl⟩, ?_⟩
    rw [Rect.mem_set_unit, k0_off3_eq]
    intro a
    match a with
    | ⟨0, _⟩ =>
      show 512 * ((y 0).val / 512) ≤ (y 0).val ∧ (y 0).val < 512 * ((y 0).val / 512) + 512
      omega
    | ⟨1, _⟩ =>
      show 0 ≤ (y 1).val ∧ (y 1).val < 0 + 32
      omega

/-! ## The inputs' staging buffers hold their blocks -/

/-- The words' current staging buffer holds the point's block of words, fetched there or not. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The norms' current staging buffer holds the point's block of norms, fetched there or not. -/
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body's triple -/

set_option maxHeartbeats 1000000 in
/-- The kernel body on whole staging memrefs, the two inputs' reading `x0` and `x1` and the output's at anything, runs to
    the continuation holding the inputs' as they were and the output's at `block x0 x1`: sixteen trips, each storing its
    512 rows. -/
theorem sound_kernel (c : Dev nD) (E : Set ℕ) (i : grid0.Coords) (arg1 : Memref sig .tc .vmem S8192x12 .i32) (harg1 : arg1.IsWhole) (arg2 : Memref sig .tc .vmem S8192x1 .f32) (harg2 : arg2.IsWhole) (arg3 : Memref sig .tc .vmem S8192x32 .bf16) (harg3 : arg3.IsWhole)
    (x0 : Vec F S8192x12 .i32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (block x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact read_pb Variants.none c none i arg1 harg1 arg2 harg2 arg3 harg3 f0 f1 f2

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the two inputs' staging buffers hold their blocks, so the body's triple applies; the invariant
    and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The kernel body meets the pipeline's obligation at every point. -/
theorem body_obligation (c : Dev nD) : BodyObligation (dat (F := F) V c) (defs₀ (F := F)) Variants.none () Set.univ := fun t => by
  rw [bigSep_W0, bigSep_W0]
  exact sound_body V c t

end Cert.KernelIdeal.Dequant

end
-- ==== Proof.Matmul.lean ====
/-
  The second kernel call (the tiled matrix product) of the idealized program, as the pipeline sees it: a 4 × 4 × 4 grid
  (row tile, column tile, contraction tile; the contraction axis fastest), each point staging a 1024 × 1024 block of X, one
  of W and a 1 × 1024 piece of the bias row. A 1024 × 1024 scratch carries the running sum across the four contraction
  steps of an output tile: reset to zero at step 0, increased by X_blk · W_blkᵀ at every step, and at step 3 stored,
  with the bias row added, into the output block, which is idle (untouched, not written back) at the other steps.
  `accAt` is the scratch after each point, `outAt` the output block at a step-3 point, `dat` the pipeline's proof
  data at the contents `V` the call is entered from, whose invariant carries the scratch at `accAt`.
-/
import proofs.«410427_j8254927143226_3_alg».proof.Proof.Gen.KernelIdeal.Launch
import proofs.«410427_j8254927143226_3_alg».proof.Proof.Gen.KernelIdeal.Skeleton
import proofs.«410427_j8254927143226_3_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after the body at the point of flat position `n`: the step's product added to zero at a contraction
    step 0 (`n % 4 = 0`), to what the point before left otherwise. -/
def accAt (c : Dev nD) : (n : ℕ) → n < cfg1.N → Vec F S1024x1024 .f32
  | 0, hn => k1_pay2 (k1_pay1 (F := F)) (iblk V c 0 ⟨0, hn⟩) (iblk V c 1 ⟨0, hn⟩)
  | n + 1, hn =>
    if (n + 1) % 4 = 0 then k1_pay2 (k1_pay1 (F := F)) (iblk V c 0 ⟨n + 1, hn⟩) (iblk V c 1 ⟨n + 1, hn⟩)
    else k1_pay2 (accAt c n (Nat.lt_of_succ_lt hn)) (iblk V c 0 ⟨n + 1, hn⟩) (iblk V c 1 ⟨n + 1, hn⟩)

/-- What a contraction step 3 stores into the output block: the finished sum plus the bias row. -/
def outAt (c : Dev nD) (t : Fin cfg1.N) : Vec F S1024x1024 .f32 :=
  k1_pay3 (accAt V c t.val t.isLt) (iblk V c 2 t)

/-- The scratch, a whole scoped buffer of the kernel's own. -/
abbrev scM : Memref sig .tc .vmem S1024x1024 .f32 := Memref.whole cc1_scratch0

/-- The core's scoped buffers that are neither a staging buffer of this call nor the scratch (the first call's six
    staging buffers), each at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The invariant before position `n`: before the first point the scoped rest with the scratch at anything; afterwards
    the scratch at what the point before left, the other scoped buffers at anything, the generator register at some state. -/
def Phi (c : Dev nD) : (n : ℕ) → n ≤ cfg1.N → sProp 𝕄
  | 0, _ => Pipeline.ΦA spec1 c
  | n + 1, hn => iprop(otherScoped (F := F) c ∗ owns (c : Thread nD τ) scM fullShare (accAt V c n hn) ∗ (∃ r, prngReg c r))

/-- The pipeline's proof data: arrays as found; after the body each input's buffer at its block, the output's at
    `outAt`; the invariant `Phi`; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_3 (c : Dev nD) (t : Fin cfg1.N) : (dat V c).after 3 t = outAt V c t := by dsimp only [dat]

/-- `accAt` at a contraction step 0: the product onto zero. -/
theorem accAt_first (c : Dev nD) (t : Fin cfg1.N) (h : t.val % 4 = 0) :
    accAt V c t.val t.isLt = k1_pay2 (k1_pay1 (F := F)) (iblk V c 0 t) (iblk V c 1 t) := by
  obtain ⟨n, hn⟩ := t
  cases n with
  | zero => rfl
  | succ n => exact (if_pos h).trans rfl

/-- `accAt` at a later contraction step: the product onto what the point before left. -/
theorem accAt_next (c : Dev nD) (t : Fin cfg1.N) (h : t.val % 4 ≠ 0) :
    accAt V c t.val t.isLt
      = k1_pay2 (accAt V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact (if_neg h).trans rfl

/-! ## The body's two conditions, in closed form over the grid -/

/-- The first conditional's test (the contraction coordinate is 0), as the body computes it from the coordinates. -/
abbrev condReset (i : grid1.Coords) : Prop :=
  (Scalar.cmpi .ne (Scalar.extui (Scalar.cmpi .eq (BitVec.ofNat 32 (i 2).val) 0#32)) 0#32) = 1#1
/-- It holds exactly at the points whose contraction step is 0. -/
theorem hcondReset : ∀ t : Fin cfg1.N, condReset (grid1.coords t) ↔ t.val % 4 = 0 :=
  (by decide +kernel : ∀ t : Fin grid1.N, condReset (grid1.coords t) ↔ t.val % 4 = 0)
/-- The second conditional's test (the contraction coordinate is 3). -/
abbrev condEmit (i : grid1.Coords) : Prop := k1_cond2 i = 1#1
/-- It holds exactly at the points whose contraction step is 3. -/
theorem hcondEmit : ∀ t : Fin cfg1.N, condEmit (grid1.coords t) ↔ t.val % 4 = 3 :=
  (by decide +kernel : ∀ t : Fin grid1.N, condEmit (grid1.coords t) ↔ t.val % 4 = 3)

/-- Where the second test fails the output window is idle and is not written back; where it holds the window is live. -/
theorem idle3_of : ∀ t : Fin cfg1.N, ¬condEmit (grid1.coords t) → cfg1.idle 3 (grid1.coords t) = true := by decide +kernel
theorem noFlush3_of : ∀ t : Fin cfg1.N, ¬condEmit (grid1.coords t) → (cfg1.win 3).flush t = false := by decide +kernel
theorem live3_of : ∀ t : Fin cfg1.N, condEmit (grid1.coords t) → cfg1.idle 3 (grid1.coords t) = false := by decide +kernel

/-! ## The body's run, case by case

Every load and store of the body goes through the whole-buffer rectangle at offsets zero, so what a case leaves in a
buffer it stores into is its last store's payload, and a load after a store in the same run reads that payload. -/

/-- What a list of writes whose LAST one stores the whole buffer (the rectangle at offsets zero of the buffer's own sizes)
    reads back as: that write's payload, whatever came before it. -/
theorem read_writes_cons_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- The offsets of every load and store of the body, however spelt, are zero. -/
theorem hz : (![0, 0] : Fin 2 → Nat) = fun _ => 0 := funext fun a => by fin_cases a <;> rfl

set_option maxHeartbeats 1000000 in
/-- A contraction step 0 that is not a step 3: the scratch, whatever it held, ends at the product onto zero; every
    window's buffer is handed back as it was. -/
theorem run_reset (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : condReset i) (hc1 : ¬condEmit i)
    (x0 x1 : Vec F S1024x1024 .bf16) (x2 : Vec F S1x1024 .f32) (xi3 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 (k1_pay1 (F := F)) x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS0
  ipureintro
  rw [read_writes_cons_whole _ _ hz]
  sl_unfold_words
  simp only [View.readCov_unit_zero (S := S1024x1024) _ hz, View.readAt_eq_ld, harg3.read_unread, harg4.read_unread,
    View.ld_unit_zero (S := S1024x1024) hz]

set_option maxHeartbeats 1000000 in
/-- A contraction step 1 or 2: the scratch goes from what it held to the product added onto that; every window's
    buffer is handed back as it was. -/
theorem run_add (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬condReset i) (hc1 : ¬condEmit i)
    (x0 x1 : Vec F S1024x1024 .bf16) (x2 : Vec F S1x1024 .f32) (xi3 xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3
  obtain rfl := harg7.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS0
  ipureintro
  rw [read_writes_cons_whole _ _ hz]
  simp only [View.readAt_eq_ld, harg3.read_unread, harg4.read_unread, harg7.read_unread, View.ld_unit_zero (S := S1024x1024) hz]

set_option maxHeartbeats 1000000 in
/-- A contraction step 3: the scratch goes from what it held to the product added onto that, and the output's buffer,
    whatever it held, ends at that sum plus the bias row. -/
theorem run_emit (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬condReset i) (hc1 : condEmit i)
    (x0 x1 : Vec F S1024x1024 .bf16) (x2 : Vec F S1x1024 .f32) (xi3 xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 xs x0 x1) x2) ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3
  obtain rfl := harg7.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_writes_cons_whole _ _ hz]
    sl_unfold_words
    simp only [View.readCov_unit_zero (S := S1024x1024) _ hz, View.readAt_eq_ld, harg3.read_unread, harg4.read_unread,
      harg5.read_unread, harg7.read_unread, View.ld_unit_zero (S := S1024x1024) hz, View.ld_unit_zero (S := S1x1024) hz]
  iexists _; isplitr
  swap; · iexact HS0
  ipureintro
  sl_unfold_words
  rw [read_writes_cons_whole _ _ hz]
  simp only [View.readAt_eq_ld, harg3.read_unread, harg4.read_unread, harg7.read_unread, View.ld_unit_zero (S := S1024x1024) hz]

/-! ## The staging memrefs at a point, and what the inputs hold -/

/-- Each window's current staging memref at point t, as the pipeline passes it to the body, and its wholeness. -/
abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .f32 := win1_3.stage (cfg1.slots t 3)
abbrev hs3 (t : Fin cfg1.N) : (ms3 t).IsWhole := hstage1_3 ((cfg1.slots t 3).cast nbuf1_3)

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]

/-- An input's current staging buffer holds its block at every point, fetched there or not: the body leaves the block
    in place, and where the pipeline does not fetch (the bias piece, away from a contraction step 0) the block index
    has not moved. -/
theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-- The inputs are never idle: after the body each one's buffer is at its block. -/
theorem leaves_0 (c : Dev nD) (t : Fin cfg1.N) :
    (dat V c).leavesExact 0 t = owns (c : Thread nD τ) (ms0 t) fullShare (iblk V c 0 t) := by
  rw [show (dat V c).leavesExact 0 t = owns (c : Thread nD τ) (ms0 t) fullShare ((dat V c).after 0 t) from rfl, after_0]
theorem leaves_1 (c : Dev nD) (t : Fin cfg1.N) :
    (dat V c).leavesExact 1 t = owns (c : Thread nD τ) (ms1 t) fullShare (iblk V c 1 t) := by
  rw [show (dat V c).leavesExact 1 t = owns (c : Thread nD τ) (ms1 t) fullShare ((dat V c).after 1 t) from rfl, after_1]
theorem leaves_2 (c : Dev nD) (t : Fin cfg1.N) :
    (dat V c).leavesExact 2 t = owns (c : Thread nD τ) (ms2 t) fullShare (iblk V c 2 t) := by
  rw [show (dat V c).leavesExact 2 t = owns (c : Thread nD τ) (ms2 t) fullShare ((dat V c).after 2 t) from rfl, after_2]
/-- At a contraction step 3 the output is live: after the body its buffer is at the finished sum plus the bias row. -/
theorem leaves_3_live (c : Dev nD) (t : Fin cfg1.N) (h : condEmit (grid1.coords t)) :
    (dat V c).leavesExact 3 t = owns (c : Thread nD τ) (ms3 t) fullShare (outAt V c t) := by
  rw [show (dat V c).leavesExact 3 t = owns (c : Thread nD τ) (ms3 t) fullShare ((dat V c).after 3 t) from by
    unfold Dat.leavesExact; rw [live3_of t h], after_3]

/-! ## The invariant, unfolded -/

/-- The class invariant with the scratch named: the other scoped buffers, the scratch at some contents, the register. -/
theorem PhiA_split (c : Dev nD) :
    (Pipeline.ΦA spec1 c : sProp 𝕄) ⊢ iprop(otherScoped (F := F) c ∗ (∃ d, owns (c : Thread nD τ) scM fullShare d) ∗ (∃ r, prngReg c r)) := by
  unfold Pipeline.ΦA otherScoped; rw [scopedRest1_eq]; simp only [scM, owns_whole]
  iintro ⟨⟨H1, H2, H3, H4, H5, H6, HS⟩, Hg⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HS]; · iexact HS
  iexact Hg

theorem PhiA_join (c : Dev nD) :
    iprop(otherScoped (F := F) c ∗ (∃ d, owns (c : Thread nD τ) scM fullShare d) ∗ (∃ r, prngReg c r)) ⊢ (Pipeline.ΦA spec1 c : sProp 𝕄) := by
  unfold Pipeline.ΦA otherScoped; rw [scopedRest1_eq]; simp only [scM, owns_whole]
  iintro ⟨⟨H1, H2, H3, H4, H5, H6⟩, HS, Hg⟩
  isplitl [H1 H2 H3 H4 H5 H6 HS]
  · isplitl [H1]; · iexact H1
    isplitl [H2]; · iexact H2
    isplitl [H3]; · iexact H3
    isplitl [H4]; · iexact H4
    isplitl [H5]; · iexact H5
    isplitl [H6]; · iexact H6
    iexact HS
  iexact Hg

theorem Phi_succ (c : Dev nD) (n : ℕ) (hn : n < cfg1.N) :
    Phi V c (n + 1) hn = iprop(otherScoped (F := F) c ∗ owns (c : Thread nD τ) scM fullShare (accAt V c n hn) ∗ (∃ r, prngReg c r)) := rfl

/-- Before a point that is not the first: the scratch at what the point before left. -/
theorem Phi_pos (c : Dev nD) (n : ℕ) (h : n ≤ cfg1.N) (hz : n ≠ 0) :
    Phi V c n h = iprop(otherScoped (F := F) c ∗ owns (c : Thread nD τ) scM fullShare (accAt V c (n - 1) (by omega)) ∗ (∃ r, prngReg c r)) := by
  cases n with
  | zero => exact absurd rfl hz
  | succ n => rfl

/-- Before any point the scratch is held at SOME contents (what a contraction step 0, which resets it, needs; and what
    the class invariant says). -/
theorem Phi_any (c : Dev nD) (n : ℕ) (h : n ≤ cfg1.N) :
    Phi V c n h ⊢ iprop(otherScoped (F := F) c ∗ (∃ d, owns (c : Thread nD τ) scM fullShare d) ∗ (∃ r, prngReg c r)) := by
  cases n with
  | zero => exact PhiA_split c
  | succ n =>
    rw [Phi_succ]
    iintro ⟨Hoth, HS, Hg⟩
    isplitl [Hoth]; · iexact Hoth
    isplitl [HS]; · iexists _; iexact HS
    iexact Hg

/-- The invariant at a point's start, restated at the point's position. -/
theorem Phi_castSucc (c : Dev nD) (t : Fin cfg1.N) :
    (dat V c).Φ t.castSucc = Phi V c t.val (Nat.le_of_lt t.isLt) := by
  dsimp only [dat]; simp only [Fin.coe_castSucc]

/-! ## The body obligation, at a generic point -/

/-- What the body is called with at point t (the obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- The body at any point, by the contraction step: at a step 0 the scratch (at anything) is reset and ends at the
    product onto zero; at a step 1 or 2 it goes from what the point before left to the product added onto that; in both
    the output's buffer is idle and handed back as found; at a step 3 the scratch is updated likewise and the output's
    buffer ends at the sum plus the bias row. The other scoped buffers, the register and what the core owes pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2, Phi_castSucc]
  by_cases h0 : t.val % 4 = 0
  · have hR : condReset (grid1.coords t) := (hcondReset t).mpr h0
    have hE : ¬condEmit (grid1.coords t) := fun h => by have := (hcondEmit t).mp h; omega
    rw [Dat.leavesExact_idle (dat V c) 3 t (idle3_of t hE) (noFlush3_of t hE), accAt_first V c t h0]
    iintro ⟨HΦ, Ho, ⟨%d0, H0⟩, ⟨%d1, H1⟩, ⟨%d2, H2⟩, ⟨%d3, H3⟩⟩
    ihave HΦ' := (Phi_any V c t.val (Nat.le_of_lt t.isLt)) $$ HΦ
    icases HΦ' with ⟨Hoth, HS, Hg⟩
    iapply (run_reset c (grid1.coords t) _ _ _ _ _ _ _ _ _ _ hR hE (iblk V c 0 t) (iblk V c 1 t) (iblk V c 2 t) ((dat V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    iexists d3; iexact H3
  · have hR : ¬condReset (grid1.coords t) := fun h => h0 ((hcondReset t).mp h)
    have hz : t.val ≠ 0 := fun h => h0 (by rw [h])
    rw [Phi_pos V c _ _ hz, accAt_next V c t h0]
    by_cases h3 : t.val % 4 = 3
    · have hE : condEmit (grid1.coords t) := (hcondEmit t).mpr h3
      rw [leaves_3_live V c t hE]
      unfold outAt
      rw [accAt_next V c t h0]
      iintro ⟨⟨Hoth, HS, Hg⟩, Ho, ⟨%d0, H0⟩, ⟨%d1, H1⟩, ⟨%d2, H2⟩, ⟨%d3, H3⟩⟩
      iapply (run_emit c (grid1.coords t) _ _ _ _ _ _ _ _ _ _ hR hE (iblk V c 0 t) (iblk V c 1 t) (iblk V c 2 t) ((dat V c).before 3 t d3)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexact H3
    · have hE : ¬condEmit (grid1.coords t) := fun h => h3 ((hcondEmit t).mp h)
      rw [Dat.leavesExact_idle (dat V c) 3 t (idle3_of t hE) (noFlush3_of t hE)]
      iintro ⟨⟨Hoth, HS, Hg⟩, Ho, ⟨%d0, H0⟩, ⟨%d1, H1⟩, ⟨%d2, H2⟩, ⟨%d3, H3⟩⟩
      iapply (run_add c (grid1.coords t) _ _ _ _ _ _ _ _ _ _ hR hE (iblk V c 0 t) (iblk V c 1 t) (iblk V c 2 t) ((dat V c).before 3 t d3)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists d3; iexact H3

/-- The kernel body meets the pipeline's obligation at every point. -/
theorem body_obligation (c : Dev nD) : BodyObligation (dat (F := F) V c) (defs₀ (F := F)) Variants.none () Set.univ := fun t => by
  rw [bigSep_W1, bigSep_W1]
  exact sound_body V c t

/-- What the entry hands the call (the class invariant) is the invariant before the first point. -/
theorem hin (c : Dev nD) : Pipeline.ΦA spec1 c ⊢ (dat V c).Φ 0 := by
  rw [show (dat V c).Φ 0 = Phi V c 0 (Nat.zero_le _) from rfl]
  exact Idealize.SL.BI.Entails.refl _

/-- After the last point the invariant gives the class invariant back: the scratch's contents are forgotten. -/
theorem hout (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl]
  exact (Phi_any V c _ _).trans (PhiA_join c)

end Cert.KernelIdeal.Matmul

end
-- ==== Proof.Run.lean ====
/-
  The whole run of the idealized program: @main is a stretch of host reshapes, the dequantization call, a stretch of host
  reshapes and a format change, the matrix-product call, and a last reshape. The contents of every unscoped buffer
  at each boundary are a fold from the launch memory (`W1` … `W5`): a host stretch applies its operations, a kernel call
  replaces its windows' arrays by what its write-backs leave and keeps every other buffer. `run_main` says every weakly
  fair execution ends with every unscoped buffer at `W5`; `frame` reads the four arguments off it.
-/
import proofs.«410427_j8254927143226_3_alg».proof.Proof.Dequant
import proofs.«410427_j8254927143226_3_alg».proof.Proof.Matmul
import proofs.«410427_j8254927143226_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s unscoped buffers at launch. -/
abbrev W0 (c : Dev nD) : Valuation τ sig (Elt F) := fun b => m (c, b)
/-- After the first host stretch (the dequantization call's entry). -/
abbrev W1 (c : Dev nD) : Valuation τ sig (Elt F) := StableHlo.after hostOps0 (W0 m c)
/-- The same read at the TensorCore's references. -/
abbrev VA (c : Dev nD) (b : Ref sig .tc) : Buf (Elt F) ((c : Thread nD τ).loc b) := W1 m c b
/-- After the dequantization call: its arrays at what the pipeline leaves, every other buffer as entered. -/
def W2 (c : Dev nD) : Valuation τ sig (Elt F) :=
  Pipeline.withArrays spec0 c (W1 m c) fun w => (Dequant.dat (VA m) c).arrAt w cfg0.N
/-- After the second host stretch (the matrix-product call's entry). -/
abbrev W3 (c : Dev nD) : Valuation τ sig (Elt F) := StableHlo.after hostOps1 (W2 m c)
abbrev VB (c : Dev nD) (b : Ref sig .tc) : Buf (Elt F) ((c : Thread nD τ).loc b) := W3 m c b
/-- After the matrix-product call. -/
def W4 (c : Dev nD) : Valuation τ sig (Elt F) :=
  Pipeline.withArrays spec1 c (W3 m c) fun w => (Matmul.dat (VB m) c).arrAt w cfg1.N
/-- After the last host stretch: the end of @main. -/
abbrev W5 (c : Dev nD) : Valuation τ sig (Elt F) := StableHlo.after hostOps2 (W4 m c)

/-! ## The fold at a call's arrays and off them -/

theorem W2_arr (c : Dev nD) (w : Fin cfg0.W) :
    W2 m c (Proc.devRef .tc (Pipeline.arrRef spec0 w)) = (Dequant.dat (VA m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The contents the dequantization call is left at, read at the TensorCore's references. -/
abbrev VA' (c : Dev nD) (b : Ref sig .tc) : Buf (Elt F) ((c : Thread nD τ).loc b) := W2 m c b
theorem hF0 (c : Dev nD) (w : Fin cfg0.W) : (Dequant.dat (VA m) c).arrAt w cfg0.N = VA' m c (Pipeline.arrRef spec0 w) :=
  (W2_arr m c w).symm
theorem hrest0 (c : Dev nD) : ∀ b, b ∉ Finset.univ.image (Pipeline.arrRef spec0) → VA' m c b = VA m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (Matmul.dat (VB m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The contents the matrix-product call is left at, read at the TensorCore's references. -/
abbrev VB' (c : Dev nD) (b : Ref sig .tc) : Buf (Elt F) ((c : Thread nD τ).loc b) := W4 m c b
theorem hF1 (c : Dev nD) (w : Fin cfg1.W) : (Matmul.dat (VB m) c).arrAt w cfg1.N = VB' m c (Pipeline.arrRef spec1 w) :=
  (W4_arr m c w).symm
theorem hrest1 (c : Dev nD) : ∀ b, b ∉ Finset.univ.image (Pipeline.arrRef spec1) → VB' m c b = VB m c b :=
  fun b hb => W4_of_ne m c b fun w e => hb (Finset.mem_image.mpr ⟨w, Finset.mem_univ _, e⟩)

/-! ## The proof data of both calls and the thread state -/

/-- Both calls' proof data, each at the contents its call is entered from. -/
def pdats : (p : Fin 2) → (c : Dev nD) → Dat τ (Elt F) Unit ℕ (UR sig nD τ) ℕ (Pipeline.pin (pcfgs (F := F)) adm p) c
  | ⟨0, _⟩ => fun c => Dequant.dat (VA m) c
  | ⟨1, _⟩ => fun c => Matmul.dat (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
/-- A host stretch over every unscoped buffer from given contents, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the end of the fold, the generator register at some state. -/
abbrev Tend (c : Dev nD) : sProp 𝕄 := iprop(StableHlo.held (c : Thread nD τ) (Pipeline.ucRefs τ sig) (W5 m c) ∗ ∃ r, prngReg c r)

/-! ## The two calls as segments -/

set_option backward.isDefEq.respectTransparency.types false in
/-- The dequantization call over the thread state: entered with every unscoped buffer at W1, left with them at W2.
    Its arrays are split out of the unscoped buffers and put back at what the pipeline leaves; the generator register
    goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dequant.body_obligation (VA m) c).loose
  hwaits := Pipeline.hwaits_of_owed_zero _ _ _ _ L lv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VA' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product call over the thread state: entered with every unscoped buffer at W3, left with them at W4.
    Its invariant is the class invariant only at the two ends: before the first point the class invariant yields it,
    after the last point it yields the class invariant back (the scratch's contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Matmul.body_obligation (VB m) c).loose
  hwaits := Pipeline.hwaits_of_owed_zero _ _ _ _ L lv 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := Matmul.hin (VB m) c
    unfold Pipeline.ΦA at h
    iintro ⟨Hp, -, Hr⟩
    iapply h
    isplitl [Hr]; · iexact Hr
    iexact Hp
  hout c := by
    rw [Pipeline.ownSems0_none]
    have h : (pdats m 1 c).Φ (Fin.last _) ⊢ Pipeline.ΦA spec1 c := Matmul.hout (VB m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VB' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per kernel call. -/
abbrev runSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments: the chain of its items, then the segments' run against that chain by
    definitional unfolding. -/
theorem main_run (c : Dev nD) : main (F := F) c = Pipeline.Seg.run (runSegs m) := (main_chain c).trans (by chain_rfl)

/-- The last host stretch leaves the last thread state beside the core owing nothing. -/
theorem hend (c : Dev nD) :
    iprop(StableHlo.held (c : Thread nD τ) (Pipeline.ucRefs τ sig) (W5 m c) ∗ Rst (F := F) c)
      ⊢ iprop(Tend m c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- Every weakly fair execution of @main from memory m with zero counters terminates, nothing faulting, with
    every unscoped buffer of every core at the last valuation of the fold. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl, fun c => hend m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The arguments end as launched -/

/-- An unscoped buffer that no host stretch writes and that is no array of a window of either call holds at the end
    of the fold what it held at launch. -/
theorem W5_of (c : Dev nD) (r : Ref sig .tc) (h0 : r ∉ hostOps0_W) (h1 : r ∉ hostOps1_W) (h2 : r ∉ hostOps2_W)
    (ha : ∀ w, Pipeline.arrRef spec0 w ≠ r) (hb : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hb
    _ = W2 m c (Proc.devRef .tc r) := StableHlo.after_of_writes_sub hostOps1 _ hostOps1_writes h1
    _ = W1 m c (Proc.devRef .tc r) := W2_of_ne m c r ha
    _ = W0 m c (Proc.devRef .tc r) := StableHlo.after_of_writes_sub hostOps0 _ hostOps0_writes h0
    _ = m ((c : Thread nD τ).loc r) := rfl

theorem W5_main_arg0 (c : Dev nD) : W5 m c (Proc.devRef .tc main_arg0) = m ((c : Thread nD τ).loc main_arg0) :=
  W5_of m c main_arg0 (by decide) (by decide) (by decide) (by decide) (by decide)
theorem W5_main_arg1 (c : Dev nD) : W5 m c (Proc.devRef .tc main_arg1) = m ((c : Thread nD τ).loc main_arg1) :=
  W5_of m c main_arg1 (by decide) (by decide) (by decide) (by decide) (by decide)
theorem W5_main_arg2 (c : Dev nD) : W5 m c (Proc.devRef .tc main_arg2) = m ((c : Thread nD τ).loc main_arg2) :=
  W5_of m c main_arg2 (by decide) (by decide) (by decide) (by decide) (by decide)
theorem W5_main_arg3 (c : Dev nD) : W5 m c (Proc.devRef .tc main_arg3) = m ((c : Thread nD τ).loc main_arg3) :=
  W5_of m c main_arg3 (by decide) (by decide) (by decide) (by decide) (by decide)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩)
    (run_main m ρ)

end Cert.KernelIdeal.Run

end
-- ==== Proof.Spec.lean ====
/-
  The mathematics of the 3-bit linear layer, stated once, with no program in sight.

  A packed weight array holds, per group of 32 weights, twelve words (four triples of byte-valued words);
  each triple (b0, b1, b2) carries eight 3-bit codes q ∈ {0..7} (`field`), a code is mapped to the level
  (q · 2/7 − 1) · norm of its group (`level`), the 4096·4096 levels in row-major order are the weight matrix
  (`weight`), and the layer's result is x · Wᵀ + bias over the extended reals (`result`).

  `dequant` and `affine` are the same two stages over the rank-2 arrays the two kernel calls see:
  `dequant` the [524288, 32] array of levels from the [524288, 12] words and the [524288, 1] norms,
  `affine` the product X · Wᵀ + B of [4096, 4096] arrays with a [1, 4096] bias row.
-/
import Idealize.ShloMosaic.PureOps.Ideal
import Idealize.ShloMosaic.Lib.ValueIdx

noncomputable section

open scoped BigOperators

namespace Cert.Linear3Bit

open Idealize.ShloMosaic Idealize.ShloMosaic.ValueIdx

/-- The eight 3-bit codes a triple of words carries, low bits first; codes 2 and 5 straddle two words. -/
def field (b0 b1 b2 : BitVec 32) : Fin 8 → BitVec 32 :=
  ![ IntOp.andi b0 7#32,
     IntOp.andi (IntOp.shrsi .vector b0 3#32) 7#32,
     IntOp.ori (IntOp.andi (IntOp.shrsi .vector b0 6#32) 3#32) (IntOp.shli .vector (IntOp.andi b1 1#32) 2#32),
     IntOp.andi (IntOp.shrsi .vector b1 1#32) 7#32,
     IntOp.andi (IntOp.shrsi .vector b1 4#32) 7#32,
     IntOp.ori (IntOp.andi (IntOp.shrsi .vector b1 7#32) 1#32) (IntOp.shli .vector (IntOp.andi b2 3#32) 1#32),
     IntOp.andi (IntOp.shrsi .vector b2 2#32) 7#32,
     IntOp.andi (IntOp.shrsi .vector b2 5#32) 7#32 ]

/-- A code `q`, read as a signed integer, scaled to [−1, 1] in steps of 2/7 and by its group's norm `n`.
    The unit is kept as the word both programs print for 1.0. -/
def level (q : BitVec 32) (n : EReal) : EReal :=
  (((q.toInt : ℝ) : EReal) * ((2 / 7 : ℝ) : EReal) - Ideal.ofBits .f32 0x3F800000#32) * n

/-- Row `g`, lane `j` of the dequantized [524288, 32] array: triple `j / 8` of the row's twelve words, code `j % 8`. -/
def dequant (P : IVec (⟨2, ![524288, 12]⟩ : Shape) 32) (Nm : FVec Ideal (⟨2, ![524288, 1]⟩ : Shape) .f32) :
    FVec Ideal (⟨2, ![524288, 32]⟩ : Shape) .bf16 :=
  fun j =>
    level (field (P (ix2 (j 0) ⟨3 * ((j 1).val / 8), by have := (j 1).isLt; simp only [Matrix.cons_val_one, Matrix.cons_val_zero] at this ⊢; omega⟩))
                 (P (ix2 (j 0) ⟨3 * ((j 1).val / 8) + 1, by have := (j 1).isLt; simp only [Matrix.cons_val_one, Matrix.cons_val_zero] at this ⊢; omega⟩))
                 (P (ix2 (j 0) ⟨3 * ((j 1).val / 8) + 2, by have := (j 1).isLt; simp only [Matrix.cons_val_one, Matrix.cons_val_zero] at this ⊢; omega⟩))
                 ⟨(j 1).val % 8, Nat.mod_lt _ (by norm_num)⟩)
          (Nm (ix2 (j 0) (0 : Fin 1)))

/-- X · Wᵀ + B on [4096, 4096] arrays: entry (r, o) is the sum over k of X[r, k] · W[o, k], plus B[0, o]. -/
def affine (X W : FVec Ideal (⟨2, ![4096, 4096]⟩ : Shape) .bf16) (B : FVec Ideal (⟨2, ![1, 4096]⟩ : Shape) .f32) :
    FVec Ideal (⟨2, ![4096, 4096]⟩ : Shape) .f32 :=
  fun j => (∑ k : Fin 4096, X (ix2 (j 0) k) * W (ix2 (j 1) k)) + B (ix2 (0 : Fin 1) (j 1))

/-- Entry (o, i) of the weight matrix: element 4096·o + i of the flat array of levels, that is group
    128·o + i / 32, triple (i % 32) / 8, code i % 8. -/
def weight (pk : IVec (⟨1, ![6291456]⟩ : Shape) 32) (nm : FVec Ideal (⟨1, ![524288]⟩ : Shape) .f32) (o i : Fin 4096) : EReal :=
  level (field (pk (ix1 ⟨12 * (128 * o.val + i.val / 32) + 3 * (i.val % 32 / 8), by have := o.isLt; have := i.isLt; omega⟩))
               (pk (ix1 ⟨12 * (128 * o.val + i.val / 32) + 3 * (i.val % 32 / 8) + 1, by have := o.isLt; have := i.isLt; omega⟩))
               (pk (ix1 ⟨12 * (128 * o.val + i.val / 32) + 3 * (i.val % 32 / 8) + 2, by have := o.isLt; have := i.isLt; omega⟩))
               ⟨i.val % 8, Nat.mod_lt _ (by norm_num)⟩)
        (nm (ix1 ⟨128 * o.val + i.val / 32, by have := o.isLt; have := i.isLt; omega⟩))

/-- The layer: y[b, s, o] = Σ_k x[b, s, k] · weight[o, k] + bias[o], over the extended reals. -/
def result (x : FVec Ideal (⟨3, ![2, 2048, 4096]⟩ : Shape) .f32) (pk : IVec (⟨1, ![6291456]⟩ : Shape) 32)
    (nm : FVec Ideal (⟨1, ![524288]⟩ : Shape) .f32) (bias : FVec Ideal (⟨1, ![4096]⟩ : Shape) .f32) :
    FVec Ideal (⟨3, ![2, 2048, 4096]⟩ : Shape) .f32 :=
  fun y => (∑ k : Fin 4096, x (ix3 (y 0) (y 1) k) * weight pk nm (y 2) k) + bias (ix1 (y 2))

end Cert.Linear3Bit

end
-- ==== Proof.DequantValue.lean ====
/-
  What the dequantization call leaves in its output array, at the ideal instance: entry (g, j) of the [524288, 32] array
  is the level of code j % 8 of triple j / 8 of row g's twelve words, scaled by row g's norm (`Linear3Bit.dequant`).
  Point t of the 64 writes rows 8192·t … 8192·t + 8191; inside a block, trip k of the loop writes rows 512·k … 512·k + 511.

  The road. First the body's arithmetic on 512 rows is read at one entry (r, l), l = 8q + e: the twelve words of a row
  regrouped as four triples and cut into three word planes (word 3q + e' of the row at (r, q)), the eight code planes made
  of them by masks and shifts (`Linear3Bit.field`, entry by entry), the planes laid side by side (lane e is plane e), each
  code read as a signed integer, times 2/7, less 1, times the row's norm spread over the row's 32 lanes (`Linear3Bit.level`).
  Then a trip's rows are rows of the block (row 512·k + r), a block's rows are rows of the array (row 8192·t + g), every
  row of the array lies in the block of point g / 8192, and every point writes its block back: the array is `dequant`.
-/
import proofs.«410427_j8254927143226_3_alg».proof.Proof.Dequant
import proofs.«410427_j8254927143226_3_alg».proof.Proof.Spec
import Idealize.ShloMosaic.Lib.Pipeline.Value
import Idealize.ShloMosaic.Lib.ValueIdx
import Idealize.ShloMosaic.Lib.ValueLayout
import Idealize.ShloMosaic.PureOps.IdealRules

set_option maxRecDepth 16384

noncomputable section

open scoped BigOperators

namespace Cert.KernelIdeal.DequantValue

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic on 512 rows, read at an index -/

/-- The rows' twelve words regrouped as four triples: word `e` of triple `q` is word `3q + e` of the row. -/
theorem triple_apply (v4 : Vec Ideal S512x12 .i32) (r : Fin 512) (q : Fin 4) (e : Fin 3) :
    k0_pay2 (F := Ideal) v4 (ix3 r q e) = v4 (ix2 r ⟨3 * q.val + e.val, by omega⟩) := by
  unfold k0_pay2
  refine (shapeCast_apply _ _ (ix3 r q e) (ix2 r ⟨3 * q.val + e.val, by omega⟩) ?_).trans ?_
  · rw [Shape.rowMajor_val_two, Shape.rowMajor_val_three]
    show r.val * 12 + (3 * q.val + e.val) = (r.val * 4 + q.val) * 3 + e.val
    omega
  · rw [shapeCast_self]

/-- Word `e` of every triple, as a [512, 4] plane: the slice of the triples at offset `e` on the last axis, its unit
    axis dropped. -/
theorem plane_apply (v4 : Vec Ideal S512x12 .i32) (e : Fin 3) (h : S512x4x3.Slices ![0, 0, e.val] S512x4x1)
    (r : Fin 512) (q : Fin 4) :
    shapeCast S512x4 (extractStridedSlice S512x4x1 ![0, 0, e.val] (k0_pay2 (F := Ideal) v4) h) shapeCasts_S512x4x1_S512x4 (ix2 r q)
      = v4 (ix2 r ⟨3 * q.val + e.val, by omega⟩) := by
  refine (shapeCast_apply _ _ (ix2 r q) (ix3 r q (0 : Fin 1)) ?_).trans ?_
  · rw [Shape.rowMajor_val_two, Shape.rowMajor_val_three]
    show (r.val * 4 + q.val) * 1 + 0 = r.val * 4 + q.val
    omega
  · refine (extractStridedSlice_apply _ _ _ (ix3 r q (0 : Fin 1)) (ix3 r q e) ?_).trans ?_
    · intro a
      match a with
      | ⟨0, _⟩ => show r.val = 0 + r.val; omega
      | ⟨1, _⟩ => show q.val = 0 + q.val; omega
      | ⟨2, _⟩ => show e.val = e.val + 0; omega
    · exact triple_apply v4 r q e

/-- The plane of first words: word 3q of row r at (r, q). -/
theorem word0_apply (v4 : Vec Ideal S512x12 .i32) (r : Fin 512) (q : Fin 4) :
    k0_pay3 (F := Ideal) v4 (ix2 r q) = v4 (ix2 r ⟨3 * q.val, by omega⟩) :=
  plane_apply v4 0 slices_S512x4x3_o0_0_0_S512x4x1 r q

/-- The plane of second words: word 3q + 1 of row r at (r, q). -/
theorem word1_apply (v4 : Vec Ideal S512x12 .i32) (r : Fin 512) (q : Fin 4) :
    k0_pay4 (F := Ideal) v4 (ix2 r q) = v4 (ix2 r ⟨3 * q.val + 1, by omega⟩) :=
  plane_apply v4 1 slices_S512x4x3_o0_0_1_S512x4x1 r q

/-- The plane of third words: word 3q + 2 of row r at (r, q). -/
theorem word2_apply (v4 : Vec Ideal S512x12 .i32) (r : Fin 512) (q : Fin 4) :
    k0_pay5 (F := Ideal) v4 (ix2 r q) = v4 (ix2 r ⟨3 * q.val + 2, by omega⟩) :=
  plane_apply v4 2 slices_S512x4x3_o0_0_2_S512x4x1 r q

/-- The eight code planes the body builds from the three word planes are, entry by entry, the eight codes of the triple. -/
theorem codes_eq (v4 : Vec Ideal S512x12 .i32) (r : Fin 512) (q : Fin 4) :
    (![k0_pay6 (F := Ideal) v4 (ix2 r q), k0_pay7 (F := Ideal) v4 (ix2 r q), k0_pay8 (F := Ideal) v4 (ix2 r q),
       k0_pay9 (F := Ideal) v4 (ix2 r q), k0_pay10 (F := Ideal) v4 (ix2 r q),
       IntOp.ori (k0_pay11 (F := Ideal) v4 (ix2 r q)) (IntOp.shli .vector (k0_pay12 (F := Ideal) v4 (ix2 r q)) (k0_pay13 (ix2 r q))),
       IntOp.andi (IntOp.shrsi .vector (k0_pay5 (F := Ideal) v4 (ix2 r q)) 2#32) 7#32,
       IntOp.andi (IntOp.shrsi .vector (k0_pay5 (F := Ideal) v4 (ix2 r q)) 5#32) 7#32] : Fin 8 → BitVec 32)
      = Cert.Linear3Bit.field (v4 (ix2 r ⟨3 * q.val, by omega⟩)) (v4 (ix2 r ⟨3 * q.val + 1, by omega⟩))
          (v4 (ix2 r ⟨3 * q.val + 2, by omega⟩)) := by
  have h0 := word0_apply v4 r q
  have h1 := word1_apply v4 r q
  have h2 := word2_apply v4 r q
  unfold Cert.Linear3Bit.field
  rw [← h0, ← h1, ← h2]
  rfl

/-- A [512, 4] plane given a trailing unit axis reads its own entry. -/
theorem lane_apply (x : IVec S512x4 32) (r : Fin 512) (q : Fin 4) :
    shapeCast S512x4x1 x shapeCasts_S512x4_S512x4x1 (ix3 r q (0 : Fin 1)) = x (ix2 r q) := by
  refine shapeCast_apply _ _ (ix3 r q (0 : Fin 1)) (ix2 r q) ?_
  rw [Shape.rowMajor_val_two, Shape.rowMajor_val_three]
  show r.val * 4 + q.val = (r.val * 4 + q.val) * 1 + 0
  omega

/-- Eight [512, 4] planes, each with a trailing unit axis, in the order they are laid side by side. -/
abbrev lanes (x0 x1 x2 x3 x4 x5 x6 x7 : IVec S512x4 32) : List ((s : Shape) × (s.Idx → BitVec 32)) :=
  [⟨S512x4x1, shapeCast S512x4x1 x0 shapeCasts_S512x4_S512x4x1⟩, ⟨S512x4x1, shapeCast S512x4x1 x1 shapeCasts_S512x4_S512x4x1⟩,
   ⟨S512x4x1, shapeCast S512x4x1 x2 shapeCasts_S512x4_S512x4x1⟩, ⟨S512x4x1, shapeCast S512x4x1 x3 shapeCasts_S512x4_S512x4x1⟩,
   ⟨S512x4x1, shapeCast S512x4x1 x4 shapeCasts_S512x4_S512x4x1⟩, ⟨S512x4x1, shapeCast S512x4x1 x5 shapeCasts_S512x4_S512x4x1⟩,
   ⟨S512x4x1, shapeCast S512x4x1 x6 shapeCasts_S512x4_S512x4x1⟩, ⟨S512x4x1, shapeCast S512x4x1 x7 shapeCasts_S512x4_S512x4x1⟩]

/-- Off the last axis, an entry of a unit-lane piece and an entry of the eight-lane result have the same coordinates. -/
theorem lane_coords (r : Fin 512) (q : Fin 4) (e : Fin 8) : ∀ b : Fin S512x4x1.rank, b.cast (rfl : S512x4x1.rank = S512x4x8.rank) ≠ (2 : Fin 3) →
    ((ix3 r q (0 : Fin 1) : S512x4x1.Idx) b).val = ((ix3 r q e : S512x4x8.Idx) (b.cast (rfl : S512x4x1.rank = S512x4x8.rank))).val := by
  intro b hb
  match b with
  | ⟨0, _⟩ => rfl
  | ⟨1, _⟩ => rfl
  | ⟨2, _⟩ => exact absurd rfl hb

/-- Lane 0 of the eight planes laid side by side is plane 0. -/
theorem lanes_apply_0 (x0 x1 x2 x3 x4 x5 x6 x7 : IVec S512x4 32)
    (h : Shape.Concatenates ((lanes x0 x1 x2 x3 x4 x5 x6 x7).map (·.1)) S512x4x8 2) (r : Fin 512) (q : Fin 4) :
    concatenate S512x4x8 2 (lanes x0 x1 x2 x3 x4 x5 x6 x7) h (ix3 r q (⟨0, by omega⟩ : Fin 8)) = x0 (ix2 r q) :=
  (concatenate_apply_piece (2 : Fin 3) (lanes x0 x1 x2 x3 x4 x5 x6 x7) h (ix3 r q (⟨0, by omega⟩ : Fin 8)) 0 (show 0 < 8 by omega) S512x4x1
    (shapeCast S512x4x1 x0 shapeCasts_S512x4_S512x4x1) rfl rfl 0 rfl (ix3 r q (0 : Fin 1)) (lane_coords r q _) rfl).trans (lane_apply x0 r q)

/-- Lane 1 of the eight planes laid side by side is plane 1. -/
theorem lanes_apply_1 (x0 x1 x2 x3 x4 x5 x6 x7 : IVec S512x4 32)
    (h : Shape.Concatenates ((lanes x0 x1 x2 x3 x4 x5 x6 x7).map (·.1)) S512x4x8 2) (r : Fin 512) (q : Fin 4) :
    concatenate S512x4x8 2 (lanes x0 x1 x2 x3 x4 x5 x6 x7) h (ix3 r q (⟨1, by omega⟩ : Fin 8)) = x1 (ix2 r q) :=
  (concatenate_apply_piece (2 : Fin 3) (lanes x0 x1 x2 x3 x4 x5 x6 x7) h (ix3 r q (⟨1, by omega⟩ : Fin 8)) 1 (show 1 < 8 by omega) S512x4x1
    (shapeCast S512x4x1 x1 shapeCasts_S512x4_S512x4x1) rfl rfl 1 rfl (ix3 r q (0 : Fin 1)) (lane_coords r q _) rfl).trans (lane_apply x1 r q)

/-- Lane 2 of the eight planes laid side by side is plane 2. -/
theorem lanes_apply_2 (x0 x1 x2 x3 x4 x5 x6 x7 : IVec S512x4 32)
    (h : Shape.Concatenates ((lanes x0 x1 x2 x3 x4 x5 x6 x7).map (·.1)) S512x4x8 2) (r : Fin 512) (q : Fin 4) :
    concatenate S512x4x8 2 (lanes x0 x1 x2 x3 x4 x5 x6 x7) h (ix3 r q (⟨2, by omega⟩ : Fin 8)) = x2 (ix2 r q) :=
  (concatenate_apply_piece (2 : Fin 3) (lanes x0 x1 x2 x3 x4 x5 x6 x7) h (ix3 r q (⟨2, by omega⟩ : Fin 8)) 2 (show 2 < 8 by omega) S512x4x1
    (shapeCast S512x4x1 x2 shapeCasts_S512x4_S512x4x1) rfl rfl 2 rfl (ix3 r q (0 : Fin 1)) (lane_coords r q _) rfl).trans (lane_apply x2 r q)

/-- Lane 3 of the eight planes laid side by side is plane 3. -/
theorem lanes_apply_3 (x0 x1 x2 x3 x4 x5 x6 x7 : IVec S512x4 32)
    (h : Shape.Concatenates ((lanes x0 x1 x2 x3 x4 x5 x6 x7).map (·.1)) S512x4x8 2) (r : Fin 512) (q : Fin 4) :
    concatenate S512x4x8 2 (lanes x0 x1 x2 x3 x4 x5 x6 x7) h (ix3 r q (⟨3, by omega⟩ : Fin 8)) = x3 (ix2 r q) :=
  (concatenate_apply_piece (2 : Fin 3) (lanes x0 x1 x2 x3 x4 x5 x6 x7) h (ix3 r q (⟨3, by omega⟩ : Fin 8)) 3 (show 3 < 8 by omega) S512x4x1
    (shapeCast S512x4x1 x3 shapeCasts_S512x4_S512x4x1) rfl rfl 3 rfl (ix3 r q (0 : Fin 1)) (lane_coords r q _) rfl).trans (lane_apply x3 r q)

/-- Lane 4 of the eight planes laid side by side is plane 4. -/
theorem lanes_apply_4 (x0 x1 x2 x3 x4 x5 x6 x7 : IVec S512x4 32)
    (h : Shape.Concatenates ((lanes x0 x1 x2 x3 x4 x5 x6 x7).map (·.1)) S512x4x8 2) (r : Fin 512) (q : Fin 4) :
    concatenate S512x4x8 2 (lanes x0 x1 x2 x3 x4 x5 x6 x7) h (ix3 r q (⟨4, by omega⟩ : Fin 8)) = x4 (ix2 r q) :=
  (concatenate_apply_piece (2 : Fin 3) (lanes x0 x1 x2 x3 x4 x5 x6 x7) h (ix3 r q (⟨4, by omega⟩ : Fin 8)) 4 (show 4 < 8 by omega) S512x4x1
    (shapeCast S512x4x1 x4 shapeCasts_S512x4_S512x4x1) rfl rfl 4 rfl (ix3 r q (0 : Fin 1)) (lane_coords r q _) rfl).trans (lane_apply x4 r q)

/-- Lane 5 of the eight planes laid side by side is plane 5. -/
theorem lanes_apply_5 (x0 x1 x2 x3 x4 x5 x6 x7 : IVec S512x4 32)
    (h : Shape.Concatenates ((lanes x0 x1 x2 x3 x4 x5 x6 x7).map (·.1)) S512x4x8 2) (r : Fin 512) (q : Fin 4) :
    concatenate S512x4x8 2 (lanes x0 x1 x2 x3 x4 x5 x6 x7) h (ix3 r q (⟨5, by omega⟩ : Fin 8)) = x5 (ix2 r q) :=
  (concatenate_apply_piece (2 : Fin 3) (lanes x0 x1 x2 x3 x4 x5 x6 x7) h (ix3 r q (⟨5, by omega⟩ : Fin 8)) 5 (show 5 < 8 by omega) S512x4x1
    (shapeCast S512x4x1 x5 shapeCasts_S512x4_S512x4x1) rfl rfl 5 rfl (ix3 r q (0 : Fin 1)) (lane_coords r q _) rfl).trans (lane_apply x5 r q)

/-- Lane 6 of the eight planes laid side by side is plane 6. -/
theorem lanes_apply_6 (x0 x1 x2 x3 x4 x5 x6 x7 : IVec S512x4 32)
    (h : Shape.Concatenates ((lanes x0 x1 x2 x3 x4 x5 x6 x7).map (·.1)) S512x4x8 2) (r : Fin 512) (q : Fin 4) :
    concatenate S512x4x8 2 (lanes x0 x1 x2 x3 x4 x5 x6 x7) h (ix3 r q (⟨6, by omega⟩ : Fin 8)) = x6 (ix2 r q) :=
  (concatenate_apply_piece (2 : Fin 3) (lanes x0 x1 x2 x3 x4 x5 x6 x7) h (ix3 r q (⟨6, by omega⟩ : Fin 8)) 6 (show 6 < 8 by omega) S512x4x1
    (shapeCast S512x4x1 x6 shapeCasts_S512x4_S512x4x1) rfl rfl 6 rfl (ix3 r q (0 : Fin 1)) (lane_coords r q _) rfl).trans (lane_apply x6 r q)

/-- Lane 7 of the eight planes laid side by side is plane 7. -/
theorem lanes_apply_7 (x0 x1 x2 x3 x4 x5 x6 x7 : IVec S512x4 32)
    (h : Shape.Concatenates ((lanes x0 x1 x2 x3 x4 x5 x6 x7).map (·.1)) S512x4x8 2) (r : Fin 512) (q : Fin 4) :
    concatenate S512x4x8 2 (lanes x0 x1 x2 x3 x4 x5 x6 x7) h (ix3 r q (⟨7, by omega⟩ : Fin 8)) = x7 (ix2 r q) :=
  (concatenate_apply_piece (2 : Fin 3) (lanes x0 x1 x2 x3 x4 x5 x6 x7) h (ix3 r q (⟨7, by omega⟩ : Fin 8)) 7 (show 7 < 8 by omega) S512x4x1
    (shapeCast S512x4x1 x7 shapeCasts_S512x4_S512x4x1) rfl rfl 7 rfl (ix3 r q (0 : Fin 1)) (lane_coords r q _) rfl).trans (lane_apply x7 r q)

/-- Eight planes laid side by side along a new last axis: lane `e` of the result is plane `e`. -/
theorem lanes_apply (x0 x1 x2 x3 x4 x5 x6 x7 : IVec S512x4 32)
    (h : Shape.Concatenates ((lanes x0 x1 x2 x3 x4 x5 x6 x7).map (·.1)) S512x4x8 2)
    (r : Fin 512) (q : Fin 4) (e : Fin 8) :
    concatenate S512x4x8 2 (lanes x0 x1 x2 x3 x4 x5 x6 x7) h (ix3 r q e)
      = (![x0 (ix2 r q), x1 (ix2 r q), x2 (ix2 r q), x3 (ix2 r q), x4 (ix2 r q), x5 (ix2 r q), x6 (ix2 r q), x7 (ix2 r q)] : Fin 8 → BitVec 32) e := by
  match e with
  | ⟨0, _⟩ => exact lanes_apply_0 x0 x1 x2 x3 x4 x5 x6 x7 h r q
  | ⟨1, _⟩ => exact lanes_apply_1 x0 x1 x2 x3 x4 x5 x6 x7 h r q
  | ⟨2, _⟩ => exact lanes_apply_2 x0 x1 x2 x3 x4 x5 x6 x7 h r q
  | ⟨3, _⟩ => exact lanes_apply_3 x0 x1 x2 x3 x4 x5 x6 x7 h r q
  | ⟨4, _⟩ => exact lanes_apply_4 x0 x1 x2 x3 x4 x5 x6 x7 h r q
  | ⟨5, _⟩ => exact lanes_apply_5 x0 x1 x2 x3 x4 x5 x6 x7 h r q
  | ⟨6, _⟩ => exact lanes_apply_6 x0 x1 x2 x3 x4 x5 x6 x7 h r q
  | ⟨7, _⟩ => exact lanes_apply_7 x0 x1 x2 x3 x4 x5 x6 x7 h r q

/-- The kernel's named step between levels is the rational 2/7 at the ideal instance. -/
theorem step_eq : Named.named (F := Ideal) κ "c_2_7" (φ := .f32) 0x3E924925#32 = ((2 / 7 : ℝ) : EReal) :=
  IdealRules.named_const.ideal_named_scalar _ _ _ _ rfl

/-- A [512, 1] column of norms spread over the four triples and eight lanes of its row reads the row's norm. -/
theorem norm_apply (v64 : Vec Ideal S512x1 .f32) (r : Fin 512) (q : Fin 4) (e : Fin 8) :
    broadcastTo S512x4x8 (shapeCast S512x1x1 (shapeCast S512x1 v64 shapeCasts_S512x1_S512x1) shapeCasts_S512x1_S512x1x1) broadcasts_S512x1x1_S512x4x8 (ix3 r q e)
      = v64 (ix2 r (0 : Fin 1)) := by
  refine (broadcastTo_apply _ _ (ix3 r q e) (ix3 r (0 : Fin 1) (0 : Fin 1)) ?_).trans ?_
  · intro a
    match a with
    | ⟨0, _⟩ => rfl
    | ⟨1, _⟩ => rfl
    | ⟨2, _⟩ => rfl
  · refine (shapeCast_apply _ _ (ix3 r (0 : Fin 1) (0 : Fin 1)) (ix2 r (0 : Fin 1)) ?_).trans ?_
    · rw [Shape.rowMajor_val_two, Shape.rowMajor_val_three]
      show r.val * 1 + 0 = (r.val * 1 + 0) * 1 + 0
      omega
    · rw [shapeCast_self]

/-- The payload the body stores, at row `r` and lane `l = 8q + e`: the level of code `e` among the eight code planes'
    entries at (r, q), scaled by the row's norm. -/
theorem levels_apply (v12 v14 v18 v27 v31 v35 v39 v41 v42 : IVec S512x4 32) (v64 : Vec Ideal S512x1 .f32)
    (r : Fin 512) (l : Fin 32) (q : Fin 4) (e : Fin 8) (hl : l.val = 8 * q.val + e.val) :
    k0_pay1 (F := Ideal) v12 v14 v18 v27 v31 v35 v39 v41 v42 v64 (ix2 r l)
      = Cert.Linear3Bit.level ((![v14 (ix2 r q), v18 (ix2 r q), v27 (ix2 r q), v31 (ix2 r q), v35 (ix2 r q),
            IntOp.ori (v39 (ix2 r q)) (IntOp.shli .vector (v41 (ix2 r q)) (v42 (ix2 r q))),
            IntOp.andi (IntOp.shrsi .vector (v12 (ix2 r q)) 2#32) 7#32,
            IntOp.andi (IntOp.shrsi .vector (v12 (ix2 r q)) 5#32) 7#32] : Fin 8 → BitVec 32) e)
          (v64 (ix2 r (0 : Fin 1))) := by
  unfold k0_pay1 Cert.Linear3Bit.level
  refine (truncf_apply (s := S512x32) (φ := .f32) (ψ := .bf16) _ bitsLt_bf16_f32 (ix2 r l)).trans ?_
  refine (shapeCast_apply _ _ (ix2 r l) (ix3 r q e) ?_).trans ?_
  · rw [Shape.rowMajor_val_two, Shape.rowMajor_val_three]
    show (r.val * 4 + q.val) * 8 + e.val = r.val * 32 + l.val
    omega
  · refine congrArg₂ (fun a b : EReal => a * b) ?_ (norm_apply v64 r q e)
    refine congrArg₂ (fun a b : EReal => a - b) ?_ rfl
    refine congrArg₂ (fun a b : EReal => a * b) ?_ step_eq
    exact congrArg (fun b : BitVec 32 => ((b.toInt : ℝ) : EReal)) (lanes_apply _ _ _ _ _ _ _ _ _ r q e)

/-! ## One trip's 512 rows and the whole block of 8192 rows -/

/-- The 512 rows of words trip `k` loads are rows 512·k … 512·k + 511 of the block. -/
theorem words_ld (p : Vec Ideal S8192x12 .i32) (k : Fin k0_t1_loop.trips) (r : Fin 512) (w : Fin 12) (g : Fin 8192)
    (hg : g.val = 512 * k.val + r.val) :
    View.ld p (Rect.unit (s := S8192x12) (k0_off1 k) S512x12.size (k0_off1_inb k)) (ix2 r w) = p (ix2 g w) := by
  show p _ = p _
  congr 1
  funext a
  apply Fin.ext
  match a with
  | ⟨0, _⟩ => show k0_off1 k 0 + 1 * r.val = g.val; rw [k0_off1_eq]; show 512 * k.val + 1 * r.val = g.val; omega
  | ⟨1, _⟩ => show k0_off1 k 1 + 1 * w.val = w.val; rw [k0_off1_eq]; show 0 + 1 * w.val = w.val; omega

/-- The 512 norms trip `k` loads are those of rows 512·k … 512·k + 511 of the block. -/
theorem norms_ld (n : Vec Ideal S8192x1 .f32) (k : Fin k0_t1_loop.trips) (r : Fin 512) (g : Fin 8192)
    (hg : g.val = 512 * k.val + r.val) :
    View.ld n (Rect.unit (s := S8192x1) (k0_off2 k) S512x1.size (k0_off2_inb k)) (ix2 r (0 : Fin 1)) = n (ix2 g (0 : Fin 1)) := by
  show n _ = n _
  congr 1
  funext a
  apply Fin.ext
  match a with
  | ⟨0, _⟩ => show k0_off2 k 0 + 1 * r.val = g.val; rw [k0_off2_eq]; show 512 * k.val + 1 * r.val = g.val; omega
  | ⟨1, _⟩ => show k0_off2 k 1 + 1 * 0 = 0; rw [k0_off2_eq]; rfl

/-- Row `r`, lane `l` of what trip `k` stores: the level of code `l % 8` of triple `l / 8` of row `g = 512·k + r` of the
    block's words, scaled by that row's norm. -/
theorem tripRows_apply (p : Vec Ideal S8192x12 .i32) (n : Vec Ideal S8192x1 .f32) (k : Fin k0_t1_loop.trips)
    (r : Fin 512) (l : Fin 32) (g : Fin 8192) (hg : g.val = 512 * k.val + r.val) :
    Dequant.tripRows p n k (ix2 r l)
      = Cert.Linear3Bit.level
          (Cert.Linear3Bit.field (p (ix2 g ⟨3 * (l.val / 8), by omega⟩)) (p (ix2 g ⟨3 * (l.val / 8) + 1, by omega⟩))
            (p (ix2 g ⟨3 * (l.val / 8) + 2, by omega⟩)) ⟨l.val % 8, Nat.mod_lt _ (by norm_num)⟩)
          (n (ix2 g (0 : Fin 1))) := by
  unfold Dequant.tripRows
  refine (levels_apply _ _ _ _ _ _ _ _ _ _ r l ⟨l.val / 8, by omega⟩ ⟨l.val % 8, Nat.mod_lt _ (by norm_num)⟩
    (by show l.val = 8 * (l.val / 8) + l.val % 8; omega)).trans ?_
  refine congrArg₂ (fun (f : Fin 8 → BitVec 32) (x : EReal) => Cert.Linear3Bit.level (f ⟨l.val % 8, Nat.mod_lt _ (by norm_num)⟩) x) ?_
    (norms_ld n k r g hg)
  refine (codes_eq _ r ⟨l.val / 8, by omega⟩).trans ?_
  rw [words_ld p k r _ g hg, words_ld p k r _ g hg, words_ld p k r _ g hg]

/-- Row `g`, lane `l` of the output block, as one function of the two input blocks. -/
theorem block_apply (p : Vec Ideal S8192x12 .i32) (n : Vec Ideal S8192x1 .f32) (y : S8192x32.Idx) :
    Dequant.block p n y
      = Cert.Linear3Bit.level
          (Cert.Linear3Bit.field (p (ix2 (y 0) ⟨3 * ((y 1).val / 8), by have := (y 1).isLt; simp only [Matrix.cons_val_one, Matrix.cons_val_zero] at this ⊢; omega⟩))
            (p (ix2 (y 0) ⟨3 * ((y 1).val / 8) + 1, by have := (y 1).isLt; simp only [Matrix.cons_val_one, Matrix.cons_val_zero] at this ⊢; omega⟩))
            (p (ix2 (y 0) ⟨3 * ((y 1).val / 8) + 2, by have := (y 1).isLt; simp only [Matrix.cons_val_one, Matrix.cons_val_zero] at this ⊢; omega⟩))
            ⟨(y 1).val % 8, Nat.mod_lt _ (by norm_num)⟩)
          (n (ix2 (y 0) (0 : Fin 1))) := by
  unfold Dequant.block
  exact tripRows_apply p n _ ⟨(y 0).val % 512, Nat.mod_lt _ (by norm_num)⟩ (y 1) (y 0)
    (by show (y 0).val = 512 * ((y 0).val / 512) + (y 0).val % 512; omega)

variable (V : (c : Dev nD) → (b : Ref sig .tc) → Buf (Elt Ideal) ((c : Thread nD τ).loc b))

/-! ## From the blocks to the array -/

/-- Equal words, code positions and norms give equal levels. -/
theorem level_congr {b0 b1 b2 b0' b1' b2' : BitVec 32} {e e' : Fin 8} {n n' : EReal}
    (h0 : b0 = b0') (h1 : b1 = b1') (h2 : b2 = b2') (he : e = e') (hn : n = n') :
    Cert.Linear3Bit.level (Cert.Linear3Bit.field b0 b1 b2 e) n = Cert.Linear3Bit.level (Cert.Linear3Bit.field b0' b1' b2' e') n' := by
  subst h0 h1 h2 he hn; rfl

/-- At point `t` each of the three windows is at block `t` along the rows and block 0 along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The block of words staged at point `t` is rows 8192·t … 8192·t + 8191 of the array of words. -/
theorem words_blk (c : Dev nD) (t : Fin cfg0.N) (x : S8192x12.Idx) (i : S524288x12.Idx)
    (h0 : (i 0).val = 8192 * t.val + (x 0).val) (h1 : (i 1).val = (x 1).val) :
    (Dequant.iblk V c 0 t : Vec Ideal S8192x12 .i32) x = (V c main_v0 : S524288x12.Idx → BitVec 32) i := by
  obtain ⟨e0, e1, -⟩ := idx_facts t
  unfold Dequant.iblk
  rw [View.read_apply]
  show V c main_v0 _ = V c main_v0 _
  congr 1
  funext a
  apply Fin.ext
  match a with
  | ⟨0, _⟩ => show win0_0.index t 0 * 8192 + 1 * (x 0).val = (i 0).val; rw [e0, h0]; omega
  | ⟨1, _⟩ => show win0_0.index t 1 * 12 + 1 * (x 1).val = (i 1).val; rw [e1, h1]; omega

/-- The block of norms staged at point `t` is rows 8192·t … 8192·t + 8191 of the array of norms. -/
theorem norms_blk (c : Dev nD) (t : Fin cfg0.N) (x : S8192x1.Idx) (i : S524288x1.Idx)
    (h0 : (i 0).val = 8192 * t.val + (x 0).val) :
    (Dequant.iblk V c 1 t : Vec Ideal S8192x1 .f32) x = (V c main_v1 : S524288x1.Idx → EReal) i := by
  obtain ⟨-, -, e0, e1, -⟩ := idx_facts t
  unfold Dequant.iblk
  rw [View.read_apply]
  show V c main_v1 _ = V c main_v1 _
  congr 1
  funext a
  apply Fin.ext
  match a with
  | ⟨0, _⟩ => show win0_1.index t 0 * 8192 + 1 * (x 0).val = (i 0).val; rw [e0, h0]; omega
  | ⟨1, _⟩ => show win0_1.index t 1 * 1 + 1 * (x 1).val = (i 1).val; rw [e1]; have := (x 1).isLt; have := (i 1).isLt; simp only [Matrix.cons_val_one, Matrix.cons_val_zero] at *; omega

/-- What point `t` writes back is block `t` of the array of levels of the two input arrays. -/
theorem flushed_eq (c : Dev nD) (t : Fin cfg0.N) :
    (Dequant.dat (F := Ideal) V c).flushed 2 t
      = ((cfg0.win 2).blk t).view.read (Elt Ideal) (Cert.Linear3Bit.dequant (V c main_v0) (V c main_v1)) := by
  show (cfg0.win 2).cut (grid0.coords t) ((Dequant.dat (F := Ideal) V c).after 2 t) = _
  rw [Dequant.after_2]
  obtain ⟨-, -, -, -, e0, e1⟩ := idx_facts t
  funext y
  have hy0 : ((((cfg0.win 2).blk t).view.emb y) 0).val = 8192 * t.val + (y 0).val := by
    show win0_2.index t 0 * 8192 + 1 * (y 0).val = _; rw [e0]; omega
  have hy1 : ((((cfg0.win 2).blk t).view.emb y) 1).val = (y 1).val := by
    show win0_2.index t 1 * 32 + 1 * (y 1).val = _; rw [e1]; omega
  refine (block_apply _ _ _).trans ?_
  show _ = Cert.Linear3Bit.level (Cert.Linear3Bit.field _ _ _ _) _
  refine level_congr ?_ ?_ ?_ ?_ ?_
  · exact words_blk V c t _ _ hy0 (congrArg (fun n => 3 * (n / 8)) hy1)
  · exact words_blk V c t _ _ hy0 (congrArg (fun n => 3 * (n / 8) + 1) hy1)
  · exact words_blk V c t _ _ hy0 (congrArg (fun n => 3 * (n / 8) + 2) hy1)
  · exact Fin.ext (congrArg (fun n => n % 8) hy1).symm
  · exact norms_blk V c t _ _ hy0

/-- An index of the array is in point `t`'s block iff each coordinate is in the block's range on its axis. -/
theorem mem_blk (t : Fin cfg0.N) (i : S524288x32.Idx) :
    i ∈ ((cfg0.win 2).blk t).view.set ↔ ∀ a : Fin 2, win0_2.index t a * S8192x32.size a ≤ (i a).val ∧ (i a).val < win0_2.index t a * S8192x32.size a + S8192x32.size a := by
  show i ∈ ((View.whole main_v2).slice (win0_2.rect t)).set ↔ _
  rw [View.set_slice_whole, Rect.mem_set_unit]
  exact Iff.rfl

/-- Every row `g` of the array is in the block of point `g / 8192`, and every point writes its block back. -/
theorem cover (i : S524288x32.Idx) : ∃ t : Fin cfg0.N, (cfg0.win 2).flush t = true ∧ i ∈ ((cfg0.win 2).blk t).view.set := by
  have hi0 : (i 0).val < 524288 := (i 0).isLt
  have hi1 : (i 1).val < 32 := (i 1).isLt
  have hN : cfg0.N = 64 := N_0
  have ht : (i 0).val / 8192 < cfg0.N := by rw [hN]; omega
  obtain ⟨-, -, -, -, e0, e1⟩ := idx_facts ⟨(i 0).val / 8192, ht⟩
  refine ⟨⟨(i 0).val / 8192, ht⟩, flush0_2 _, ?_⟩
  rw [mem_blk]
  intro a
  match a with
  | ⟨0, _⟩ =>
    show win0_2.index ⟨(i 0).val / 8192, ht⟩ 0 * 8192 ≤ (i 0).val ∧ (i 0).val < win0_2.index ⟨(i 0).val / 8192, ht⟩ 0 * 8192 + 8192
    rw [e0]; show (i 0).val / 8192 * 8192 ≤ (i 0).val ∧ (i 0).val < (i 0).val / 8192 * 8192 + 8192; omega
  | ⟨1, _⟩ =>
    show win0_2.index ⟨(i 0).val / 8192, ht⟩ 1 * 32 ≤ (i 1).val ∧ (i 1).val < win0_2.index ⟨(i 0).val / 8192, ht⟩ 1 * 32 + 32
    rw [e1]; omega

/-- The output array after the call is the array of levels of the two input arrays as the call found them. -/
theorem final (c : Dev nD) :
    ((Dequant.dat (F := Ideal) V c).arrAt 2 cfg0.N : S524288x32.Idx → EReal)
      = Cert.Linear3Bit.dequant (V c main_v0) (V c main_v1) :=
  (Dequant.dat (F := Ideal) V c).arrAt_eq_of_cover 2 (Cert.Linear3Bit.dequant (V c main_v0) (V c main_v1))
    (fun t _ => flushed_eq V c t) cover

end Cert.KernelIdeal.DequantValue

end
-- ==== Proof.MatmulValue.lean ====
/-
  What the matrix-product call leaves in its output array, at the ideal instance: entry (r, o) of the [4096, 4096] array
  is the sum over all 4096 k of X[r, k] · W[o, k], plus the bias row's entry o (`Linear3Bit.affine`). The scratch after
  contraction step s of an output tile holds the sum over the first 1024·(s + 1) indices k; step 3 adds the bias and the
  pipeline writes the tile back.
-/
import proofs.«410427_j8254927143226_3_alg».proof.Proof.Matmul
import proofs.«410427_j8254927143226_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MatmulValue

open Cert.KernelIdeal Cert.KernelIdeal.Gen
open Idealize.ShloMosaic Idealize.ShloMosaic.TcCoe Idealize.ShloMosaic.ValueIdx Idealize.SL.Sem
open Idealize.ShloMosaic.Pipeline (Dat)

/-! ## The three payloads at an index, over the extended reals -/

/-- The reset stores zero. -/
theorem pay1_apply (j : S1024x1024.Idx) : (k1_pay1 (F := Ideal)) j = 0 := by
  unfold k1_pay1
  rw [shapeCast_self]
  exact Ideal.ofBits_zero_f32

/-- The product's left operand is read at the output's row … -/
theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and at the contraction index on its second axis. -/
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand is read at the output's column on its first axis (the product is x · wᵀ) … -/
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and at the contraction index on its second. -/
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- A contraction step adds, at (a, b), the sum over the step's 1024 indices k of x[a, k] · w[b, k]. -/
theorem pay2_apply (acc : FVec Ideal S1024x1024 .f32) (x w : FVec Ideal S1024x1024 .bf16) (a b : Fin 1024) :
    k1_pay2 (F := Ideal) acc x w (ix2 a b) = acc (ix2 a b) + ∑ k : Fin 1024, x (ix2 a k) * w (ix2 b k) := by
  unfold k1_pay2
  rw [shapeCast_self, shapeCast_self, shapeCast_self]
  rw [addf_apply]
  refine congrArg (acc (ix2 a b) + ·) ?_
  refine (Ideal.matmul_constant_zero_apply dot_S1024x1024_S1024x1024_S1024x1024_1_1_0_0_n_n none x w (ix2 a b)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 a b) ((ValueIdx.contrEquiv1 dot_S1024x1024_S1024x1024_S1024x1024_1_1_0_0_n_n 1024 rfl rfl).symm k) = ix2 a k := funext fun d => Fin.ext (by
    match d with
    | ⟨0, _⟩ => exact lhs_axis0 _ _
    | ⟨1, _⟩ => exact (lhs_axis1 _ _).trans hk)
  have er : dot_S1024x1024_S1024x1024_S1024x1024_1_1_0_0_n_n.rhsIdx (ix2 a b) ((ValueIdx.contrEquiv1 dot_S1024x1024_S1024x1024_S1024x1024_1_1_0_0_n_n 1024 rfl rfl).symm k) = ix2 b k := funext fun d => Fin.ext (by
    match d with
    | ⟨0, _⟩ => exact rhs_axis0 _ _
    | ⟨1, _⟩ => exact (rhs_axis1 _ _).trans hk)
  rw [el, er]

/-- The last step adds the bias row's entry of the column. -/
theorem pay3_apply (acc : FVec Ideal S1024x1024 .f32) (bias : FVec Ideal S1x1024 .f32) (a o : Fin 1024) :
    k1_pay3 (F := Ideal) acc bias (ix2 a o) = acc (ix2 a o) + bias (ix2 (0 : Fin 1) o) := by
  unfold k1_pay3
  rw [shapeCast_self, addf_apply]
  exact congrArg (acc (ix2 a o) + ·) (broadcastTo_1b_ab_apply bias broadcasts_S1x1024_S1024x1024 a o)

variable (V : (c : Dev nD) → (b : Ref sig .tc) → Buf (Elt Ideal) ((c : Thread nD τ).loc b))

/-! ## The arrays and the staged blocks, by their literal types -/

/-- X, the [4096, 4096] left operand as the call finds it. -/
abbrev xarr (c : Dev nD) : FVec Ideal S4096x4096 .bf16 := V c main_v6
/-- W, the [4096, 4096] weight matrix as the call finds it. -/
abbrev warr (c : Dev nD) : FVec Ideal S4096x4096 .bf16 := V c main_v4
/-- B, the [1, 4096] bias row as the call finds it. -/
abbrev barr (c : Dev nD) : FVec Ideal S1x4096 .f32 := V c main_v7
/-- The block of X staged at point t. -/
abbrev xblk (c : Dev nD) (t : Fin cfg1.N) : FVec Ideal S1024x1024 .bf16 := Matmul.iblk V c 0 t
/-- The block of W staged at point t. -/
abbrev wblk (c : Dev nD) (t : Fin cfg1.N) : FVec Ideal S1024x1024 .bf16 := Matmul.iblk V c 1 t
/-- The piece of the bias row staged at point t. -/
abbrev bblk (c : Dev nD) (t : Fin cfg1.N) : FVec Ideal S1x1024 .f32 := Matmul.iblk V c 2 t

/-- Position a of tile i % 4 on an axis of 4096 cut into four tiles of 1024. -/
def at4 (i : ℕ) (a : Fin 1024) : Fin 4096 := ⟨1024 * (i % 4) + a.val, by have := a.isLt; omega⟩

/-- Its value: 1024 · (i % 4) + a. -/
theorem at4_val (i : ℕ) (a : Fin 1024) : (at4 i a).val = 1024 * (i % 4) + a.val := rfl

/-- The block index of every window at flat point t = 16 i + 4 j + s: X's block (i, s), W's block (j, s), the bias
    row's piece (0, j), the output's tile (i, j). -/
theorem idx_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- X's block at point n is X[1024 (n / 16) …, 1024 (n % 4) …]. -/
theorem xblk_apply (c : Dev nD) (n : ℕ) (hn : n < cfg1.N) (a k : Fin 1024) :
    xblk V c ⟨n, hn⟩ (ix2 a k) = xarr V c (ix2 (at4 (n / 16) a) (at4 n k)) := by
  have hN : cfg1.N = 64 := N_1
  obtain ⟨e0, e1, -⟩ := idx_facts ⟨n, hn⟩
  unfold xblk Matmul.iblk
  rw [View.read_apply]
  show V c main_v6 _ = V c main_v6 _
  congr 1
  funext d
  apply Fin.ext
  match d with
  | ⟨0, _⟩ => show win1_0.index ⟨n, hn⟩ 0 * 1024 + 1 * a.val = 1024 * (n / 16 % 4) + a.val; rw [e0]; show n / 16 * 1024 + 1 * a.val = _; omega
  | ⟨1, _⟩ => show win1_0.index ⟨n, hn⟩ 1 * 1024 + 1 * k.val = 1024 * (n % 4) + k.val; rw [e1]; show n % 4 * 1024 + 1 * k.val = _; omega

/-- W's block at point n is W[1024 (n / 4 % 4) …, 1024 (n % 4) …]. -/
theorem wblk_apply (c : Dev nD) (n : ℕ) (hn : n < cfg1.N) (b k : Fin 1024) :
    wblk V c ⟨n, hn⟩ (ix2 b k) = warr V c (ix2 (at4 (n / 4) b) (at4 n k)) := by
  obtain ⟨-, -, e0, e1, -⟩ := idx_facts ⟨n, hn⟩
  unfold wblk Matmul.iblk
  rw [View.read_apply]
  show V c main_v4 _ = V c main_v4 _
  congr 1
  funext d
  apply Fin.ext
  match d with
  | ⟨0, _⟩ => show win1_1.index ⟨n, hn⟩ 0 * 1024 + 1 * b.val = 1024 * (n / 4 % 4) + b.val; rw [e0]; show n / 4 % 4 * 1024 + 1 * b.val = _; omega
  | ⟨1, _⟩ => show win1_1.index ⟨n, hn⟩ 1 * 1024 + 1 * k.val = 1024 * (n % 4) + k.val; rw [e1]; show n % 4 * 1024 + 1 * k.val = _; omega

/-- The bias piece at point n is B[0, 1024 (n / 4 % 4) …]. -/
theorem bblk_apply (c : Dev nD) (n : ℕ) (hn : n < cfg1.N) (o : Fin 1024) :
    bblk V c ⟨n, hn⟩ (ix2 (0 : Fin 1) o) = barr V c (ix2 (0 : Fin 1) (at4 (n / 4) o)) := by
  obtain ⟨-, -, -, -, e0, e1, -⟩ := idx_facts ⟨n, hn⟩
  unfold bblk Matmul.iblk
  rw [View.read_apply]
  show V c main_v7 _ = V c main_v7 _
  congr 1
  funext d
  apply Fin.ext
  match d with
  | ⟨0, _⟩ => show win1_2.index ⟨n, hn⟩ 0 * 1 + 1 * 0 = 0; rw [e0]
  | ⟨1, _⟩ => show win1_2.index ⟨n, hn⟩ 1 * 1024 + 1 * o.val = 1024 * (n / 4 % 4) + o.val; rw [e1]; show n / 4 % 4 * 1024 + 1 * o.val = _; omega

/-! ## The scratch after each point -/

/-- Contraction chunk q of entry (r, o) of X · Wᵀ: the sum over the chunk's 1024 indices k of X[r, 1024 q + k] · W[o, 1024 q + k]. -/
def chunk (c : Dev nD) (r o : Fin 4096) (q : ℕ) : EReal :=
  ∑ k : Fin 1024, xarr V c (ix2 r (at4 q k)) * warr V c (ix2 o (at4 q k))

/-- What one step adds to the scratch at (a, b): the step's chunk of the entry the tile holds there. -/
theorem step_eq (c : Dev nD) (n : ℕ) (hn : n < cfg1.N) (a b : Fin 1024) :
    ∑ k : Fin 1024, xblk V c ⟨n, hn⟩ (ix2 a k) * wblk V c ⟨n, hn⟩ (ix2 b k)
      = chunk V c (at4 (n / 16) a) (at4 (n / 4) b) n := by
  unfold chunk
  exact Finset.sum_congr rfl fun k _ => by rw [xblk_apply V c n hn a k, wblk_apply V c n hn b k]

/-- A chunk depends on the step modulo 4 only. -/
theorem chunk_mod (c : Dev nD) (r o : Fin 4096) (q : ℕ) : chunk V c r o (q % 4) = chunk V c r o q := by
  unfold chunk
  have e : ∀ k : Fin 1024, at4 (q % 4) k = at4 q k := fun k => Fin.ext (by rw [at4_val, at4_val]; omega)
  exact Finset.sum_congr rfl fun k _ => by rw [e k]

/-- The scratch after a contraction step 0, over the blocks' literal types: the step's product onto zero. -/
theorem accAt_zero' (c : Dev nD) (n : ℕ) (hn : n < cfg1.N) (h : n % 4 = 0) :
    Matmul.accAt V c n hn = k1_pay2 (F := Ideal) (k1_pay1 (F := Ideal)) (xblk V c ⟨n, hn⟩) (wblk V c ⟨n, hn⟩) :=
  Matmul.accAt_first V c ⟨n, hn⟩ h

/-- The scratch after a later contraction step: the step's product onto what the point before left. -/
theorem accAt_succ' (c : Dev nD) (m : ℕ) (hn : m + 1 < cfg1.N) (h : (m + 1) % 4 ≠ 0) :
    Matmul.accAt V c (m + 1) hn
      = k1_pay2 (F := Ideal) (Matmul.accAt V c m (Nat.lt_of_succ_lt hn)) (xblk V c ⟨m + 1, hn⟩) (wblk V c ⟨m + 1, hn⟩) :=
  Matmul.accAt_next V c ⟨m + 1, hn⟩ h

/-- After the point of flat position n (contraction step n % 4 of its output tile) the scratch holds, at (a, b), the
    first n % 4 + 1 chunks of the tile's entry there. -/
theorem acc_eq (c : Dev nD) : ∀ (n : ℕ) (hn : n < cfg1.N) (a b : Fin 1024),
    Matmul.accAt V c n hn (ix2 a b)
      = ∑ q ∈ Finset.range (n % 4 + 1), chunk V c (at4 (n / 16) a) (at4 (n / 4) b) q
  | 0, hn, a, b => by
    rw [accAt_zero' V c 0 hn rfl, pay2_apply, pay1_apply, zero_add, step_eq]
    exact (Finset.sum_range_one _).symm
  | m + 1, hn, a, b => by
    by_cases h : (m + 1) % 4 = 0
    · rw [accAt_zero' V c (m + 1) hn h, pay2_apply, pay1_apply, zero_add, step_eq, h, ← chunk_mod, h]
      exact (Finset.sum_range_one _).symm
    · rw [accAt_succ' V c m hn h, pay2_apply, acc_eq c m (Nat.lt_of_succ_lt hn) a b, step_eq, ← chunk_mod]
      have e1 : (m + 1) / 16 = m / 16 := by omega
      have e2 : (m + 1) / 4 = m / 4 := by omega
      have e3 : (m + 1) % 4 = m % 4 + 1 := by omega
      rw [e1, e2, e3]
      exact (Finset.sum_range_succ _ (m % 4 + 1)).symm

/-! ## The four chunks are the whole contraction -/

/-- A sum over 4096 indices is the sum of its four runs of 1024. -/
theorem sum_split (f : Fin 4096 → EReal) :
    ∑ k : Fin 4096, f k = ∑ q ∈ Finset.range 4, ∑ k : Fin 1024, f (at4 q k) := by
  rw [Finset.sum_range, ← Equiv.sum_comp (finProdFinEquiv (m := 4) (n := 1024)) f, Fintype.sum_prod_type]
  refine Finset.sum_congr rfl fun q _ => Finset.sum_congr rfl fun k _ => congrArg f (Fin.ext ?_)
  show k.val + 1024 * q.val = 1024 * (q.val % 4) + k.val
  have := q.isLt
  omega

/-- What a last contraction step stores into the output block at (a, o): the whole entry of X · Wᵀ + B. -/
theorem out_apply (c : Dev nD) (n : ℕ) (hn : n < cfg1.N) (h3 : n % 4 = 3) (a o : Fin 1024) :
    Matmul.outAt V c ⟨n, hn⟩ (ix2 a o)
      = Cert.Linear3Bit.affine (xarr V c) (warr V c) (barr V c) (ix2 (at4 (n / 16) a) (at4 (n / 4) o)) := by
  unfold Matmul.outAt
  refine (pay3_apply (Matmul.accAt V c n hn) (bblk V c ⟨n, hn⟩) a o).trans ?_
  rw [acc_eq V c n hn a o, bblk_apply V c n hn o, h3]
  show _ = (∑ k : Fin 4096, xarr V c (ix2 (at4 (n / 16) a) k) * warr V c (ix2 (at4 (n / 4) o) k))
      + barr V c (ix2 (0 : Fin 1) (at4 (n / 4) o))
  rw [sum_split fun k => xarr V c (ix2 (at4 (n / 16) a) k) * warr V c (ix2 (at4 (n / 4) o) k)]
  rfl

/-! ## From the written-back tiles to the array -/

/-- The point whose last contraction step writes tile t back writes that tile of X · Wᵀ + B. -/
theorem flushed_eq (c : Dev nD) (t : Fin cfg1.N) (hf : (cfg1.win 3).flush t = true) :
    (Matmul.dat (F := Ideal) V c).flushed 3 t
      = ((cfg1.win 3).blk t).view.read (Elt Ideal) (Cert.Linear3Bit.affine (xarr V c) (warr V c) (barr V c)) := by
  have hN : cfg1.N = 64 := N_1
  have h3 : t.val % 4 = 3 := (flush1_3 t).mp hf
  obtain ⟨n, hn⟩ := t
  obtain ⟨-, -, -, -, -, -, e0, e1⟩ := idx_facts ⟨n, hn⟩
  show (cfg1.win 3).cut (grid1.coords ⟨n, hn⟩) ((Matmul.dat (F := Ideal) V c).after 3 ⟨n, hn⟩) = _
  rw [Matmul.after_3]
  funext y
  rw [View.read_apply]
  have ha : (y 0).val < 1024 := (y 0).isLt
  have ho : (y 1).val < 1024 := (y 1).isLt
  have hx : (cfg1.win 3).xinj (grid1.coords ⟨n, hn⟩) y = ix2 (⟨(y 0).val, ha⟩ : Fin 1024) (⟨(y 1).val, ho⟩ : Fin 1024) :=
    funext fun d => match d with
      | ⟨0, _⟩ => rfl
      | ⟨1, _⟩ => rfl
  show Matmul.outAt V c ⟨n, hn⟩ ((cfg1.win 3).xinj (grid1.coords ⟨n, hn⟩) y)
    = Cert.Linear3Bit.affine (xarr V c) (warr V c) (barr V c) (((cfg1.win 3).blk ⟨n, hn⟩).view.emb y)
  rw [hx]
  refine (out_apply V c n hn h3 ⟨(y 0).val, ha⟩ ⟨(y 1).val, ho⟩).trans ?_
  refine congrArg (Cert.Linear3Bit.affine (xarr V c) (warr V c) (barr V c)) (funext fun d => Fin.ext ?_)
  match d with
  | ⟨0, _⟩ =>
    show 1024 * (n / 16 % 4) + (y 0).val = win1_3.index ⟨n, hn⟩ 0 * 1024 + 1 * (y 0).val
    rw [e0]; show _ = n / 16 * 1024 + 1 * (y 0).val; omega
  | ⟨1, _⟩ =>
    show 1024 * (n / 4 % 4) + (y 1).val = win1_3.index ⟨n, hn⟩ 1 * 1024 + 1 * (y 1).val
    rw [e1]; show _ = n / 4 % 4 * 1024 + 1 * (y 1).val; omega

/-- Entry (r, o) lies in the tile the point 16 (r / 1024) + 4 (o / 1024) + 3 writes back. -/
theorem cover (i : S4096x4096.Idx) :
    ∃ t : Fin cfg1.N, (cfg1.win 3).flush t = true ∧ i ∈ ((cfg1.win 3).blk t).view.set := by
  have hN : cfg1.N = 64 := N_1
  have h0 : (i 0).val < 4096 := (i 0).isLt
  have h1 : (i 1).val < 4096 := (i 1).isLt
  have ht : 16 * ((i 0).val / 1024) + 4 * ((i 1).val / 1024) + 3 < cfg1.N := by rw [hN]; omega
  obtain ⟨-, -, -, -, -, -, e0, e1⟩ := idx_facts ⟨_, ht⟩
  refine ⟨⟨_, ht⟩, (flush1_3 _).mpr (by show (16 * ((i 0).val / 1024) + 4 * ((i 1).val / 1024) + 3) % 4 = 3; omega), ?_⟩
  show i ∈ ((View.whole main_v8).slice (win1_3.rect ⟨_, ht⟩)).set
  rw [View.set_slice_whole, Rect.mem_set_unit]
  intro a
  match a with
  | ⟨0, _⟩ =>
    show win1_3.index ⟨_, ht⟩ 0 * 1024 ≤ (i 0).val ∧ (i 0).val < win1_3.index ⟨_, ht⟩ 0 * 1024 + 1024
    rw [e0]
    show (16 * ((i 0).val / 1024) + 4 * ((i 1).val / 1024) + 3) / 16 * 1024 ≤ (i 0).val
      ∧ (i 0).val < (16 * ((i 0).val / 1024) + 4 * ((i 1).val / 1024) + 3) / 16 * 1024 + 1024
    omega
  | ⟨1, _⟩ =>
    show win1_3.index ⟨_, ht⟩ 1 * 1024 ≤ (i 1).val ∧ (i 1).val < win1_3.index ⟨_, ht⟩ 1 * 1024 + 1024
    rw [e1]
    show (16 * ((i 0).val / 1024) + 4 * ((i 1).val / 1024) + 3) / 4 % 4 * 1024 ≤ (i 1).val
      ∧ (i 1).val < (16 * ((i 0).val / 1024) + 4 * ((i 1).val / 1024) + 3) / 4 % 4 * 1024 + 1024
    omega

/-- The output array after the call is X · Wᵀ + B of the three input arrays as the call found them. -/
theorem final (c : Dev nD) :
    ((Matmul.dat (F := Ideal) V c).arrAt 3 cfg1.N : S4096x4096.Idx → EReal)
      = Cert.Linear3Bit.affine (V c main_v6) (V c main_v4) (V c main_v7) :=
  (Matmul.dat (F := Ideal) V c).arrAt_eq_of_cover 3 (Cert.Linear3Bit.affine (xarr V c) (warr V c) (barr V c))
    (flushed_eq V c) cover

end Cert.KernelIdeal.MatmulValue

end
-- ==== Proof.KernelValue.lean ====
/-
  The idealized kernel program's result, at the ideal instance, is the 3-bit linear layer of its four arguments.
  The fold of Run.lean is read backwards from the result buffer: the last reshape [4096, 4096] → [2, 2048, 4096] of the
  matrix-product call's output, which is X · Wᵀ + B of its three input arrays (MatmulValue); X is x reshaped to
  [4096, 4096] (the change of format is the identity), B the bias as a row, and W the dequantization call's output
  (DequantValue) flattened and reshaped to [4096, 4096], its inputs being the packed words as [524288, 12] and the norms
  as [524288, 1]. Entry (o, i) of W is therefore row 128·o + i / 32, lane i % 32 of the array of levels: `Linear3Bit.weight`.
-/
import proofs.«410427_j8254927143226_3_alg».proof.Proof.Run
import proofs.«410427_j8254927143226_3_alg».proof.Proof.DequantValue
import proofs.«410427_j8254927143226_3_alg».proof.Proof.MatmulValue
import proofs.«410427_j8254927143226_3_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The fold, read one buffer at a time -/

/-- The first call's words: the packed argument as [524288, 12]. -/
theorem W1_v0 (c : Dev nD) :
    Run.W1 m c (Proc.devRef .tc main_v0) = shapeCast S524288x12 (m ((c.tc : Thread nD τ).loc main_arg1)) shapeCasts_S6291456_S524288x12 := by
  show StableHlo.after hostOps0 (Run.W0 m c) (Proc.devRef .tc main_v0) = _
  after_results; rfl

/-- The first call's norms: the norm argument as [524288, 1]. -/
theorem W1_v1 (c : Dev nD) :
    Run.W1 m c (Proc.devRef .tc main_v1) = shapeCast S524288x1 (m ((c.tc : Thread nD τ).loc main_arg2)) shapeCasts_S524288_S524288x1 := by
  show StableHlo.after hostOps0 (Run.W0 m c) (Proc.devRef .tc main_v1) = _
  after_results; rfl

/-- The first call leaves its output array in `main_v2`. -/
theorem W2_v2 (c : Dev nD) :
    Run.W2 m c (Proc.devRef .tc main_v2) = (Dequant.dat (Run.VA m) c).arrAt 2 cfg0.N := by
  unfold Run.W2; exact Pipeline.withArrays_arr spec0 launch0.win.arr_inj c _ _ 2

/-- A buffer that is no window's array of the first call passes it unchanged. -/
theorem W2_of_ne (c : Dev nD) (b : Ref sig .tc) (hb : ∀ w, Pipeline.arrRef spec0 w ≠ b) :
    Run.W2 m c (Proc.devRef .tc b) = Run.W1 m c (Proc.devRef .tc b) := by
  unfold Run.W2; exact Pipeline.withArrays_of_ne spec0 c _ _ b hb

/-- An argument passes the first host stretch unchanged. -/
theorem W1_arg0 (c : Dev nD) : Run.W1 m c (Proc.devRef .tc main_arg0) = m ((c.tc : Thread nD τ).loc main_arg0) := by
  show StableHlo.after hostOps0 (Run.W0 m c) (Proc.devRef .tc main_arg0) = _
  after_results
theorem W1_arg3 (c : Dev nD) : Run.W1 m c (Proc.devRef .tc main_arg3) = m ((c.tc : Thread nD τ).loc main_arg3) := by
  show StableHlo.after hostOps0 (Run.W0 m c) (Proc.devRef .tc main_arg3) = _
  after_results

/-- The second call's X: x as [4096, 4096], its format changed. -/
theorem W3_v6 (c : Dev nD) :
    Run.W3 m c (Proc.devRef .tc main_v6)
      = (truncf .bf16 (shapeCast S4096x4096 (m ((c.tc : Thread nD τ).loc main_arg0)) shapeCasts_S2x2048x4096_S4096x4096 : FVec Ideal S4096x4096 .f32) bitsLt_bf16_f32 : FVec Ideal S4096x4096 .bf16) := by
  show StableHlo.after hostOps1 (Run.W2 m c) (Proc.devRef .tc main_v6) = _
  after_results
  rw [W2_of_ne m c main_arg0 (by decide), W1_arg0]
  rfl

/-- The second call's W: the first call's output, flattened and laid out as [4096, 4096]. -/
theorem W3_v4 (c : Dev nD) :
    Run.W3 m c (Proc.devRef .tc main_v4)
      = shapeCast S4096x4096 (shapeCast S16777216 ((Dequant.dat (Run.VA m) c).arrAt 2 cfg0.N) shapeCasts_S524288x32_S16777216) shapeCasts_S16777216_S4096x4096 := by
  show StableHlo.after hostOps1 (Run.W2 m c) (Proc.devRef .tc main_v4) = _
  after_results
  rw [W2_v2]
  rfl

/-- The second call's B: the bias as a row. -/
theorem W3_v7 (c : Dev nD) :
    Run.W3 m c (Proc.devRef .tc main_v7) = shapeCast S1x4096 (m ((c.tc : Thread nD τ).loc main_arg3)) shapeCasts_S4096_S1x4096 := by
  show StableHlo.after hostOps1 (Run.W2 m c) (Proc.devRef .tc main_v7) = _
  after_results
  rw [W2_of_ne m c main_arg3 (by decide), W1_arg3]
  rfl

/-- The second call leaves its output array in `main_v8`. -/
theorem W4_v8 (c : Dev nD) :
    Run.W4 m c (Proc.devRef .tc main_v8) = (Matmul.dat (Run.VB m) c).arrAt 3 cfg1.N := by
  unfold Run.W4; exact Pipeline.withArrays_arr spec1 launch1.win.arr_inj c _ _ 3

/-- The program's result: the second call's output as [2, 2048, 4096]. -/
theorem W5_v9 (c : Dev nD) :
    Run.W5 m c (Proc.devRef .tc main_v9)
      = shapeCast S2x2048x4096 ((Matmul.dat (Run.VB m) c).arrAt 3 cfg1.N) shapeCasts_S4096x4096_S2x2048x4096 := by
  show StableHlo.after hostOps2 (Run.W4 m c) (Proc.devRef .tc main_v9) = _
  after_results
  rw [W4_v8]
  rfl

/-! ## Layouts read at an index -/

/-- Entry (o, k) of a [524288, 32] array flattened and laid out as [4096, 4096] is its entry (128·o + k / 32, k % 32). -/
theorem relaid_apply {α : Type} (D : S524288x32.Idx → α) (o k : Fin 4096) :
    shapeCast S4096x4096 (shapeCast S16777216 D shapeCasts_S524288x32_S16777216) shapeCasts_S16777216_S4096x4096 (ix2 o k)
      = D (ix2 (⟨128 * o.val + k.val / 32, by have := o.isLt; have := k.isLt; omega⟩ : Fin 524288) (⟨k.val % 32, Nat.mod_lt _ (by norm_num)⟩ : Fin 32)) := by
  rw [shapeCast_apply _ shapeCasts_S16777216_S4096x4096 (ix2 o k) (ix1 (⟨4096 * o.val + k.val, by have := o.isLt; have := k.isLt; omega⟩ : Fin 16777216))
    (by rw [Shape.rowMajor_val_one, Shape.rowMajor_val_two]; show 4096 * o.val + k.val = o.val * 4096 + k.val; omega)]
  rw [shapeCast_apply D shapeCasts_S524288x32_S16777216 (ix1 (⟨4096 * o.val + k.val, by have := o.isLt; have := k.isLt; omega⟩ : Fin 16777216))
    (ix2 (⟨128 * o.val + k.val / 32, by have := o.isLt; have := k.isLt; omega⟩ : Fin 524288) (⟨k.val % 32, Nat.mod_lt _ (by norm_num)⟩ : Fin 32))
    (by rw [Shape.rowMajor_val_one, Shape.rowMajor_val_two]; show (128 * o.val + k.val / 32) * 32 + k.val % 32 = 4096 * o.val + k.val; omega)]

/-- Entry (g, e) of a flat array of 6291456 laid out as [524288, 12] is its entry 12·g + e. -/
theorem words_apply {α : Type} (pk : S6291456.Idx → α) (g : Fin 524288) (e : Fin 12) :
    shapeCast S524288x12 pk shapeCasts_S6291456_S524288x12 (ix2 g e)
      = pk (ix1 (⟨12 * g.val + e.val, by have := g.isLt; have := e.isLt; omega⟩ : Fin 6291456)) := by
  rw [shapeCast_apply pk shapeCasts_S6291456_S524288x12 (ix2 g e) (ix1 (⟨12 * g.val + e.val, by have := g.isLt; have := e.isLt; omega⟩ : Fin 6291456))
    (by rw [Shape.rowMajor_val_one, Shape.rowMajor_val_two]; show 12 * g.val + e.val = g.val * 12 + e.val; omega)]

/-- Entry (g, 0) of a flat array of 524288 laid out as a column is its entry g. -/
theorem norms_apply {α : Type} (nm : S524288.Idx → α) (g : Fin 524288) :
    shapeCast S524288x1 nm shapeCasts_S524288_S524288x1 (ix2 g (0 : Fin 1)) = nm (ix1 g) := by
  rw [shapeCast_apply nm shapeCasts_S524288_S524288x1 (ix2 g (0 : Fin 1)) (ix1 g)
    (by rw [Shape.rowMajor_val_one, Shape.rowMajor_val_two]; show g.val = g.val * 1 + 0; omega)]

/-- Entry (0, o) of a flat array of 4096 laid out as a row is its entry o. -/
theorem row_apply {α : Type} (bs : S4096.Idx → α) (o : Fin 4096) :
    shapeCast S1x4096 bs shapeCasts_S4096_S1x4096 (ix2 (0 : Fin 1) o) = bs (ix1 o) := by
  rw [shapeCast_apply bs shapeCasts_S4096_S1x4096 (ix2 (0 : Fin 1) o) (ix1 o)
    (by rw [Shape.rowMajor_val_one, Shape.rowMajor_val_two]; show o.val = 0 * 4096 + o.val; omega)]

/-- Entry (2048·b + s, k) of a [2, 2048, 4096] array laid out as [4096, 4096] is its entry (b, s, k). -/
theorem rows_apply {α : Type} (x : S2x2048x4096.Idx → α) (b : Fin 2) (s : Fin 2048) (k : Fin 4096) :
    shapeCast S4096x4096 x shapeCasts_S2x2048x4096_S4096x4096 (ix2 (⟨2048 * b.val + s.val, by have := b.isLt; have := s.isLt; omega⟩ : Fin 4096) k)
      = x (ix3 b s k) := by
  rw [shapeCast_apply x shapeCasts_S2x2048x4096_S4096x4096 (ix2 (⟨2048 * b.val + s.val, by have := b.isLt; have := s.isLt; omega⟩ : Fin 4096) k) (ix3 b s k)
    (by rw [Shape.rowMajor_val_three, Shape.rowMajor_val_two]; show (b.val * 2048 + s.val) * 4096 + k.val = (2048 * b.val + s.val) * 4096 + k.val; omega)]

/-- Entry (b, s, o) of a [4096, 4096] array laid out as [2, 2048, 4096] is its entry (2048·b + s, o). -/
theorem unrows_apply {α : Type} (y : S4096x4096.Idx → α) (b : Fin 2) (s : Fin 2048) (o : Fin 4096) :
    shapeCast S2x2048x4096 y shapeCasts_S4096x4096_S2x2048x4096 (ix3 b s o)
      = y (ix2 (⟨2048 * b.val + s.val, by have := b.isLt; have := s.isLt; omega⟩ : Fin 4096) o) := by
  rw [shapeCast_apply y shapeCasts_S4096x4096_S2x2048x4096 (ix3 b s o) (ix2 (⟨2048 * b.val + s.val, by have := b.isLt; have := s.isLt; omega⟩ : Fin 4096) o)
    (by rw [Shape.rowMajor_val_three, Shape.rowMajor_val_two]; show (2048 * b.val + s.val) * 4096 + o.val = (b.val * 2048 + s.val) * 4096 + o.val; omega)]

/-! ## The second call's three inputs at an index -/

/-- X's entry (2048·b + s, k) is x's entry (b, s, k). -/
theorem X_entry (c : Dev nD) (b : Fin 2) (s : Fin 2048) (k : Fin 4096) :
    (Run.VB m c main_v6 : S4096x4096.Idx → EReal) (ix2 (⟨2048 * b.val + s.val, by have := b.isLt; have := s.isLt; omega⟩ : Fin 4096) k)
      = (m ((c.tc : Thread nD τ).loc main_arg0) : S2x2048x4096.Idx → EReal) (ix3 b s k) := by
  rw [show (Run.VB m c main_v6 : S4096x4096.Idx → EReal) = _ from W3_v6 m c, truncf_apply, rows_apply]

/-- B's entry (0, o) is the bias's entry o. -/
theorem B_entry (c : Dev nD) (o : Fin 4096) :
    (Run.VB m c main_v7 : S1x4096.Idx → EReal) (ix2 (0 : Fin 1) o)
      = (m ((c.tc : Thread nD τ).loc main_arg3) : S4096.Idx → EReal) (ix1 o) := by
  rw [show (Run.VB m c main_v7 : S1x4096.Idx → EReal) = _ from W3_v7 m c, row_apply]

/-- W's entry (o, k) is the weight matrix's: row 128·o + k / 32, lane k % 32 of the array of levels the first call leaves. -/
theorem W_entry (c : Dev nD) (o k : Fin 4096) :
    (Run.VB m c main_v4 : S4096x4096.Idx → EReal) (ix2 o k)
      = Cert.Linear3Bit.weight (m ((c.tc : Thread nD τ).loc main_arg1)) (m ((c.tc : Thread nD τ).loc main_arg2)) o k := by
  rw [show (Run.VB m c main_v4 : S4096x4096.Idx → EReal) = _ from W3_v4 m c, relaid_apply,
    show ((Dequant.dat (Run.VA m) c).arrAt 2 cfg0.N : S524288x32.Idx → EReal) = _ from DequantValue.final (Run.VA m) c]
  unfold Cert.Linear3Bit.dequant Cert.Linear3Bit.weight
  rw [show (Run.VA m c main_v0 : S524288x12.Idx → BitVec 32) = _ from W1_v0 m c,
    show (Run.VA m c main_v1 : S524288x1.Idx → EReal) = _ from W1_v1 m c]
  dsimp only
  rw [words_apply, words_apply, words_apply, norms_apply]
  have he : (⟨k.val % 32 % 8, Nat.mod_lt _ (by norm_num)⟩ : Fin 8) = ⟨k.val % 8, Nat.mod_lt _ (by norm_num)⟩ := Fin.ext (by show k.val % 32 % 8 = k.val % 8; omega)
  rw [he]
  rfl

/-! ## The result -/

/-- The kernel program's result buffer at the end of the run is the layer of the launch contents of the four arguments. -/
theorem result_eq (c : Dev nD) :
    (Run.W5 m c (Proc.devRef .tc main_v9) : S2x2048x4096.Idx → EReal)
      = Cert.Linear3Bit.result (m ((c.tc : Thread nD τ).loc main_arg0)) (m ((c.tc : Thread nD τ).loc main_arg1))
          (m ((c.tc : Thread nD τ).loc main_arg2)) (m ((c.tc : Thread nD τ).loc main_arg3)) := by
  rw [W5_v9]
  funext y
  obtain ⟨b, s, o, rfl⟩ : ∃ (b : Fin 2) (s : Fin 2048) (o : Fin 4096), y = ix3 b s o := ⟨y 0, y 1, y 2, eq_ix3 y⟩
  rw [unrows_apply, show ((Matmul.dat (Run.VB m) c).arrAt 3 cfg1.N : S4096x4096.Idx → EReal) = _ from MatmulValue.final (Run.VB m) c]
  unfold Cert.Linear3Bit.affine Cert.Linear3Bit.result
  dsimp only
  rw [B_entry]
  congr 1
  exact Finset.sum_congr rfl fun k _ => by rw [X_entry, W_entry]

end Cert.KernelIdeal.KernelValue

end
-- ==== Proof.RefValue.lean ====
/-
  The reference program's result, at the ideal instance, is the 3-bit linear layer of its four arguments
  (`Linear3Bit.result`): its 95 host operations unpack the eight codes of every word triple, map a code q to
  (q / 7 · 2 − 1) · norm — the same extended real as (q · 2/7 − 1) · norm, q being an integer —, lay the levels out as the
  [4096, 4096] weight matrix, contract x's last axis against the matrix's second, and add the bias along the last axis.
-/
import proofs.«410427_j8254927143226_3_alg».proof.Proof.Gen.ReferenceIdeal.Run
import proofs.«410427_j8254927143226_3_alg».proof.Proof.Gen.ReferenceIdeal.Read
import proofs.«410427_j8254927143226_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.SL.Sem

/-! ## Indices named by their coordinates -/

/-- An index of rank 1 is the one its coordinate names. -/
theorem eq_ix1_of {n : Nat} (k : (⟨1, ![n]⟩ : Shape).Idx) (p : Fin n) (h0 : (k 0).val = p.val) : k = ix1 p := by
  funext d
  match d with
  | ⟨0, _⟩ => exact Fin.ext h0

/-- An index of rank 2 is the one its coordinates name. -/
theorem eq_ix2_of {n0 n1 : Nat} (k : (⟨2, ![n0, n1]⟩ : Shape).Idx) (p : Fin n0) (q : Fin n1)
    (h0 : (k 0).val = p.val) (h1 : (k 1).val = q.val) : k = ix2 p q := by
  funext d
  match d with
  | ⟨0, _⟩ => exact Fin.ext h0
  | ⟨1, _⟩ => exact Fin.ext h1

/-- An index of rank 3 is the one its coordinates name. -/
theorem eq_ix3_of {n0 n1 n2 : Nat} (k : (⟨3, ![n0, n1, n2]⟩ : Shape).Idx) (p : Fin n0) (q : Fin n1) (r : Fin n2)
    (h0 : (k 0).val = p.val) (h1 : (k 1).val = q.val) (h2 : (k 2).val = r.val) : k = ix3 p q r := by
  funext d
  match d with
  | ⟨0, _⟩ => exact Fin.ext h0
  | ⟨1, _⟩ => exact Fin.ext h1
  | ⟨2, _⟩ => exact Fin.ext h2

/-! ## The three word planes: words 12·g + 3·a, + 1, + 2 of the packed array -/

/-- Row `g`, triple `a` of the first word plane is word `12·g + 3·a` of the packed array. -/
theorem word0 (x1 : IVec S6291456 32) (g : Fin 524288) (a : Fin 4) :
    Read.val_main_v2 (F := Ideal) x1 (ix2 g a) = x1 (ix1 ⟨12 * g.val + 3 * a.val, by omega⟩) := by
  rw [Read.val_main_v2_apply, Read.val_main_v1_apply, Read.val_main_v0_apply]
  congr 1
  funext d
  match d with
  | ⟨0, _⟩ =>
    exact Fin.ext (by
      show ((g.val * 4 + a.val) / 4 * 4 + (g.val * 4 + a.val) / 1 % 4) * 3 + 0 = 12 * g.val + 3 * a.val
      omega)

/-- Row `g`, triple `a` of the second word plane is word `12·g + 3·a + 1`. -/
theorem word1 (x1 : IVec S6291456 32) (g : Fin 524288) (a : Fin 4) :
    Read.val_main_v4 (F := Ideal) x1 (ix2 g a) = x1 (ix1 ⟨12 * g.val + 3 * a.val + 1, by omega⟩) := by
  rw [Read.val_main_v4_apply, Read.val_main_v3_apply, Read.val_main_v0_apply]
  congr 1
  funext d
  match d with
  | ⟨0, _⟩ =>
    exact Fin.ext (by
      show ((g.val * 4 + a.val) / 4 * 4 + (g.val * 4 + a.val) / 1 % 4) * 3 + (1 + 0) = 12 * g.val + 3 * a.val + 1
      omega)

/-- Row `g`, triple `a` of the third word plane is word `12·g + 3·a + 2`. -/
theorem word2 (x1 : IVec S6291456 32) (g : Fin 524288) (a : Fin 4) :
    Read.val_main_v6 (F := Ideal) x1 (ix2 g a) = x1 (ix1 ⟨12 * g.val + 3 * a.val + 2, by omega⟩) := by
  rw [Read.val_main_v6_apply, Read.val_main_v5_apply, Read.val_main_v0_apply]
  congr 1
  funext d
  match d with
  | ⟨0, _⟩ =>
    exact Fin.ext (by
      show ((g.val * 4 + a.val) / 4 * 4 + (g.val * 4 + a.val) / 1 % 4) * 3 + (2 + 0) = 12 * g.val + 3 * a.val + 2
      omega)

/-! ## The eight codes of a word triple -/

/-! Each of the eight [524288, 4] code planes from the three word planes, entry by entry: the entries of `field`. A shift
    of a 32-bit word is the same word whichever unit computes it. -/

/-- Code 0: bits 0–2 of the first word. -/
theorem code0 (x1 : IVec S6291456 32) (j : S524288x4.Idx) :
    Read.val_main_v8 (F := Ideal) x1 j = IntOp.andi (Read.val_main_v2 (F := Ideal) x1 j) 7#32 := by
  rw [Read.val_main_v8_apply, Read.val_main_v7_apply, Read.val_main_c_apply]

/-- Code 1: bits 3–5 of the first word. -/
theorem code1 (x1 : IVec S6291456 32) (j : S524288x4.Idx) :
    Read.val_main_v12 (F := Ideal) x1 j
      = IntOp.andi (IntOp.shrsi .vector (Read.val_main_v2 (F := Ideal) x1 j) 3#32) 7#32 := by
  rw [Read.val_main_v12_apply, Read.val_main_v10_apply, Read.val_main_v9_apply, Read.val_main_c_0_apply,
    Read.val_main_v11_apply, Read.val_main_c_1_apply, shrsi_unit .host .vector]

/-- Code 2: bits 6–7 of the first word below bit 0 of the second. -/
theorem code2 (x1 : IVec S6291456 32) (j : S524288x4.Idx) :
    Read.val_main_v21 (F := Ideal) x1 j
      = IntOp.ori (IntOp.andi (IntOp.shrsi .vector (Read.val_main_v2 (F := Ideal) x1 j) 6#32) 3#32)
          (IntOp.shli .vector (IntOp.andi (Read.val_main_v4 (F := Ideal) x1 j) 1#32) 2#32) := by
  rw [Read.val_main_v21_apply, Read.val_main_v16_apply, Read.val_main_v14_apply, Read.val_main_v13_apply,
    Read.val_main_c_2_apply, Read.val_main_v15_apply, Read.val_main_c_3_apply, Read.val_main_v20_apply,
    Read.val_main_v18_apply, Read.val_main_v17_apply, Read.val_main_c_4_apply, Read.val_main_v19_apply,
    Read.val_main_c_5_apply, shrsi_unit .host .vector, shli_unit .host .vector]

/-- Code 3: bits 1–3 of the second word. -/
theorem code3 (x1 : IVec S6291456 32) (j : S524288x4.Idx) :
    Read.val_main_v25 (F := Ideal) x1 j
      = IntOp.andi (IntOp.shrsi .vector (Read.val_main_v4 (F := Ideal) x1 j) 1#32) 7#32 := by
  rw [Read.val_main_v25_apply, Read.val_main_v23_apply, Read.val_main_v22_apply, Read.val_main_c_6_apply,
    Read.val_main_v24_apply, Read.val_main_c_7_apply, shrsi_unit .host .vector]

/-- Code 4: bits 4–6 of the second word. -/
theorem code4 (x1 : IVec S6291456 32) (j : S524288x4.Idx) :
    Read.val_main_v29 (F := Ideal) x1 j
      = IntOp.andi (IntOp.shrsi .vector (Read.val_main_v4 (F := Ideal) x1 j) 4#32) 7#32 := by
  rw [Read.val_main_v29_apply, Read.val_main_v27_apply, Read.val_main_v26_apply, Read.val_main_c_8_apply,
    Read.val_main_v28_apply, Read.val_main_c_9_apply, shrsi_unit .host .vector]

/-- Code 5: bit 7 of the second word below bits 0–1 of the third. -/
theorem code5 (x1 : IVec S6291456 32) (j : S524288x4.Idx) :
    Read.val_main_v38 (F := Ideal) x1 j
      = IntOp.ori (IntOp.andi (IntOp.shrsi .vector (Read.val_main_v4 (F := Ideal) x1 j) 7#32) 1#32)
          (IntOp.shli .vector (IntOp.andi (Read.val_main_v6 (F := Ideal) x1 j) 3#32) 1#32) := by
  rw [Read.val_main_v38_apply, Read.val_main_v33_apply, Read.val_main_v31_apply, Read.val_main_v30_apply,
    Read.val_main_c_10_apply, Read.val_main_v32_apply, Read.val_main_c_11_apply, Read.val_main_v37_apply,
    Read.val_main_v35_apply, Read.val_main_v34_apply, Read.val_main_c_12_apply, Read.val_main_v36_apply,
    Read.val_main_c_13_apply, shrsi_unit .host .vector, shli_unit .host .vector]

/-- Code 6: bits 2–4 of the third word. -/
theorem code6 (x1 : IVec S6291456 32) (j : S524288x4.Idx) :
    Read.val_main_v42 (F := Ideal) x1 j
      = IntOp.andi (IntOp.shrsi .vector (Read.val_main_v6 (F := Ideal) x1 j) 2#32) 7#32 := by
  rw [Read.val_main_v42_apply, Read.val_main_v40_apply, Read.val_main_v39_apply, Read.val_main_c_14_apply,
    Read.val_main_v41_apply, Read.val_main_c_15_apply, shrsi_unit .host .vector]

/-- Code 7: bits 5–7 of the third word. -/
theorem code7 (x1 : IVec S6291456 32) (j : S524288x4.Idx) :
    Read.val_main_v46 (F := Ideal) x1 j
      = IntOp.andi (IntOp.shrsi .vector (Read.val_main_v6 (F := Ideal) x1 j) 5#32) 7#32 := by
  rw [Read.val_main_v46_apply, Read.val_main_v44_apply, Read.val_main_v43_apply, Read.val_main_c_16_apply,
    Read.val_main_v45_apply, Read.val_main_c_17_apply, shrsi_unit .host .vector]

/-- Eight [524288, 4, 1] planes joined along the last axis: lane `e` of the result at row `g`, triple `a` is plane `e`
    there. -/
theorem concat8_apply (u0 u1 u2 u3 u4 u5 u6 u7 : IVec S524288x4x1 32)
    (h : Shape.Concatenates [S524288x4x1, S524288x4x1, S524288x4x1, S524288x4x1, S524288x4x1, S524288x4x1, S524288x4x1,
      S524288x4x1] S524288x4x8 2) (g : Fin 524288) (a : Fin 4) (e : Fin 8) :
    concatenate S524288x4x8 2 [⟨S524288x4x1, u0⟩, ⟨S524288x4x1, u1⟩, ⟨S524288x4x1, u2⟩, ⟨S524288x4x1, u3⟩,
      ⟨S524288x4x1, u4⟩, ⟨S524288x4x1, u5⟩, ⟨S524288x4x1, u6⟩, ⟨S524288x4x1, u7⟩] h (ix3 g a e)
      = (![u0, u1, u2, u3, u4, u5, u6, u7] e) (ix3 g a (0 : Fin 1)) :=
  concatenate_ofFn_unit_apply (t := S524288x4x8) (s₁ := S524288x4x1) 2 ![u0, u1, u2, u3, u4, u5, u6, u7] h rfl rfl
    (ix3 g a e) e rfl (ix3 g a (0 : Fin 1)) (fun b hb => by
      match b with
      | ⟨0, _⟩ => rfl
      | ⟨1, _⟩ => rfl
      | ⟨2, _⟩ => exact absurd rfl hb)

/-- The [524288, 4] index with coordinates `g`, `a`. -/
theorem plane_idx (k : S524288x4.Idx) (g : Fin 524288) (a : Fin 4) (h0 : (k 0).val = g.val) (h1 : (k 1).val = a.val) :
    k = ix2 g a := eq_ix2_of k g a h0 h1

/-- The [524288, 4, 8] array of codes: at row `g`, triple `a`, lane `e` it is entry `e` of `field` of the three words
    `12·g + 3·a`, `+ 1`, `+ 2` of the packed array. -/
theorem codes (x1 : IVec S6291456 32) (g : Fin 524288) (a : Fin 4) (e : Fin 8) :
    Read.val_main_v55 (F := Ideal) x1 (ix3 g a e)
      = Cert.Linear3Bit.field (x1 (ix1 ⟨12 * g.val + 3 * a.val, by omega⟩))
          (x1 (ix1 ⟨12 * g.val + 3 * a.val + 1, by omega⟩)) (x1 (ix1 ⟨12 * g.val + 3 * a.val + 2, by omega⟩)) e := by
  unfold Read.val_main_v55
  rw [concat8_apply, ← word0 x1 g a, ← word1 x1 g a, ← word2 x1 g a]
  unfold Cert.Linear3Bit.field
  match e with
  | ⟨0, _⟩ =>
    show Read.val_main_v47 (F := Ideal) x1 (ix3 g a (0 : Fin 1)) = _
    rw [Read.val_main_v47_apply, plane_idx (Read.idx_main_v47 (ix3 g a (0 : Fin 1))) g a rfl rfl, code0]; rfl
  | ⟨1, _⟩ =>
    show Read.val_main_v48 (F := Ideal) x1 (ix3 g a (0 : Fin 1)) = _
    rw [Read.val_main_v48_apply, plane_idx (Read.idx_main_v48 (ix3 g a (0 : Fin 1))) g a rfl rfl, code1]; rfl
  | ⟨2, _⟩ =>
    show Read.val_main_v49 (F := Ideal) x1 (ix3 g a (0 : Fin 1)) = _
    rw [Read.val_main_v49_apply, plane_idx (Read.idx_main_v49 (ix3 g a (0 : Fin 1))) g a rfl rfl, code2]; rfl
  | ⟨3, _⟩ =>
    show Read.val_main_v50 (F := Ideal) x1 (ix3 g a (0 : Fin 1)) = _
    rw [Read.val_main_v50_apply, plane_idx (Read.idx_main_v50 (ix3 g a (0 : Fin 1))) g a rfl rfl, code3]; rfl
  | ⟨4, _⟩ =>
    show Read.val_main_v51 (F := Ideal) x1 (ix3 g a (0 : Fin 1)) = _
    rw [Read.val_main_v51_apply, plane_idx (Read.idx_main_v51 (ix3 g a (0 : Fin 1))) g a rfl rfl, code4]; rfl
  | ⟨5, _⟩ =>
    show Read.val_main_v52 (F := Ideal) x1 (ix3 g a (0 : Fin 1)) = _
    rw [Read.val_main_v52_apply, plane_idx (Read.idx_main_v52 (ix3 g a (0 : Fin 1))) g a rfl rfl, code5]; rfl
  | ⟨6, _⟩ =>
    show Read.val_main_v53 (F := Ideal) x1 (ix3 g a (0 : Fin 1)) = _
    rw [Read.val_main_v53_apply, plane_idx (Read.idx_main_v53 (ix3 g a (0 : Fin 1))) g a rfl rfl, code6]; rfl
  | ⟨7, _⟩ =>
    show Read.val_main_v54 (F := Ideal) x1 (ix3 g a (0 : Fin 1)) = _
    rw [Read.val_main_v54_apply, plane_idx (Read.idx_main_v54 (ix3 g a (0 : Fin 1))) g a rfl rfl, code7]; rfl

/-! ## A code's level -/

/-- The word the reference divides by denotes 7. -/
theorem ofBits_seven : Ideal.ofBits .f32 0x40E00000#32 = ((7 : ℝ) : EReal) := by
  simp [Ideal.ofBits, Ideal.ieee, -EReal.coe_mul]; norm_num

/-- The word the reference multiplies by denotes 2. -/
theorem ofBits_two : Ideal.ofBits .f32 0x40000000#32 = ((2 : ℝ) : EReal) := by
  simp [Ideal.ofBits, Ideal.ieee, -EReal.coe_mul]; norm_num

/-- For a real `q`, `q / 7 · 2` is `q · (2/7)` on the extended reals. -/
theorem scale_eq (q : ℝ) :
    Ideal.div (q : EReal) (Ideal.ofBits .f32 0x40E00000#32) * Ideal.ofBits .f32 0x40000000#32
      = (q : EReal) * ((2 / 7 : ℝ) : EReal) := by
  rw [ofBits_seven, ofBits_two, Ideal.div_coe (by norm_num : (7 : ℝ) ≠ 0), ← EReal.coe_mul, ← EReal.coe_mul,
    ← EReal.coe_mul]
  congr 1
  ring

/-- The [524288, 32] array of levels: at row `r`, lane `l` it is `level` of the code there and of the row's norm. -/
theorem level_eq (x1 : IVec S6291456 32) (x2 : FVec Ideal S524288 .f32) (r : Fin 524288) (l : Fin 32) :
    Read.val_main_v66 (F := Ideal) x1 x2 (ix2 r l)
      = Cert.Linear3Bit.level (Read.val_main_v56 (F := Ideal) x1 (ix2 r l)) (x2 (ix1 r)) := by
  rw [Read.val_main_v66_apply, Read.val_main_v63_apply, Read.val_main_v61_apply, Read.val_main_v59_apply,
    Read.val_main_v57_apply, Read.val_main_v58_apply, Read.val_main_cst_apply, Read.val_main_v60_apply,
    Read.val_main_cst_18_apply, Read.val_main_v62_apply, Read.val_main_cst_19_apply, Read.val_main_v65_apply,
    Read.val_main_v64_apply, eq_ix1_of (Read.idx_main_v64 (Read.idx_main_v65 (ix2 r l))) r rfl]
  simp only [Ideal.mulf_def, Ideal.subf_def, Ideal.hostDivf_def, Ideal.ofBits_def]
  unfold Cert.Linear3Bit.level
  rw [← scale_eq]
  rfl

/-! ## The weight matrix -/

/-- Entry (o, i) of the [4096, 4096] matrix the reference contracts against is `weight`: flat element 4096·o + i of the
    levels, that is row 128·o + i / 32, lane i % 32 of the [524288, 32] array, triple (i % 32) / 8 and code i % 8 of
    the [524288, 4, 8] array of codes. -/
theorem weight_eq (x1 : IVec S6291456 32) (x2 : FVec Ideal S524288 .f32) (o i : Fin 4096) :
    Read.val_main_v68 (F := Ideal) x1 x2 (ix2 o i) = Cert.Linear3Bit.weight x1 x2 o i := by
  have ho := o.isLt
  have hi := i.isLt
  rw [Read.val_main_v68_apply, Read.val_main_v67_apply,
    eq_ix2_of (Read.idx_main_v67 (Read.idx_main_v68 (ix2 o i)))
      (⟨128 * o.val + i.val / 32, by omega⟩ : Fin 524288) (⟨i.val % 32, by omega⟩ : Fin 32)
      (by show (o.val * 4096 + i.val) / 32 = 128 * o.val + i.val / 32; omega)
      (by show (o.val * 4096 + i.val) % 32 = i.val % 32; omega),
    level_eq, Read.val_main_v56_apply,
    eq_ix3_of (Read.idx_main_v56 (ix2 (⟨128 * o.val + i.val / 32, by omega⟩ : Fin 524288) (⟨i.val % 32, by omega⟩ : Fin 32)))
      (⟨128 * o.val + i.val / 32, by omega⟩ : Fin 524288) (⟨i.val % 32 / 8, by omega⟩ : Fin 4) (⟨i.val % 8, by omega⟩ : Fin 8)
      (by show ((128 * o.val + i.val / 32) * 32 + i.val % 32) / 32 = 128 * o.val + i.val / 32; omega)
      (by show ((128 * o.val + i.val / 32) * 32 + i.val % 32) / 8 % 4 = i.val % 32 / 8; omega)
      (by show ((128 * o.val + i.val / 32) * 32 + i.val % 32) % 8 = i.val % 8; omega),
    codes]
  rfl

/-! ## The layer -/

/-- The reference's last stage is the layer: the contraction of x's last axis against the weight matrix's second, plus
    the bias along the last axis. -/
theorem result_val (x0 : FVec Ideal S2x2048x4096 .f32) (x1 : IVec S6291456 32) (x2 : FVec Ideal S524288 .f32)
    (x3 : FVec Ideal S4096 .f32) :
    Read.val_main_v72 (F := Ideal) x0 x1 x2 x3 = Cert.Linear3Bit.result x0 x1 x2 x3 := by
  funext y
  obtain ⟨b, s, o, rfl⟩ : ∃ (b : Fin 2) (s : Fin 2048) (o : Fin 4096), y = ix3 b s o := ⟨y 0, y 1, y 2, eq_ix3 y⟩
  rw [Read.val_main_v72_apply, Read.val_main_v69_apply, Read.val_main_v71_apply, Read.val_main_v70_apply,
    eq_ix1_of (Read.idx_main_v70 (Read.idx_main_v71 (ix3 b s o))) o rfl]
  refine congrArg₂ (· + ·) (Finset.sum_congr rfl fun k _ => ?_) rfl
  rw [eq_ix3_of (Read.lidx_main_v69 (ix3 b s o) k) b s k rfl rfl rfl,
    eq_ix2_of (Read.ridx_main_v69 (ix3 b s o) k) o k rfl rfl, weight_eq]

/-- The reference run's result term is the layer of the launch contents of the four arguments. -/
theorem result_eq (m : (ℓ : Loc nD τ sig) → Buf (Elt Ideal) ℓ) (c : Dev nD) :
    (Cert.ReferenceIdeal.Value.res_out0 (F := Ideal) m c : S2x2048x4096.Idx → EReal)
      = Cert.Linear3Bit.result (m ((c.tc : Thread nD τ).loc main_arg0)) (m ((c.tc : Thread nD τ).loc main_arg1))
          (m ((c.tc : Thread nD τ).loc main_arg2)) (m ((c.tc : Thread nD τ).loc main_arg3)) :=
  (Read.val_main_v72_eq m c).trans (result_val _ _ _ _)

end Cert.ReferenceIdeal.RefValue

end
-- ==== Proof.lean ====
/-
  The certificate of a 3-bit quantized linear layer: a kernel program of two kernel calls against a plain reference.

  Both idealized programs compute, over the extended reals, y[b, s, o] = Σ_k x[b, s, k] · W[o, k] + bias[o], where W is the
  4096 × 4096 matrix of levels (q · 2/7 − 1) · norm unpacked from 3-bit codes q (Proof/Spec.lean). The kernel program does it
  with a dequantization call (64 blocks of 8192 groups, 512 groups per loop trip) and a tiled matrix product that accumulates
  four contraction steps in a scratch and adds the bias at the last (Proof/Dequant.lean, Proof/Matmul.lean, the run over
  both in Proof/Run.lean, the arrays they leave in Proof/DequantValue.lean and Proof/MatmulValue.lean, the result read
  through the host reshapes in Proof/KernelValue.lean); the reference by 95 host operations (Proof/RefValue.lean), its level
  spelt (q / 7 · 2 − 1) · norm, the same extended real for an integer q. The kernel's constant 2/7 is the named constant
  of the idealization, whose one ledger entry is `preserves`. The word-level program's frame is the idealized program's
  argument at the other instance (Proof/Word/).
-/
import proofs.«410427_j8254927143226_3_alg».proof.Defs
import proofs.«410427_j8254927143226_3_alg».proof.Proof.Gen.Kernel
import proofs.«410427_j8254927143226_3_alg».proof.Proof.Gen.KernelIdeal
import proofs.«410427_j8254927143226_3_alg».proof.Proof.Gen.ReferenceIdeal
import proofs.«410427_j8254927143226_3_alg».proof.Proof.Gen.Pre_finite_inputs
import proofs.«410427_j8254927143226_3_alg».proof.Proof.Gen.ReferenceIdeal.Run
import proofs.«410427_j8254927143226_3_alg».proof.Proof.Word.Run
import proofs.«410427_j8254927143226_3_alg».proof.Proof.Run
import proofs.«410427_j8254927143226_3_alg».proof.Proof.KernelValue
import proofs.«410427_j8254927143226_3_alg».proof.Proof.RefValue
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_word : Cert.frame_Kernel := fun m ρ _ => Cert.Kernel.Run.frame m ρ

/-- So does the idealized program. -/
theorem frame_ideal : Cert.frame_KernelIdeal := fun m ρ _ => Cert.KernelIdeal.Run.frame m ρ

/-- The reference's frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The ledger's one entry: the table gives the name "c_2_7" the value 2/7, and the printed constant is that value at the
    ideal instance. -/
theorem preserves : Cert.preserves_Kernel_KernelIdeal :=
  IdealRules.named_const.statement Cert.KernelIdeal.κ "c_2_7" .f32 0x3E924925#32 ((2 / 7 : ℝ) : EReal) rfl

/-- From memories agreeing on the four arguments both idealized programs end with the layer of those arguments in their
    result buffer, the arguments unchanged. -/
theorem algebraic : Cert.algebraic_KernelIdeal_ReferenceIdeal := by
  intro m ρ m' ρ' _ hagree
  refine ⟨fun c => Cert.Linear3Bit.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Run.run_main (F := Ideal) m ρ)
    exact ⟨(h c _ (Cert.KernelIdeal.Run.mem_uc Cert.KernelIdeal.main_v9 (by decide))).trans (Cert.KernelIdeal.KernelValue.result_eq m c),
      (h c _ (Cert.KernelIdeal.Run.mem_uc Cert.KernelIdeal.main_arg0 (by decide))).trans (Cert.KernelIdeal.Run.W5_main_arg0 m c),
      (h c _ (Cert.KernelIdeal.Run.mem_uc Cert.KernelIdeal.main_arg1 (by decide))).trans (Cert.KernelIdeal.Run.W5_main_arg1 m c),
      (h c _ (Cert.KernelIdeal.Run.mem_uc Cert.KernelIdeal.main_arg2 (by decide))).trans (Cert.KernelIdeal.Run.W5_main_arg2 m c),
      (h c _ (Cert.KernelIdeal.Run.mem_uc Cert.KernelIdeal.main_arg3 (by decide))).trans (Cert.KernelIdeal.Run.W5_main_arg3 m c)⟩
  · refine (θ_run Cert.ReferenceIdeal.defs _ _).mono (fun r h c => ⟨(h c).1.trans ?_, (h c).2⟩)
      (Cert.ReferenceIdeal.Value.run (F := Ideal) m' ρ')
    refine (Cert.ReferenceIdeal.RefValue.result_eq m' c).trans ?_
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
